-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S2x3x256 : Shape := ⟨3, ![2, 3, 256]⟩
abbrev S1x3x128x512 : Shape := ⟨4, ![1, 3, 128, 512]⟩
abbrev S1x3x256 : Shape := ⟨3, ![1, 3, 256]⟩
abbrev S3x256 : Shape := ⟨2, ![3, 256]⟩
abbrev S3x128x512 : Shape := ⟨3, ![3, 128, 512]⟩
abbrev S3x65536 : Shape := ⟨2, ![3, 65536]⟩
abbrev S1x16 : Shape := ⟨2, ![1, 16]⟩
abbrev S1x65536 : Shape := ⟨2, ![1, 65536]⟩
abbrev S65536 : Shape := ⟨1, ![65536]⟩
abbrev S65536x1 : Shape := ⟨2, ![65536, 1]⟩
abbrev S65536x16 : Shape := ⟨2, ![65536, 16]⟩
abbrev S16x16 : Shape := ⟨2, ![16, 16]⟩
abbrev S1x256 : Shape := ⟨2, ![1, 256]⟩
abbrev S256 : Shape := ⟨1, ![256]⟩
abbrev S_ : Shape := ⟨0, ![]⟩
abbrev S3 : Shape := ⟨1, ![3]⟩

abbrev nBuf : Space → Nat
  | .hbm => 37
  | .vmem => 10
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S2x3x256, .f32⟩
  | .hbm, ⟨3, _⟩ => ⟨S_, .f32⟩
  | .hbm, ⟨4, _⟩ => ⟨S3x256, .f32⟩
  | .hbm, ⟨5, _⟩ => ⟨S2x3x256, .f32⟩
  | .hbm, ⟨6, _⟩ => ⟨S_, .f32⟩
  | .hbm, ⟨7, _⟩ => ⟨S3x256, .f32⟩
  | .hbm, ⟨8, _⟩ => ⟨S3x256, .f32⟩
  | .hbm, ⟨9, _⟩ => ⟨S3x256, .f32⟩
  | .hbm, ⟨10, _⟩ => ⟨S_, .f32⟩
  | .hbm, ⟨11, _⟩ => ⟨S3, .f32⟩
  | .hbm, ⟨12, _⟩ => ⟨S_, .f32⟩
  | .hbm, ⟨13, _⟩ => ⟨S3, .f32⟩
  | .hbm, ⟨14, _⟩ => ⟨S_, .f32⟩
  | .hbm, ⟨15, _⟩ => ⟨S3, .f32⟩
  | .hbm, ⟨16, _⟩ => ⟨S3, .f32⟩
  | .hbm, ⟨17, _⟩ => ⟨S_, .f32⟩
  | .hbm, ⟨18, _⟩ => ⟨S3, .f32⟩
  | .hbm, ⟨19, _⟩ => ⟨S_, .f32⟩
  | .hbm, ⟨20, _⟩ => ⟨S3, .f32⟩
  | .hbm, ⟨21, _⟩ => ⟨S3, .f32⟩
  | .hbm, ⟨22, _⟩ => ⟨S3, .f32⟩
  | .hbm, ⟨23, _⟩ => ⟨S3, .f32⟩
  | .hbm, ⟨24, _⟩ => ⟨S_, .f32⟩
  | .hbm, ⟨25, _⟩ => ⟨S3, .f32⟩
  | .hbm, ⟨26, _⟩ => ⟨S3, .f32⟩
  | .hbm, ⟨27, _⟩ => ⟨S3, .f32⟩
  | .hbm, ⟨28, _⟩ => ⟨S_, .f32⟩
  | .hbm, ⟨29, _⟩ => ⟨S3, .f32⟩
  | .hbm, ⟨30, _⟩ => ⟨S3, .f32⟩
  | .hbm, ⟨31, _⟩ => ⟨S_, .f32⟩
  | .hbm, ⟨32, _⟩ => ⟨S3, .f32⟩
  | .hbm, ⟨33, _⟩ => ⟨S3, .f32⟩
  | .hbm, ⟨34, _⟩ => ⟨S3, .f32⟩
  | .hbm, ⟨35, _⟩ => ⟨S_, .f32⟩
  | .hbm, ⟨36, _⟩ => ⟨S_, .f32⟩
  | .local _ .vmem, ⟨0, _⟩ => ⟨S1x3x128x512, .f32⟩
  | .local _ .vmem, ⟨1, _⟩ => ⟨S1x3x128x512, .f32⟩
  | .local _ .vmem, ⟨2, _⟩ => ⟨S1x3x256, .f32⟩
  | .local _ .vmem, ⟨3, _⟩ => ⟨S1x3x256, .f32⟩
  | .local _ .vmem, ⟨4, _⟩ => ⟨S3x256, .f32⟩
  | .local _ .vmem, ⟨5, _⟩ => ⟨S1x3x128x512, .f32⟩
  | .local _ .vmem, ⟨6, _⟩ => ⟨S1x3x128x512, .f32⟩
  | .local _ .vmem, ⟨7, _⟩ => ⟨S1x3x256, .f32⟩
  | .local _ .vmem, ⟨8, _⟩ => ⟨S1x3x256, .f32⟩
  | .local _ .vmem, ⟨9, _⟩ => ⟨S3x256, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨3, ![2, 16, 4], ![false, false, false]⟩

def k0_cond2 (i : grid0.Coords) : BitVec 1 :=
  let arg1 : BitVec 32 := BitVec.ofNat 32 (i 1).val
  let c15_i32 : BitVec 32 := 15#32
  let v144 : BitVec 1 := Scalar.cmpi .eq arg1 c15_i32
  let arg2 : BitVec 32 := BitVec.ofNat 32 (i 2).val
  let c3_i32 : BitVec 32 := 3#32
  let v145 : BitVec 1 := Scalar.cmpi .eq arg2 c3_i32
  let v146 : BitVec 1 := Scalar.andi v144 v145
  let v147 : BitVec 32 := Scalar.extui v146
  let c0_i32_32 : BitVec 32 := 0#32
  let v148 : BitVec 1 := Scalar.cmpi .ne v147 c0_i32_32
  v148

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev grid1 : Pipeline.Grid := ⟨3, ![2, 16, 4], ![false, false, false]⟩

def k1_cond2 (i : grid1.Coords) : BitVec 1 :=
  let arg1 : BitVec 32 := BitVec.ofNat 32 (i 1).val
  let c15_i32 : BitVec 32 := 15#32
  let v144 : BitVec 1 := Scalar.cmpi .eq arg1 c15_i32
  let arg2 : BitVec 32 := BitVec.ofNat 32 (i 2).val
  let c3_i32 : BitVec 32 := 3#32
  let v145 : BitVec 1 := Scalar.cmpi .eq arg2 c3_i32
  let v146 : BitVec 1 := Scalar.andi v144 v145
  let v147 : BitVec 32 := Scalar.extui v146
  let c0_i32_32 : BitVec 32 := 0#32
  let v148 : BitVec 1 := Scalar.cmpi .ne v147 c0_i32_32
  v148

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x3x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

class Facts₀ : Prop where
  inb_S3x256_S3x256_0_0 : ∀ a, (![0, 0] : Fin 2 → Nat) a + S3x256.size a ≤ S3x256.size a
  h_S3x256 : 0 < S3x256.numel
  shapeCasts_S3x256_S3x256 : S3x256.ShapeCasts S3x256
  inb_S1x3x128x512_S1x3x128x512_0_0_0_0 : ∀ a, (![0, 0, 0, 0] : Fin 4 → Nat) a + S1x3x128x512.size a ≤ S1x3x128x512.size a
  h_S1x3x128x512 : 0 < S1x3x128x512.numel
  shapeCasts_S1x3x128x512_S3x128x512 : S1x3x128x512.ShapeCasts S3x128x512
  natLt_1_32 : 1 < 32
  shapeCasts_S3x128x512_S3x65536 : S3x128x512.ShapeCasts S3x65536
  iota_S1x16_d1_w32 : S1x16.Iotas .tc 32 [1]
  slices_S3x65536_o0_0_S1x65536 : S3x65536.Slices ![0, 0] S1x65536
  shapeCasts_S1x65536_S65536 : S1x65536.ShapeCasts S65536
  shapeCasts_S65536_S65536x1 : S65536.ShapeCasts S65536x1
  broadcasts_S65536x1_S65536x16 : S65536x1.Broadcasts S65536x16
  broadcasts_S1x16_S65536x16 : S1x16.Broadcasts S65536x16
  bitsLt_bf16_f32 : FTy.bits .bf16 < FTy.bits .f32
  inb_S3x256_S1x256_0_0 : ∀ a, (![0, 0] : Fin 2 → Nat) a + S1x256.size a ≤ S3x256.size a
  h_S1x256 : 0 < S1x256.numel
  shapeCasts_S1x256_S256 : S1x256.ShapeCasts S256
  shapeCasts_S16x16_S256 : S16x16.ShapeCasts S256
  shapeCasts_S256_S1x256 : S256.ShapeCasts S1x256
  slices_S3x65536_o1_0_S1x65536 : S3x65536.Slices ![1, 0] S1x65536
  inb_S3x256_S1x256_1_0 : ∀ a, (![1, 0] : Fin 2 → Nat) a + S1x256.size a ≤ S3x256.size a
  slices_S3x65536_o2_0_S1x65536 : S3x65536.Slices ![2, 0] S1x65536
  inb_S3x256_S1x256_2_0 : ∀ a, (![2, 0] : Fin 2 → Nat) a + S1x256.size a ≤ S3x256.size a
  inb_S1x3x256_S1x3x256_0_0_0 : ∀ a, (![0, 0, 0] : Fin 3 → Nat) a + S1x3x256.size a ≤ S1x3x256.size a
  h_S1x3x256 : 0 < S1x3x256.numel
  shapeCasts_S1x3x256_S3x256 : S1x3x256.ShapeCasts S3x256
  shapeCasts_S3x256_S1x3x256 : S3x256.ShapeCasts S1x3x256
  reducesTo_S2x3x256_S3x256_d0 : S2x3x256.ReducesTo [0] S3x256
  h_S_ : 0 < S_.numel
  reducesTo_S3x256_S3_d1 : S3x256.ReducesTo [1] S3
  bcast_S_S3 : S_.BroadcastsInDim S3 (![] : Fin 0 → Fin S3.rank)
  reducesTo_S3_S_d0 : S3.ReducesTo [0] S_
  dot_S65536x16_S65536x16_S16x16_0_0_1_1_n_n_wf : DotDims.WF S65536x16 S65536x16 S16x16 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x128x512.size a ≤ S32x3x512x512.size a
  hwx0_0 : ∀ i : grid0.Coords, EltTy.bits .f32 = 32 ∨ (Rect.block (s := S32x3x512x512) S1x3x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x256.size a ≤ S2x3x256.size a
  hwx0_1 : ∀ i : grid0.Coords, EltTy.bits .f32 = 32 ∨ (Rect.block (s := S2x3x256) S1x3x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x128x512.size a ≤ S32x3x512x512.size a
  hwx1_0 : ∀ i : grid1.Coords, EltTy.bits .f32 = 32 ∨ (Rect.block (s := S32x3x512x512) S1x3x128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3x256.size a ≤ S2x3x256.size a
  hwx1_1 : ∀ i : grid1.Coords, EltTy.bits .f32 = 32 ∨ (Rect.block (s := S2x3x256) S1x3x256.size (cc1_transform_1 i) (hinb1_1 i)).WholeWords (EltTy.packing .f32)

variable [Facts₀]

def dot_S65536x16_S65536x16_S16x16_0_0_1_1_n_n : DotDims S65536x16 S65536x16 S16x16 where
  lhsContracting := [0]
  rhsContracting := [0]
  lhsNonContracting := [1]
  rhsNonContracting := [1]
  lhsBatch := []
  rhsBatch := []
  wf := dot_S65536x16_S65536x16_S16x16_0_0_1_1_n_n_wf

abbrev win0_0 : Pipeline.Window sig grid0 :=
  Pipeline.Window.ofSpec (Memref.whole main_arg0) S1x3x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1x3x128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x3x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

class Facts : Prop extends Facts₀ where

variable [Facts]
-- ==== ReferenceIdeal.lean ====
abbrev S32x3x512x512 : Shape := ⟨4, ![32, 3, 512, 512]⟩
abbrev S_ : Shape := ⟨0, ![]⟩
abbrev S3 : Shape := ⟨1, ![3]⟩
abbrev S1x3x1x1 : Shape := ⟨4, ![1, 3, 1, 1]⟩
abbrev S25165824 : Shape := ⟨1, ![25165824]⟩
abbrev S768 : Shape := ⟨1, ![768]⟩
abbrev S25165824x1 : Shape := ⟨2, ![25165824, 1]⟩
abbrev S3x256 : Shape := ⟨2, ![3, 256]⟩

abbrev nBuf : Space → Nat
  | .hbm => 93
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S32x3x512x512, .f32⟩
  | .hbm, ⟨6, _⟩ => ⟨S32x3x512x512, .f32⟩
  | .hbm, ⟨7, _⟩ => ⟨S_, .f32⟩
  | .hbm, ⟨8, _⟩ => ⟨S32x3x512x512, .f32⟩
  | .hbm, ⟨9, _⟩ => ⟨S32x3x512x512, .f32⟩
  | .hbm, ⟨10, _⟩ => ⟨S32x3x512x512, .i32⟩
  | .hbm, ⟨11, _⟩ => ⟨S3, .i32⟩
  | .hbm, ⟨12, _⟩ => ⟨S_, .i32⟩
  | .hbm, ⟨13, _⟩ => ⟨S3, .i32⟩
  | .hbm, ⟨14, _⟩ => ⟨S3, .i32⟩
  | .hbm, ⟨15, _⟩ => ⟨S1x3x1x1, .i32⟩
  | .hbm, ⟨16, _⟩ => ⟨S32x3x512x512, .i32⟩
  | .hbm, ⟨17, _⟩ => ⟨S32x3x512x512, .i32⟩
  | .hbm, ⟨18, _⟩ => ⟨S25165824, .i32⟩
  | .hbm, ⟨19, _⟩ => ⟨S_, .f32⟩
  | .hbm, ⟨20, _⟩ => ⟨S768, .f32⟩
  | .hbm, ⟨21, _⟩ => ⟨S_, .i32⟩
  | .hbm, ⟨22, _⟩ => ⟨S25165824, .i32⟩
  | .hbm, ⟨23, _⟩ => ⟨S25165824, .i1⟩
  | .hbm, ⟨24, _⟩ => ⟨S_, .i32⟩
  | .hbm, ⟨25, _⟩ => ⟨S25165824, .i32⟩
  | .hbm, ⟨26, _⟩ => ⟨S25165824, .i32⟩
  | .hbm, ⟨27, _⟩ => ⟨S25165824, .i32⟩
  | .hbm, ⟨28, _⟩ => ⟨S25165824x1, .i32⟩
  | .hbm, ⟨29, _⟩ => ⟨S_, .f32⟩
  | .hbm, ⟨30, _⟩ => ⟨S25165824, .f32⟩
  | .hbm, ⟨31, _⟩ => ⟨S768, .f32⟩
  | .hbm, ⟨32, _⟩ => ⟨S3x256, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S32x3x512x512, .f32⟩
  | .hbm, ⟨37, _⟩ => ⟨S32x3x512x512, .f32⟩
  | .hbm, ⟨38, _⟩ => ⟨S_, .f32⟩
  | .hbm, ⟨39, _⟩ => ⟨S32x3x512x512, .f32⟩
  | .hbm, ⟨40, _⟩ => ⟨S32x3x512x512, .f32⟩
  | .hbm, ⟨41, _⟩ => ⟨S32x3x512x512, .i32⟩
  | .hbm, ⟨42, _⟩ => ⟨S3, .i32⟩
  | .hbm, ⟨43, _⟩ => ⟨S_, .i32⟩
  | .hbm, ⟨44, _⟩ => ⟨S3, .i32⟩
  | .hbm, ⟨45, _⟩ => ⟨S3, .i32⟩
  | .hbm, ⟨46, _⟩ => ⟨S1x3x1x1, .i32⟩
  | .hbm, ⟨47, _⟩ => ⟨S32x3x512x512, .i32⟩
  | .hbm, ⟨48, _⟩ => ⟨S32x3x512x512, .i32⟩
  | .hbm, ⟨49, _⟩ => ⟨S25165824, .i32⟩
  | .hbm, ⟨50, _⟩ => ⟨S_, .f32⟩
  | .hbm, ⟨51, _⟩ => ⟨S768, .f32⟩
  | .hbm, ⟨52, _⟩ => ⟨S_, .i32⟩
  | .hbm, ⟨53, _⟩ => ⟨S25165824, .i32⟩
  | .hbm, ⟨54, _⟩ => ⟨S25165824, .i1⟩
  | .hbm, ⟨55, _⟩ => ⟨S_, .i32⟩
  | .hbm, ⟨56, _⟩ => ⟨S25165824, .i32⟩
  | .hbm, ⟨57, _⟩ => ⟨S25165824, .i32⟩
  | .hbm, ⟨58, _⟩ => ⟨S25165824, .i32⟩
  | .hbm, ⟨59, _⟩ => ⟨S25165824x1, .i32⟩
  | .hbm, ⟨60, _⟩ => ⟨S_, .f32⟩
  | .hbm, ⟨61, _⟩ => ⟨S25165824, .f32⟩
  | .hbm, ⟨62, _⟩ => ⟨S768, .f32⟩
  | .hbm, ⟨63, _⟩ => ⟨S3x256, .f32⟩
  | .hbm, ⟨64, _⟩ => ⟨S3x256, .f32⟩
  | .hbm, ⟨65, _⟩ => ⟨S3x256, .f32⟩
  | .hbm, ⟨66, _⟩ => ⟨S_, .f32⟩
  | .hbm, ⟨67, _⟩ => ⟨S3, .f32⟩
  | .hbm, ⟨68, _⟩ => ⟨S_, .f32⟩
  | .hbm, ⟨69, _⟩ => ⟨S3, .f32⟩
  | .hbm, ⟨70, _⟩ => ⟨S_, .f32⟩
  | .hbm, ⟨71, _⟩ => ⟨S3, .f32⟩
  | .hbm, ⟨72, _⟩ => ⟨S3, .f32⟩
  | .hbm, ⟨73, _⟩ => ⟨S_, .f32⟩
  | .hbm, ⟨74, _⟩ => ⟨S3, .f32⟩
  | .hbm, ⟨75, _⟩ => ⟨S_, .f32⟩
  | .hbm, ⟨76, _⟩ => ⟨S3, .f32⟩
  | .hbm, ⟨77, _⟩ => ⟨S3, .f32⟩
  | .hbm, ⟨78, _⟩ => ⟨S3, .f32⟩
  | .hbm, ⟨79, _⟩ => ⟨S3, .f32⟩
  | .hbm, ⟨80, _⟩ => ⟨S_, .f32⟩
  | .hbm, ⟨81, _⟩ => ⟨S3, .f32⟩
  | .hbm, ⟨82, _⟩ => ⟨S3, .f32⟩
  | .hbm, ⟨83, _⟩ => ⟨S3, .f32⟩
  | .hbm, ⟨84, _⟩ => ⟨S_, .f32⟩
  | .hbm, ⟨85, _⟩ => ⟨S3, .f32⟩
  | .hbm, ⟨86, _⟩ => ⟨S3, .f32⟩
  | .hbm, ⟨87, _⟩ => ⟨S_, .f32⟩
  | .hbm, ⟨88, _⟩ => ⟨S3, .f32⟩
  | .hbm, ⟨89, _⟩ => ⟨S3, .f32⟩
  | .hbm, ⟨90, _⟩ => ⟨S3, .f32⟩
  | .hbm, ⟨91, _⟩ => ⟨S_, .f32⟩
  | .hbm, ⟨92, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_7 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_8 : Ref sig .tc := ⟨.hbm, 50, rfl⟩
abbrev main_v28 : Ref sig .tc := ⟨.hbm, 51, rfl⟩
abbrev main_c_9 : Ref sig .tc := ⟨.hbm, 52, rfl⟩
abbrev main_v29 : Ref sig .tc := ⟨.hbm, 53, rfl⟩
abbrev main_v30 : Ref sig .tc := ⟨.hbm, 54, rfl⟩
abbrev main_c_10 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_12 : Ref sig .tc := ⟨.hbm, 66, rfl⟩
abbrev main_v40 : Ref sig .tc := ⟨.hbm, 67, rfl⟩
abbrev main_cst_13 : Ref sig .tc := ⟨.hbm, 68, rfl⟩
abbrev main_v41 : Ref sig .tc := ⟨.hbm, 69, rfl⟩
abbrev main_cst_14 : Ref sig .tc := ⟨.hbm, 70, rfl⟩
abbrev main_v42 : Ref sig .tc := ⟨.hbm, 71, rfl⟩
abbrev main_v43 : Ref sig .tc := ⟨.hbm, 72, rfl⟩
abbrev main_cst_15 : Ref sig .tc := ⟨.hbm, 73, rfl⟩
abbrev main_v44 : Ref sig .tc := ⟨.hbm, 74, rfl⟩
abbrev main_cst_16 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_17 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_18 : Ref sig .tc := ⟨.hbm, 84, rfl⟩
abbrev main_v52 : Ref sig .tc := ⟨.hbm, 85, rfl⟩
abbrev main_v53 : Ref sig .tc := ⟨.hbm, 86, rfl⟩
abbrev main_cst_19 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_20 : Ref sig .tc := ⟨.hbm, 91, rfl⟩
abbrev main_v57 : Ref sig .tc := ⟨.hbm, 92, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  bcast_S_S3 : S_.BroadcastsInDim S3 (![] : Fin 0 → Fin S3.rank)
  bcast_S3_S1x3x1x1_1 : S3.BroadcastsInDim S1x3x1x1 (![1] : Fin 1 → Fin S1x3x1x1.rank)
  bcast_S1x3x1x1_S32x3x512x512_0_1_2_3 : S1x3x1x1.BroadcastsInDim S32x3x512x512 (![0, 1, 2, 3] : Fin 4 → Fin S32x3x512x512.rank)
  shapeCasts_S32x3x512x512_S25165824 : S32x3x512x512.ShapeCasts S25165824
  bcast_S_S768 : S_.BroadcastsInDim S768 (![] : Fin 0 → Fin S768.rank)
  bcast_S_S25165824 : S_.BroadcastsInDim S25165824 (![] : Fin 0 → Fin S25165824.rank)
  bcast_S25165824_S25165824x1_0 : S25165824.BroadcastsInDim S25165824x1 (![0] : Fin 1 → Fin S25165824x1.rank)
  shapeCasts_S768_S3x256 : S768.ShapeCasts S3x256
  reducesTo_S3x256_S3_d1 : S3x256.ReducesTo [1] S3
  h_S_ : 0 < S_.numel
  reducesTo_S3_S_d0 : S3.ReducesTo [0] S_
  scatter_S768_S25165824x1_S25165824_n_0_0_1_wf : ScatterDims.WF S768 S25165824x1 S25165824 [] [0] [0] 1

variable [Facts₀]

def scatter_S768_S25165824x1_S25165824_n_0_0_1 : ScatterDims S768 S25165824x1 S25165824 where
  updateWindowDims := []
  insertedWindowDims := [0]
  scatterDimsToOperandDims := [0]
  indexVectorDim := 1
  wf := scatter_S768_S25165824x1_S25165824_n_0_0_1_wf

class Facts : Prop extends Facts₀ where

variable [Facts]
-- ==== Proof.K.R0.Shared.lean ====
/-
  One launch of the histogram kernel: what every later module about it is stated over.

  The grid has 2 x 16 x 4 = 128 points, visited in order; point t belongs to group t / 64. The body zeroes its
  accumulator at the first point of a group (t % 64 = 0), adds the block's 3 x 256 joint counts into it at every point,
  and copies it into the output's staging buffer at the last point of a group (t % 64 = 63), the only points where that
  buffer is written back. So a point is of one of three kinds: first of a group, inner, last of a group.
-/
import proofs.«178617_j19834158972940_1_alg».proof.Proof.Gen.Kernel.Launch
import proofs.«178617_j19834158972940_1_alg».proof.Proof.Gen.Kernel.Skeleton
import proofs.«178617_j19834158972940_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The accumulator is zeroed: the second and third grid coordinates are both zero. -/
abbrev resetAt (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- That is the first point of a group of 64. -/
theorem resetAt_iff : ∀ t : Fin cfg0.N, resetAt (grid0.coords t) ↔ t.val % 64 = 0 :=
  (by decide +kernel : ∀ t : Fin grid0.N, resetAt (grid0.coords t) ↔ t.val % 64 = 0)

/-- The accumulator is copied out: the second coordinate is 15 and the third is 3. -/
abbrev flushAt (i : grid0.Coords) : Prop := k0_cond2 i = 1#1
/-- That is the last point of a group of 64. -/
theorem flushAt_iff : ∀ t : Fin cfg0.N, flushAt (grid0.coords t) ↔ t.val % 64 = 63 :=
  (by decide +kernel : ∀ t : Fin grid0.N, flushAt (grid0.coords t) ↔ t.val % 64 = 63)

/-! ## Where the output window is idle -/

/-- The input window is never idle. -/
theorem inLive : ∀ t : Fin cfg0.N, cfg0.idle 0 (grid0.coords t) = false := by decide +kernel
/-- Where the accumulator is not copied out the output window is idle -/
theorem outIdle : ∀ t : Fin cfg0.N, ¬flushAt (grid0.coords t) → cfg0.idle 1 (grid0.coords t) = true := by decide +kernel
/-- and is not written back; -/
theorem outNoFlush : ∀ t : Fin cfg0.N, ¬flushAt (grid0.coords t) → (cfg0.win 1).flush t = false := by decide +kernel
/-- where it is copied out the window is live. -/
theorem outLive : ∀ t : Fin cfg0.N, flushAt (grid0.coords t) → cfg0.idle 1 (grid0.coords t) = false := by decide +kernel

/-! ## The memrefs the body is called with -/

/-- The input block's staging memref at point `t`, -/
abbrev inBuf (t : Fin cfg0.N) : Memref sig .tc .vmem S1x3x128x512 .f32 := win0_0.stage (cfg0.slots t 0)
abbrev inBuf_whole (t : Fin cfg0.N) : (inBuf t).IsWhole := hstage0_0 ((cfg0.slots t 0).cast nbuf0_0)
/-- the output block's, -/
abbrev outBuf (t : Fin cfg0.N) : Memref sig .tc .vmem S1x3x256 .f32 := win0_1.stage (cfg0.slots t 1)
abbrev outBuf_whole (t : Fin cfg0.N) : (outBuf t).IsWhole := hstage0_1 ((cfg0.slots t 1).cast nbuf0_1)
/-- and the accumulator, a scoped buffer of the kernel's own. -/
abbrev accBuf : Memref sig .tc .vmem S3x256 .f32 := Memref.whole cc0_scratch0
/-- The views through which the accumulator's and the output buffer's contents are stated. -/
abbrev accView : View sig .tc .vmem S3x256 .f32 := accBuf.view
abbrev outView : View sig .tc .vmem S1x3x256 .f32 := (Memref.whole cc0_stg1_0 : Memref sig .tc .vmem S1x3x256 .f32).view

/-- The scoped buffers of the core that this launch neither stages through nor uses: the other launch's. Each whole,
    at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f))

/-- The core's scoped buffers that are no staging buffer of this launch, the accumulator first. -/
theorem scopedOwn_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f)) :=
  Pipeline.scopedRest_eq_of_list spec0 c [cc0_scratch0, cc1_stg0_0, cc1_stg0_1, cc1_stg1_0, cc1_stg1_1, cc1_scratch0] (by decide) (by decide)

/-- The region's class invariant: the accumulator owned at some contents, the other scoped buffers, and the
    generator register at some state. -/
theorem classInv_eq (c : Dev nD) :
    (Pipeline.ΦA spec0 c : sProp 𝕄)
      = iprop(iprop((∃ d, owns (c : Thread nD τ) accBuf fullShare d) ∗ otherScoped c) ∗ (∃ r, prngReg c r)) := by
  unfold Pipeline.ΦA otherScoped; rw [scopedOwn_eq]; simp only [accBuf, owns_whole]; try rfl

/-! ## The input block at a point, read off the array as the region finds it -/

variable (W : Dev nD → Valuation τ sig (Elt F))

/-- The arrays as the region finds them. -/
abbrev arrs (c : Dev nD) (b : Ref sig .tc) : Buf (Elt F) ((c : Thread nD τ).loc b) := W c (Proc.devRef .tc b)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (arrs W c (Pipeline.arrRef spec0 w))

/-- The input's current staging buffer holds its block at every point, for any proof data whose array is the
    region-entry one and whose body leaves the block in place. -/
theorem before_in_of {c : Dev nD} (dat : Dat τ (Elt F) Unit ℕ (UR sig nD τ) ℕ cfg0 c) (hA : dat.A 0 = arrs W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

end Cert.Kernel.R0

end
-- ==== Proof.K.R0.RunInner.lean ====
/-
  The body at an inner point of a group: the accumulator is neither zeroed nor copied out. Each of its three rows
  is loaded, the block's counts for that channel added, and the row stored back; the output's staging buffer is left
  as found.
-/
import proofs.«178617_j19834158972940_1_alg».proof.Proof.K.R0.Shared

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the accumulator at an inner point (last first), with its run: from the input's
    buffer at `x0`, the output's at `xo` and the accumulator at `s0`, to the same with the accumulator's pieces written. -/
noncomputable def runInner (c : Dev nD) (i : grid0.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : ¬flushAt i)
    (x0 : Vec F S1x3x128x512 .f32) (s0 : Vec F S3x256 .f32) :
    { LS : List (View.Piece (Elt F) S3x256 .f32) //
      ∀ (xo : Vec F S1x3x256 .f32) (E : Set ℕ) (K : PUnit → sProp 𝕄),
        iprop(owns (c : Thread nD τ) arg3 fullShare x0 ∗ owns (c : Thread nD τ) arg4 fullShare xo ∗ owns (c : Thread nD τ) arg5 fullShare s0
            ∗ (iprop(owns (c : Thread nD τ) arg3 fullShare x0 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__hist_kernel i arg3 harg3 arg4 harg4 arg5 harg5) K } := by
  refine ⟨?_, fun xo E K => ?run⟩
  case run =>
    simp only [cc0__hist_kernel_eq_skeleton]; unfold cc0__hist_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg5.eq_unread hfs0
    sl_exec (disch := first | exact hr | exact hf)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.R0

end
-- ==== Proof.K.R0.RunFirst.lean ====
/-
  The body at the first point of a group: the accumulator is zeroed whole, then each of its three rows is loaded
  back, the block's counts for that channel added, and the row stored; the output's staging buffer is left as found.
-/
import proofs.«178617_j19834158972940_1_alg».proof.Proof.K.R0.RunInner

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the accumulator at the first point of a group (last first), with its run: from
    the input's buffer at `x0`, the output's at `xo` and the accumulator at anything, to the same with the
    accumulator's pieces written. -/
noncomputable def runFirst (c : Dev nD) (i : grid0.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : resetAt i) (hf : ¬flushAt i)
    (x0 : Vec F S1x3x128x512 .f32) :
    { LS : List (View.Piece (Elt F) S3x256 .f32) //
      ∀ (xo : Vec F S1x3x256 .f32) (E : Set ℕ) (K : PUnit → sProp 𝕄),
        iprop(owns (c : Thread nD τ) arg3 fullShare x0 ∗ owns (c : Thread nD τ) arg4 fullShare xo ∗ (∃ d, owns (c : Thread nD τ) arg5 fullShare d)
            ∗ (iprop(owns (c : Thread nD τ) arg3 fullShare x0 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__hist_kernel i arg3 harg3 arg4 harg4 arg5 harg5) K } := by
  refine ⟨?_, fun xo E K => ?run⟩
  case run =>
    simp only [cc0__hist_kernel_eq_skeleton]; unfold cc0__hist_kernel_skel
    unfold owns
    iintro ⟨⟨%f0, %hf0, H0⟩, ⟨%f1, %hf1, H1⟩, ⟨%d, %fs0, %hfs0, HS0⟩, Hk⟩
    obtain rfl := harg3.eq_unread hf0; obtain rfl := harg4.eq_unread hf1; obtain rfl := harg5.eq_unread hfs0
    sl_exec (disch := first | exact hr | exact hf)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.R0

end
-- ==== Proof.K.R0.RunLast.lean ====
/-
  The body at the last point of a group: each row of the accumulator is loaded, the block's counts added and the
  row stored back; then the whole accumulator is loaded and stored, re-laid as one 1 x 3 x 256 block, into the output's
  staging buffer, which the pipeline writes back after this point.
-/
import proofs.«178617_j19834158972940_1_alg».proof.Proof.K.R0.RunFirst

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the output's staging buffer and into the accumulator at the last point of a group
    (last first), with its run: from the input's buffer at `x0`, the output's at anything and the accumulator at
    `s0`, to the input's as it was and the other two with their pieces written. -/
noncomputable def runLast (c : Dev nD) (i : grid0.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : flushAt i)
    (x0 : Vec F S1x3x128x512 .f32) (s0 : Vec F S3x256 .f32) :
    Σ' (LO : List (View.Piece (Elt F) S1x3x256 .f32)), { LS : List (View.Piece (Elt F) S3x256 .f32) //
      ∀ (E : Set ℕ) (K : PUnit → sProp 𝕄),
        iprop(owns (c : Thread nD τ) arg3 fullShare x0 ∗ (∃ d, owns (c : Thread nD τ) arg4 fullShare d) ∗ owns (c : Thread nD τ) arg5 fullShare s0
            ∗ (iprop(owns (c : Thread nD τ) arg3 fullShare x0 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__hist_kernel i arg3 harg3 arg4 harg4 arg5 harg5) K } := by
  refine ⟨?_, ?_, fun E K => ?run⟩
  case run =>
    simp only [cc0__hist_kernel_eq_skeleton]; unfold cc0__hist_kernel_skel
    unfold owns
    iintro ⟨⟨%f0, %hf0, H0⟩, ⟨%d1, %f1, %hf1, H1⟩, ⟨%fs0, %hfs0, HS0⟩, Hk⟩
    obtain rfl := harg3.eq_unread hf0; obtain rfl := harg4.eq_unread hf1; obtain rfl := harg5.eq_unread hfs0
    sl_exec (disch := first | exact hr | exact hf)
    sl_step
    iapply Hk
    isplitl [H0]
    · iexists _; isplitr; · ipureintro; exact harg3.read_unread _
      iexact H0
    isplitl [H1]
    · iexists _; iexact H1
    iexists _; iexact HS0

end Cert.Kernel.R0

end
-- ==== Proof.K.R0.Covers.lean ====
/-
  The rows the body stores tile the accumulator, and its one store into the output's staging buffer fills it: every
  index of either buffer lies in a stored piece, at each kind of point.
-/
import proofs.«178617_j19834158972940_1_alg».proof.Proof.K.R0.RunLast

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first point of a group the stored pieces cover the accumulator. -/
theorem cover_first (c : Dev nD) (i : grid0.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : resetAt i) (hf : ¬flushAt i) (x0 : Vec F S1x3x128x512 .f32) (y : S3x256.Idx) :
    ∃ pc ∈ (runFirst c i arg3 harg3 arg4 harg4 arg5 harg5 hr hf x0).1, y ∈ pc.1.set :=
  View.cover_of_tiledL (runFirst c i arg3 harg3 arg4 harg4 arg5 harg5 hr hf x0).1 S3x256.size (by sl_kernel_rfl) y

/-- At an inner point the three stored rows cover the accumulator. -/
theorem cover_inner (c : Dev nD) (i : grid0.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : ¬flushAt i) (x0 : Vec F S1x3x128x512 .f32) (s0 : Vec F S3x256 .f32) (y : S3x256.Idx) :
    ∃ pc ∈ (runInner c i arg3 harg3 arg4 harg4 arg5 harg5 hr hf x0 s0).1, y ∈ pc.1.set :=
  View.cover_of_tiledL (runInner c i arg3 harg3 arg4 harg4 arg5 harg5 hr hf x0 s0).1 S1x256.size (by sl_kernel_rfl) y

/-- At the last point of a group the three stored rows cover the accumulator, -/
theorem cover_last_acc (c : Dev nD) (i : grid0.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : flushAt i) (x0 : Vec F S1x3x128x512 .f32) (s0 : Vec F S3x256 .f32) (y : S3x256.Idx) :
    ∃ pc ∈ (runLast c i arg3 harg3 arg4 harg4 arg5 harg5 hr hf x0 s0).2.1, y ∈ pc.1.set :=
  View.cover_of_tiledL (runLast c i arg3 harg3 arg4 harg4 arg5 harg5 hr hf x0 s0).2.1 S1x256.size (by sl_kernel_rfl) y

/-- and the one store into the output's staging buffer fills it. -/
theorem cover_last_out (c : Dev nD) (i : grid0.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : flushAt i) (x0 : Vec F S1x3x128x512 .f32) (s0 : Vec F S3x256 .f32) (y : S1x3x256.Idx) :
    ∃ pc ∈ (runLast c i arg3 harg3 arg4 harg4 arg5 harg5 hr hf x0 s0).1, y ∈ pc.1.set :=
  View.cover_of_tiledL (runLast c i arg3 harg3 arg4 harg4 arg5 harg5 hr hf x0 s0).1 S1x3x256.size (by sl_kernel_rfl) y

end Cert.Kernel.R0

end
-- ==== Proof.K.R0.Data.lean ====
/-
  The launch's proof data and its body obligation.

  After point n the accumulator holds accAt n: at the first point of a group the rows the body stores over a zeroed
  accumulator, at any other point the rows it stores over what the point before left. The output's staging buffer is
  written only at the last point of a group, where it receives the accumulator just completed. The invariant carried
  from point to point is the class's before the first point, and afterwards the accumulator owned at accAt of the point
  just run, beside the other scoped buffers and the generator register. At every point the body's run of the point's
  kind takes the invariant before the point to the invariant after it, leaves the input's buffer at its block, and
  leaves the output's buffer untouched except at the last point of a group.
-/
import proofs.«178617_j19834158972940_1_alg».proof.Proof.K.R0.Covers

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## The kind of a point, from its position in its group -/

private theorem isReset (t : Fin cfg0.N) (h : t.val % 64 = 0) : resetAt (grid0.coords t) := (resetAt_iff t).mpr h
private theorem notReset (t : Fin cfg0.N) (h : ¬t.val % 64 = 0) : ¬resetAt (grid0.coords t) := fun hr => h ((resetAt_iff t).mp hr)
private theorem isFlush (t : Fin cfg0.N) (h : t.val % 64 = 63) : flushAt (grid0.coords t) := (flushAt_iff t).mpr h
private theorem notFlush (t : Fin cfg0.N) (h : ¬t.val % 64 = 63) : ¬flushAt (grid0.coords t) := fun hf => h ((flushAt_iff t).mp hf)
/-- A point cannot be both first and last of its group. -/
private theorem notFlush_of_first (t : Fin cfg0.N) (h : t.val % 64 = 0) : ¬flushAt (grid0.coords t) :=
  notFlush t (by omega)
private theorem notReset_of_last (t : Fin cfg0.N) (h : t.val % 64 = 63) : ¬resetAt (grid0.coords t) :=
  notReset t (by omega)

/-! ## What the accumulator and the output's buffer hold after each point -/

/-- The accumulator after point `n`: the rows the point's body stores, read back; at the first point of a group they
    do not depend on what was there, elsewhere they are computed over what point `n - 1` left. -/
def accAt (c : Dev nD) : (n : ℕ) → n < cfg0.N → Vec F S3x256 .f32
  | 0, hn =>
    accView.read (Elt F) (accView.writes (Elt F) accView.junk
      (runFirst c (grid0.coords ⟨0, hn⟩) (inBuf ⟨0, hn⟩) (inBuf_whole ⟨0, hn⟩) (outBuf ⟨0, hn⟩) (outBuf_whole ⟨0, hn⟩) accBuf (Memref.isWhole_whole _)
        (isReset ⟨0, hn⟩ (Nat.zero_mod _)) (notFlush_of_first ⟨0, hn⟩ (Nat.zero_mod _)) (iblk W c 0 ⟨0, hn⟩)).1)
  | n + 1, hn =>
    if h0 : (n + 1) % 64 = 0 then
      accView.read (Elt F) (accView.writes (Elt F) accView.junk
        (runFirst c (grid0.coords ⟨n + 1, hn⟩) (inBuf ⟨n + 1, hn⟩) (inBuf_whole ⟨n + 1, hn⟩) (outBuf ⟨n + 1, hn⟩) (outBuf_whole ⟨n + 1, hn⟩) accBuf (Memref.isWhole_whole _)
          (isReset ⟨n + 1, hn⟩ h0) (notFlush_of_first ⟨n + 1, hn⟩ h0) (iblk W c 0 ⟨n + 1, hn⟩)).1)
    else if h1 : (n + 1) % 64 = 63 then
      accView.read (Elt F) (accView.writes (Elt F) accView.junk
        (runLast c (grid0.coords ⟨n + 1, hn⟩) (inBuf ⟨n + 1, hn⟩) (inBuf_whole ⟨n + 1, hn⟩) (outBuf ⟨n + 1, hn⟩) (outBuf_whole ⟨n + 1, hn⟩) accBuf (Memref.isWhole_whole _)
          (notReset ⟨n + 1, hn⟩ h0) (isFlush ⟨n + 1, hn⟩ h1) (iblk W c 0 ⟨n + 1, hn⟩) (accAt c n (Nat.lt_of_succ_lt hn))).2.1)
    else
      accView.read (Elt F) (accView.writes (Elt F) accView.junk
        (runInner c (grid0.coords ⟨n + 1, hn⟩) (inBuf ⟨n + 1, hn⟩) (inBuf_whole ⟨n + 1, hn⟩) (outBuf ⟨n + 1, hn⟩) (outBuf_whole ⟨n + 1, hn⟩) accBuf (Memref.isWhole_whole _)
          (notReset ⟨n + 1, hn⟩ h0) (notFlush ⟨n + 1, hn⟩ h1) (iblk W c 0 ⟨n + 1, hn⟩) (accAt c n (Nat.lt_of_succ_lt hn))).1)

/-- The output's staging buffer after point `n`: at the last point of a group the one block the body stores, read
    back; elsewhere the body stores nothing there and the value is a placeholder that nothing consults. -/
def outAt (c : Dev nD) (n : ℕ) (hn : n < cfg0.N) : Vec F S1x3x256 .f32 :=
  if h : n % 64 = 63 then
    outView.read (Elt F) (outView.writes (Elt F) outView.junk
      (runLast c (grid0.coords ⟨n, hn⟩) (inBuf ⟨n, hn⟩) (inBuf_whole ⟨n, hn⟩) (outBuf ⟨n, hn⟩) (outBuf_whole ⟨n, hn⟩) accBuf (Memref.isWhole_whole _)
        (notReset_of_last ⟨n, hn⟩ h) (isFlush ⟨n, hn⟩ h) (iblk W c 0 ⟨n, hn⟩) (accAt W c (n - 1) (Nat.lt_of_le_of_lt (Nat.sub_le _ _) hn))).1)
  else outView.read (Elt F) outView.junk

/-! ## The recurrences, for any proofs of the point's kind -/

theorem accAt_first (c : Dev nD) (t : Fin cfg0.N) (h : t.val % 64 = 0) (hr) (hf) : accAt W c t.val t.isLt = accView.read (Elt F) (accView.writes (Elt F) accView.junk (runFirst c (grid0.coords t) (inBuf t) (inBuf_whole t) (outBuf t) (outBuf_whole t) accBuf (Memref.isWhole_whole _) hr hf (iblk W c 0 t)).1) := by
  obtain ⟨n, hn⟩ := t
  cases n with
  | zero => exact rfl
  | succ n => exact (dif_pos h).trans rfl

theorem accAt_inner (c : Dev nD) (t : Fin cfg0.N) (h0 : t.val % 64 ≠ 0) (h1 : t.val % 64 ≠ 63) (hr) (hf) : accAt W c t.val t.isLt = accView.read (Elt F) (accView.writes (Elt F) accView.junk (runInner c (grid0.coords t) (inBuf t) (inBuf_whole t) (outBuf t) (outBuf_whole t) accBuf (Memref.isWhole_whole _) hr hf (iblk W c 0 t) (accAt W c (t.val - 1) (Nat.lt_of_le_of_lt (Nat.sub_le _ _) t.isLt))).1) := by
  obtain ⟨n, hn⟩ := t
  cases n with
  | zero => exact absurd (Nat.zero_mod _) h0
  | succ n => exact (dif_neg h0).trans ((dif_neg h1).trans rfl)

theorem accAt_last (c : Dev nD) (t : Fin cfg0.N) (h : t.val % 64 = 63) (hr) (hf) : accAt W c t.val t.isLt = accView.read (Elt F) (accView.writes (Elt F) accView.junk (runLast c (grid0.coords t) (inBuf t) (inBuf_whole t) (outBuf t) (outBuf_whole t) accBuf (Memref.isWhole_whole _) hr hf (iblk W c 0 t) (accAt W c (t.val - 1) (Nat.lt_of_le_of_lt (Nat.sub_le _ _) t.isLt))).2.1) := by
  obtain ⟨n, hn⟩ := t
  cases n with
  | zero => exact absurd ((Nat.zero_mod 64).symm.trans h) (by decide)
  | succ n => exact (dif_neg (by (try dsimp only at h); omega)).trans ((dif_pos h).trans rfl)

theorem outAt_last (c : Dev nD) (t : Fin cfg0.N) (h : t.val % 64 = 63) (hr) (hf) : outAt W c t.val t.isLt = outView.read (Elt F) (outView.writes (Elt F) outView.junk (runLast c (grid0.coords t) (inBuf t) (inBuf_whole t) (outBuf t) (outBuf_whole t) accBuf (Memref.isWhole_whole _) hr hf (iblk W c 0 t) (accAt W c (t.val - 1) (Nat.lt_of_le_of_lt (Nat.sub_le _ _) t.isLt))).1) :=
  (dif_pos h).trans rfl

/-! ## The invariant from point to point -/

/-- The invariant before position `n`: the class's before the first point; afterwards the accumulator owned at what
    point `n - 1` left in it, the other scoped buffers and the generator register. -/
private def carried (c : Dev nD) : (n : ℕ) → n ≤ cfg0.N → sProp 𝕄
  | 0, _ => Pipeline.ΦA spec0 c
  | n + 1, hn => iprop(iprop(owns (c : Thread nD τ) accBuf fullShare (accAt W c n hn) ∗ otherScoped c) ∗ (∃ r, prngReg c r))

private theorem carried_succ (c : Dev nD) (n : ℕ) (hn : n < cfg0.N) :
    carried W c (n + 1) hn = iprop(iprop(owns (c : Thread nD τ) accBuf fullShare (accAt W c n hn) ∗ otherScoped c) ∗ (∃ r, prngReg c r)) := rfl

/-- Before a point that is not the first, the accumulator is owned at what the point before left. -/
private theorem carried_pos (c : Dev nD) (n : ℕ) (h : n ≤ cfg0.N) (hz : n ≠ 0) :
    carried W c n h = iprop(iprop(owns (c : Thread nD τ) accBuf fullShare (accAt W c (n - 1) (by omega)) ∗ otherScoped c) ∗ (∃ r, prngReg c r)) := by
  cases n with
  | zero => exact absurd rfl hz
  | succ n => rfl

/-- At any position the invariant yields the accumulator at some contents: the class's invariant. -/
private theorem carried_forget (c : Dev nD) (n : ℕ) (h : n ≤ cfg0.N) :
    carried W c n h ⊢ iprop(iprop((∃ d, owns (c : Thread nD τ) accBuf fullShare d) ∗ otherScoped c) ∗ (∃ r, prngReg c r)) := by
  cases n with
  | zero =>
    rw [show carried W c 0 h = Pipeline.ΦA spec0 c from rfl, classInv_eq]
  | succ n =>
    rw [carried_succ]
    iintro ⟨⟨HS, Hr⟩, Hg⟩
    isplitr [Hg]
    · isplitl [HS]
      · iexists _; iexact HS
      iexact Hr
    iexact Hg

/-! ## The proof data -/

/-- The launch's proof data on core `c`: the arrays as the region finds them; after the body at point `t` the input's
    buffer at its block and the output's at `outAt`; the invariant `carried`; full shares; nothing owed. -/
def dat0 (c : Dev nD) : Dat τ (Elt F) Unit ℕ (UR sig nD τ) ℕ cfg0 c where
  A w := arrs W c (Pipeline.arrRef spec0 w)
  after w t := match w with
    | ⟨0, _⟩ => iblk W c 0 t
    | ⟨1, _⟩ => outAt W c t.val t.isLt
  Φ t := carried W c t.val (Nat.le_of_lt_succ t.isLt)
  q _ := fullShare
  owed _ := 0

theorem A_eq (c : Dev nD) (w : Fin cfg0.W) : (dat0 W c).A w = arrs W c (Pipeline.arrRef spec0 w) := by
  dsimp only [dat0]
theorem after_in (c : Dev nD) (t : Fin cfg0.N) : (dat0 W c).after 0 t = iblk W c 0 t := by dsimp only [dat0]
theorem after_out (c : Dev nD) (t : Fin cfg0.N) : (dat0 W c).after 1 t = outAt W c t.val t.isLt := by dsimp only [dat0]
theorem q_full (c : Dev nD) (w : Fin cfg0.W) : (dat0 W c).q w = fullShare := rfl
theorem owed_zero (c : Dev nD) (t : Fin (cfg0.N + 1)) : (dat0 W c).owed t = 0 := rfl
theorem recorded_univ (c : Dev nD) : (dat0 W c).recorded 0 = Set.univ := rfl

/-- The invariant at a point's start, restated at the point's number. -/
private theorem inv_castSucc (c : Dev nD) (t : Fin cfg0.N) :
    (dat0 W c).Φ t.castSucc = carried W c t.val (Nat.le_of_lt t.isLt) := by
  dsimp only [dat0]; simp only [Fin.coe_castSucc]

/-- The input's current staging buffer holds its block at every point. -/
private theorem before_in (c : Dev nD) (t : Fin cfg0.N) (d) : (dat0 W c).before 0 t d = iblk W c 0 t :=
  before_in_of W (dat0 W c) (A_eq W c 0) (after_in W c) t d

/-! ## The body obligation, at a generic point -/

/-- What the body is called with at point `t`, the windows one by one, -/
private def bodyPre (c : Dev nD) (t : Fin cfg0.N) : sProp 𝕄 :=
  iprop((dat0 W c).Φ t.castSucc ∗ (dat0 W c).owesAt () t.castSucc
    ∗ (∃ d, owns (c : Thread nD τ) (inBuf t) fullShare ((dat0 W c).before 0 t d))
    ∗ (∃ d, owns (c : Thread nD τ) (outBuf t) fullShare ((dat0 W c).before 1 t d)))

/-- and what it returns. -/
private def bodyPost (c : Dev nD) (t : Fin cfg0.N) : sProp 𝕄 :=
  iprop((dat0 W c).Φ t.succ ∗ (dat0 W c).owesAt () t.succ
    ∗ (dat0 W c).leavesExact 0 t
    ∗ (dat0 W c).leavesExact 1 t)

/-- The input window is live at every point: its buffer is left at the block. -/
private theorem leaves_in (c : Dev nD) (t : Fin cfg0.N) :
    (dat0 W c).leavesExact 0 t = owns (c : Thread nD τ) (inBuf t) fullShare (iblk W c 0 t) := by
  unfold Dat.leavesExact; rw [inLive t, after_in]

/-- The output window is live at the last point of a group: its buffer is left at `outAt`. -/
private theorem leaves_out_last (c : Dev nD) (t : Fin cfg0.N) (hf : flushAt (grid0.coords t)) :
    (dat0 W c).leavesExact 1 t = owns (c : Thread nD τ) (outBuf t) fullShare (outAt W c t.val t.isLt) := by
  unfold Dat.leavesExact; rw [outLive t hf, after_out]

set_option maxHeartbeats 4800000 in
/-- The body at any point. The input's buffer holds the point's block. At the first point of a group the accumulator
    is handed over at whatever it holds and taken back at the rows stored over zero; at an inner point it is handed
    over at what the point before left and taken back at the rows stored over that; at the last point the same, and
    the output's buffer, handed over at anything, is taken back at the block stored. At the other points the output's
    buffer goes through untouched. The other scoped buffers, the generator register and what the core owes ride along. -/
private theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_in]
  rw [show (dat0 W c).owesAt () t.succ = (dat0 W c).owesAt () t.castSucc from rfl]
  rw [show (dat0 W c).Φ t.succ = carried W c (t.val + 1) t.isLt from rfl, carried_succ]
  rw [inv_castSucc, leaves_in]
  by_cases h0 : t.val % 64 = 0
  · have hr := isReset t h0
    have hf := notFlush_of_first t h0
    rw [Dat.leavesExact_idle (dat0 W c) 1 t (outIdle t hf) (outNoFlush t hf)]
    rw [accAt_first W c t h0 hr hf]
    iintro ⟨HΦ, Ho, ⟨%d0, H0⟩, ⟨%d1, H1⟩⟩
    ihave HΦ' := (carried_forget W c t.val (Nat.le_of_lt t.isLt)) $$ HΦ
    icases HΦ' with ⟨⟨HS, Hr⟩, Hg⟩
    iapply ((runFirst c (grid0.coords t) _ _ _ _ _ _ hr hf (iblk W c 0 t)).2 _ Set.univ _)
    isplitl [H0]; · iexact H0
    isplitl [H1]; · iexact H1
    isplitl [HS]; · iexact HS
    iintro ⟨H0, H1, ⟨%es, HS⟩⟩
    isplitl [HS Hr Hg]
    · isplitr [Hg]
      · isplitl [HS]
        · unfold owns; iexists _; isplitr
          swap; · iexact HS
          ipureintro; exact View.read_writes_of_cover _ _ _ _ _ (cover_first c _ _ _ _ _ _ _ _ _ _)
        iexact Hr
      iexact Hg
    isplitl [Ho]; · iexact Ho
    isplitl [H0]; · iexact H0
    iexists _; iexact H1
  · have hr := notReset t h0
    have hz : t.val ≠ 0 := fun hz => h0 (by rw [hz])
    rw [carried_pos W c _ _ hz]
    by_cases h1 : t.val % 64 = 63
    · have hf := isFlush t h1
      rw [leaves_out_last W c t hf]
      rw [accAt_last W c t h1 hr hf, outAt_last W c t h1 hr hf]
      iintro ⟨⟨⟨HS, Hr⟩, Hg⟩, Ho, ⟨%d0, H0⟩, ⟨%d1, H1⟩⟩
      iapply ((runLast c (grid0.coords t) _ _ _ _ _ _ hr hf (iblk W c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hr Hg]
      · isplitr [Hg]
        · isplitl [HS]
          · unfold owns; iexists _; isplitr
            swap; · iexact HS
            ipureintro; exact View.read_writes_of_cover _ _ _ _ _ (cover_last_acc c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover_last_out c _ _ _ _ _ _ _ _ _ _ _)
    · have hf := notFlush t h1
      rw [Dat.leavesExact_idle (dat0 W c) 1 t (outIdle t hf) (outNoFlush t hf)]
      rw [accAt_inner W c t h0 h1 hr hf]
      iintro ⟨⟨⟨HS, Hr⟩, Hg⟩, Ho, ⟨%d0, H0⟩, ⟨%d1, H1⟩⟩
      iapply ((runInner c (grid0.coords t) _ _ _ _ _ _ hr hf (iblk W c 0 t) _).2 _ Set.univ _)
      isplitl [H0]; · iexact H0
      isplitl [H1]; · iexact H1
      isplitl [HS]; · iexact HS
      iintro ⟨H0, H1, ⟨%es, HS⟩⟩
      isplitl [HS Hr Hg]
      · isplitr [Hg]
        · isplitl [HS]
          · unfold owns; iexists _; isplitr
            swap; · iexact HS
            ipureintro; exact View.read_writes_of_cover _ _ _ _ _ (cover_inner c _ _ _ _ _ _ _ _ _ _ _)
          iexact Hr
        iexact Hg
      isplitl [Ho]; · iexact Ho
      isplitl [H0]; · iexact H0
      iexists _; iexact H1

/-- The body obligation, at every point. -/
theorem body_obligation (c : Dev nD) : BodyObligation (dat0 (F := F) W c) (defs₀ (F := F)) Variants.none () Set.univ := fun t => by
  rw [bigSep_W0, bigSep_W0]
  exact sound_body W c t

/-! ## The invariant at the region's two ends -/

/-- What the launch hands the region is the invariant before the first point. -/
theorem inv_in (c : Dev nD) : (Pipeline.ΦA spec0 c : sProp 𝕄) ⊢ (dat0 W c).Φ 0 := by
  rw [show (dat0 W c).Φ 0 = Pipeline.ΦA spec0 c from rfl]

/-- After the last point the invariant gives the class's back: what the accumulator holds is forgotten. -/
theorem inv_out (c : Dev nD) : (dat0 W c).Φ (Fin.last cfg0.N) ⊢ (Pipeline.ΦA spec0 c : sProp 𝕄) := by
  rw [show (dat0 W c).Φ (Fin.last cfg0.N) = carried W c (Fin.last cfg0.N).val (Nat.le_of_lt_succ (Fin.last cfg0.N).isLt) from rfl, classInv_eq]
  exact carried_forget W c _ _

end Cert.Kernel.R0

end
-- ==== Proof.K.R1.Shared.lean ====
/-
  One launch of the histogram kernel: what every later module about it is stated over.

  The grid has 2 x 16 x 4 = 128 points, visited in order; point t belongs to group t / 64. The body zeroes its
  accumulator at the first point of a group (t % 64 = 0), adds the block's 3 x 256 joint counts into it at every point,
  and copies it into the output's staging buffer at the last point of a group (t % 64 = 63), the only points where that
  buffer is written back. So a point is of one of three kinds: first of a group, inner, last of a group.
-/
import proofs.«178617_j19834158972940_1_alg».proof.Proof.Gen.Kernel.Launch
import proofs.«178617_j19834158972940_1_alg».proof.Proof.Gen.Kernel.Skeleton
import proofs.«178617_j19834158972940_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The accumulator is zeroed: the second and third grid coordinates are both zero. -/
abbrev resetAt (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- That is the first point of a group of 64. -/
theorem resetAt_iff : ∀ t : Fin cfg1.N, resetAt (grid1.coords t) ↔ t.val % 64 = 0 :=
  (by decide +kernel : ∀ t : Fin grid1.N, resetAt (grid1.coords t) ↔ t.val % 64 = 0)

/-- The accumulator is copied out: the second coordinate is 15 and the third is 3. -/
abbrev flushAt (i : grid1.Coords) : Prop := k1_cond2 i = 1#1
/-- That is the last point of a group of 64. -/
theorem flushAt_iff : ∀ t : Fin cfg1.N, flushAt (grid1.coords t) ↔ t.val % 64 = 63 :=
  (by decide +kernel : ∀ t : Fin grid1.N, flushAt (grid1.coords t) ↔ t.val % 64 = 63)

/-! ## Where the output window is idle -/

/-- The input window is never idle. -/
theorem inLive : ∀ t : Fin cfg1.N, cfg1.idle 0 (grid1.coords t) = false := by decide +kernel
/-- Where the accumulator is not copied out the output window is idle -/
theorem outIdle : ∀ t : Fin cfg1.N, ¬flushAt (grid1.coords t) → cfg1.idle 1 (grid1.coords t) = true := by decide +kernel
/-- and is not written back; -/
theorem outNoFlush : ∀ t : Fin cfg1.N, ¬flushAt (grid1.coords t) → (cfg1.win 1).flush t = false := by decide +kernel
/-- where it is copied out the window is live. -/
theorem outLive : ∀ t : Fin cfg1.N, flushAt (grid1.coords t) → cfg1.idle 1 (grid1.coords t) = false := by decide +kernel

/-! ## The memrefs the body is called with -/

/-- The input block's staging memref at point `t`, -/
abbrev inBuf (t : Fin cfg1.N) : Memref sig .tc .vmem S1x3x128x512 .f32 := win1_0.stage (cfg1.slots t 0)
abbrev inBuf_whole (t : Fin cfg1.N) : (inBuf t).IsWhole := hstage1_0 ((cfg1.slots t 0).cast nbuf1_0)
/-- the output block's, -/
abbrev outBuf (t : Fin cfg1.N) : Memref sig .tc .vmem S1x3x256 .f32 := win1_1.stage (cfg1.slots t 1)
abbrev outBuf_whole (t : Fin cfg1.N) : (outBuf t).IsWhole := hstage1_1 ((cfg1.slots t 1).cast nbuf1_1)
/-- and the accumulator, a scoped buffer of the kernel's own. -/
abbrev accBuf : Memref sig .tc .vmem S3x256 .f32 := Memref.whole cc1_scratch0
/-- The views through which the accumulator's and the output buffer's contents are stated. -/
abbrev accView : View sig .tc .vmem S3x256 .f32 := accBuf.view
abbrev outView : View sig .tc .vmem S1x3x256 .f32 := (Memref.whole cc1_stg1_0 : Memref sig .tc .vmem S1x3x256 .f32).view

/-- The scoped buffers of the core that this launch neither stages through nor uses: the other launch's. Each whole,
    at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

/-- The core's scoped buffers that are no staging buffer of this launch, the accumulator first. -/
theorem scopedOwn_eq (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f)) :=
  Pipeline.scopedRest_eq_of_list spec1 c [cc1_scratch0, cc0_stg0_0, cc0_stg0_1, cc0_stg1_0, cc0_stg1_1, cc0_scratch0] (by decide) (by decide)

/-- The region's class invariant: the accumulator owned at some contents, the other scoped buffers, and the
    generator register at some state. -/
theorem classInv_eq (c : Dev nD) :
    (Pipeline.ΦA spec1 c : sProp 𝕄)
      = iprop(iprop((∃ d, owns (c : Thread nD τ) accBuf fullShare d) ∗ otherScoped c) ∗ (∃ r, prngReg c r)) := by
  unfold Pipeline.ΦA otherScoped; rw [scopedOwn_eq]; simp only [accBuf, owns_whole]; try rfl

/-! ## The input block at a point, read off the array as the region finds it -/

variable (W : Dev nD → Valuation τ sig (Elt F))

/-- The arrays as the region finds them. -/
abbrev arrs (c : Dev nD) (b : Ref sig .tc) : Buf (Elt F) ((c : Thread nD τ).loc b) := W c (Proc.devRef .tc b)

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (arrs W c (Pipeline.arrRef spec1 w))

/-- The input's current staging buffer holds its block at every point, for any proof data whose array is the
    region-entry one and whose body leaves the block in place. -/
theorem before_in_of {c : Dev nD} (dat : Dat τ (Elt F) Unit ℕ (UR sig nD τ) ℕ cfg1 c) (hA : dat.A 0 = arrs W c (Pipeline.arrRef spec1 0))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

end Cert.Kernel.R1

end
-- ==== Proof.K.R1.RunInner.lean ====
/-
  The body at an inner point of a group: the accumulator is neither zeroed nor copied out. Each of its three rows
  is loaded, the block's counts for that channel added, and the row stored back; the output's staging buffer is left
  as found.
-/
import proofs.«178617_j19834158972940_1_alg».proof.Proof.K.R1.Shared

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the accumulator at an inner point (last first), with its run: from the input's
    buffer at `x0`, the output's at `xo` and the accumulator at `s0`, to the same with the accumulator's pieces written. -/
noncomputable def runInner (c : Dev nD) (i : grid1.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : ¬flushAt i)
    (x0 : Vec F S1x3x128x512 .f32) (s0 : Vec F S3x256 .f32) :
    { LS : List (View.Piece (Elt F) S3x256 .f32) //
      ∀ (xo : Vec F S1x3x256 .f32) (E : Set ℕ) (K : PUnit → sProp 𝕄),
        iprop(owns (c : Thread nD τ) arg3 fullShare x0 ∗ owns (c : Thread nD τ) arg4 fullShare xo ∗ owns (c : Thread nD τ) arg5 fullShare s0
            ∗ (iprop(owns (c : Thread nD τ) arg3 fullShare x0 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__hist_kernel i arg3 harg3 arg4 harg4 arg5 harg5) K } := by
  refine ⟨?_, fun xo E K => ?run⟩
  case run =>
    simp only [cc1__hist_kernel_eq_skeleton]; unfold cc1__hist_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg5.eq_unread hfs0
    sl_exec (disch := first | exact hr | exact hf)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.R1

end
-- ==== Proof.K.R1.RunFirst.lean ====
/-
  The body at the first point of a group: the accumulator is zeroed whole, then each of its three rows is loaded
  back, the block's counts for that channel added, and the row stored; the output's staging buffer is left as found.
-/
import proofs.«178617_j19834158972940_1_alg».proof.Proof.K.R1.RunInner

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the accumulator at the first point of a group (last first), with its run: from
    the input's buffer at `x0`, the output's at `xo` and the accumulator at anything, to the same with the
    accumulator's pieces written. -/
noncomputable def runFirst (c : Dev nD) (i : grid1.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : resetAt i) (hf : ¬flushAt i)
    (x0 : Vec F S1x3x128x512 .f32) :
    { LS : List (View.Piece (Elt F) S3x256 .f32) //
      ∀ (xo : Vec F S1x3x256 .f32) (E : Set ℕ) (K : PUnit → sProp 𝕄),
        iprop(owns (c : Thread nD τ) arg3 fullShare x0 ∗ owns (c : Thread nD τ) arg4 fullShare xo ∗ (∃ d, owns (c : Thread nD τ) arg5 fullShare d)
            ∗ (iprop(owns (c : Thread nD τ) arg3 fullShare x0 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__hist_kernel i arg3 harg3 arg4 harg4 arg5 harg5) K } := by
  refine ⟨?_, fun xo E K => ?run⟩
  case run =>
    simp only [cc1__hist_kernel_eq_skeleton]; unfold cc1__hist_kernel_skel
    unfold owns
    iintro ⟨⟨%f0, %hf0, H0⟩, ⟨%f1, %hf1, H1⟩, ⟨%d, %fs0, %hfs0, HS0⟩, Hk⟩
    obtain rfl := harg3.eq_unread hf0; obtain rfl := harg4.eq_unread hf1; obtain rfl := harg5.eq_unread hfs0
    sl_exec (disch := first | exact hr | exact hf)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.R1

end
-- ==== Proof.K.R1.RunLast.lean ====
/-
  The body at the last point of a group: each row of the accumulator is loaded, the block's counts added and the
  row stored back; then the whole accumulator is loaded and stored, re-laid as one 1 x 3 x 256 block, into the output's
  staging buffer, which the pipeline writes back after this point.
-/
import proofs.«178617_j19834158972940_1_alg».proof.Proof.K.R1.RunFirst

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the output's staging buffer and into the accumulator at the last point of a group
    (last first), with its run: from the input's buffer at `x0`, the output's at anything and the accumulator at
    `s0`, to the input's as it was and the other two with their pieces written. -/
noncomputable def runLast (c : Dev nD) (i : grid1.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : flushAt i)
    (x0 : Vec F S1x3x128x512 .f32) (s0 : Vec F S3x256 .f32) :
    Σ' (LO : List (View.Piece (Elt F) S1x3x256 .f32)), { LS : List (View.Piece (Elt F) S3x256 .f32) //
      ∀ (E : Set ℕ) (K : PUnit → sProp 𝕄),
        iprop(owns (c : Thread nD τ) arg3 fullShare x0 ∗ (∃ d, owns (c : Thread nD τ) arg4 fullShare d) ∗ owns (c : Thread nD τ) arg5 fullShare s0
            ∗ (iprop(owns (c : Thread nD τ) arg3 fullShare x0 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__hist_kernel i arg3 harg3 arg4 harg4 arg5 harg5) K } := by
  refine ⟨?_, ?_, fun E K => ?run⟩
  case run =>
    simp only [cc1__hist_kernel_eq_skeleton]; unfold cc1__hist_kernel_skel
    unfold owns
    iintro ⟨⟨%f0, %hf0, H0⟩, ⟨%d1, %f1, %hf1, H1⟩, ⟨%fs0, %hfs0, HS0⟩, Hk⟩
    obtain rfl := harg3.eq_unread hf0; obtain rfl := harg4.eq_unread hf1; obtain rfl := harg5.eq_unread hfs0
    sl_exec (disch := first | exact hr | exact hf)
    sl_step
    iapply Hk
    isplitl [H0]
    · iexists _; isplitr; · ipureintro; exact harg3.read_unread _
      iexact H0
    isplitl [H1]
    · iexists _; iexact H1
    iexists _; iexact HS0

end Cert.Kernel.R1

end
-- ==== Proof.K.R1.Covers.lean ====
/-
  The rows the body stores tile the accumulator, and its one store into the output's staging buffer fills it: every
  index of either buffer lies in a stored piece, at each kind of point.
-/
import proofs.«178617_j19834158972940_1_alg».proof.Proof.K.R1.RunLast

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first point of a group the stored pieces cover the accumulator. -/
theorem cover_first (c : Dev nD) (i : grid1.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : resetAt i) (hf : ¬flushAt i) (x0 : Vec F S1x3x128x512 .f32) (y : S3x256.Idx) :
    ∃ pc ∈ (runFirst c i arg3 harg3 arg4 harg4 arg5 harg5 hr hf x0).1, y ∈ pc.1.set :=
  View.cover_of_tiledL (runFirst c i arg3 harg3 arg4 harg4 arg5 harg5 hr hf x0).1 S3x256.size (by sl_kernel_rfl) y

/-- At an inner point the three stored rows cover the accumulator. -/
theorem cover_inner (c : Dev nD) (i : grid1.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : ¬flushAt i) (x0 : Vec F S1x3x128x512 .f32) (s0 : Vec F S3x256 .f32) (y : S3x256.Idx) :
    ∃ pc ∈ (runInner c i arg3 harg3 arg4 harg4 arg5 harg5 hr hf x0 s0).1, y ∈ pc.1.set :=
  View.cover_of_tiledL (runInner c i arg3 harg3 arg4 harg4 arg5 harg5 hr hf x0 s0).1 S1x256.size (by sl_kernel_rfl) y

/-- At the last point of a group the three stored rows cover the accumulator, -/
theorem cover_last_acc (c : Dev nD) (i : grid1.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : flushAt i) (x0 : Vec F S1x3x128x512 .f32) (s0 : Vec F S3x256 .f32) (y : S3x256.Idx) :
    ∃ pc ∈ (runLast c i arg3 harg3 arg4 harg4 arg5 harg5 hr hf x0 s0).2.1, y ∈ pc.1.set :=
  View.cover_of_tiledL (runLast c i arg3 harg3 arg4 harg4 arg5 harg5 hr hf x0 s0).2.1 S1x256.size (by sl_kernel_rfl) y

/-- and the one store into the output's staging buffer fills it. -/
theorem cover_last_out (c : Dev nD) (i : grid1.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : flushAt i) (x0 : Vec F S1x3x128x512 .f32) (s0 : Vec F S3x256 .f32) (y : S1x3x256.Idx) :
    ∃ pc ∈ (runLast c i arg3 harg3 arg4 harg4 arg5 harg5 hr hf x0 s0).1, y ∈ pc.1.set :=
  View.cover_of_tiledL (runLast c i arg3 harg3 arg4 harg4 arg5 harg5 hr hf x0 s0).1 S1x3x256.size (by sl_kernel_rfl) y

end Cert.Kernel.R1

end
-- ==== Proof.K.R1.Data.lean ====
/-
  The launch's proof data and its body obligation.

  After point n the accumulator holds accAt n: at the first point of a group the rows the body stores over a zeroed
  accumulator, at any other point the rows it stores over what the point before left. The output's staging buffer is
  written only at the last point of a group, where it receives the accumulator just completed. The invariant carried
  from point to point is the class's before the first point, and afterwards the accumulator owned at accAt of the point
  just run, beside the other scoped buffers and the generator register. At every point the body's run of the point's
  kind takes the invariant before the point to the invariant after it, leaves the input's buffer at its block, and
  leaves the output's buffer untouched except at the last point of a group.
-/
import proofs.«178617_j19834158972940_1_alg».proof.Proof.K.R1.Covers

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## The kind of a point, from its position in its group -/

private theorem isReset (t : Fin cfg1.N) (h : t.val % 64 = 0) : resetAt (grid1.coords t) := (resetAt_iff t).mpr h
private theorem notReset (t : Fin cfg1.N) (h : ¬t.val % 64 = 0) : ¬resetAt (grid1.coords t) := fun hr => h ((resetAt_iff t).mp hr)
private theorem isFlush (t : Fin cfg1.N) (h : t.val % 64 = 63) : flushAt (grid1.coords t) := (flushAt_iff t).mpr h
private theorem notFlush (t : Fin cfg1.N) (h : ¬t.val % 64 = 63) : ¬flushAt (grid1.coords t) := fun hf => h ((flushAt_iff t).mp hf)
/-- A point cannot be both first and last of its group. -/
private theorem notFlush_of_first (t : Fin cfg1.N) (h : t.val % 64 = 0) : ¬flushAt (grid1.coords t) :=
  notFlush t (by omega)
private theorem notReset_of_last (t : Fin cfg1.N) (h : t.val % 64 = 63) : ¬resetAt (grid1.coords t) :=
  notReset t (by omega)

/-! ## What the accumulator and the output's buffer hold after each point -/

/-- The accumulator after point `n`: the rows the point's body stores, read back; at the first point of a group they
    do not depend on what was there, elsewhere they are computed over what point `n - 1` left. -/
def accAt (c : Dev nD) : (n : ℕ) → n < cfg1.N → Vec F S3x256 .f32
  | 0, hn =>
    accView.read (Elt F) (accView.writes (Elt F) accView.junk
      (runFirst c (grid1.coords ⟨0, hn⟩) (inBuf ⟨0, hn⟩) (inBuf_whole ⟨0, hn⟩) (outBuf ⟨0, hn⟩) (outBuf_whole ⟨0, hn⟩) accBuf (Memref.isWhole_whole _)
        (isReset ⟨0, hn⟩ (Nat.zero_mod _)) (notFlush_of_first ⟨0, hn⟩ (Nat.zero_mod _)) (iblk W c 0 ⟨0, hn⟩)).1)
  | n + 1, hn =>
    if h0 : (n + 1) % 64 = 0 then
      accView.read (Elt F) (accView.writes (Elt F) accView.junk
        (runFirst c (grid1.coords ⟨n + 1, hn⟩) (inBuf ⟨n + 1, hn⟩) (inBuf_whole ⟨n + 1, hn⟩) (outBuf ⟨n + 1, hn⟩) (outBuf_whole ⟨n + 1, hn⟩) accBuf (Memref.isWhole_whole _)
          (isReset ⟨n + 1, hn⟩ h0) (notFlush_of_first ⟨n + 1, hn⟩ h0) (iblk W c 0 ⟨n + 1, hn⟩)).1)
    else if h1 : (n + 1) % 64 = 63 then
      accView.read (Elt F) (accView.writes (Elt F) accView.junk
        (runLast c (grid1.coords ⟨n + 1, hn⟩) (inBuf ⟨n + 1, hn⟩) (inBuf_whole ⟨n + 1, hn⟩) (outBuf ⟨n + 1, hn⟩) (outBuf_whole ⟨n + 1, hn⟩) accBuf (Memref.isWhole_whole _)
          (notReset ⟨n + 1, hn⟩ h0) (isFlush ⟨n + 1, hn⟩ h1) (iblk W c 0 ⟨n + 1, hn⟩) (accAt c n (Nat.lt_of_succ_lt hn))).2.1)
    else
      accView.read (Elt F) (accView.writes (Elt F) accView.junk
        (runInner c (grid1.coords ⟨n + 1, hn⟩) (inBuf ⟨n + 1, hn⟩) (inBuf_whole ⟨n + 1, hn⟩) (outBuf ⟨n + 1, hn⟩) (outBuf_whole ⟨n + 1, hn⟩) accBuf (Memref.isWhole_whole _)
          (notReset ⟨n + 1, hn⟩ h0) (notFlush ⟨n + 1, hn⟩ h1) (iblk W c 0 ⟨n + 1, hn⟩) (accAt c n (Nat.lt_of_succ_lt hn))).1)

/-- The output's staging buffer after point `n`: at the last point of a group the one block the body stores, read
    back; elsewhere the body stores nothing there and the value is a placeholder that nothing consults. -/
def outAt (c : Dev nD) (n : ℕ) (hn : n < cfg1.N) : Vec F S1x3x256 .f32 :=
  if h : n % 64 = 63 then
    outView.read (Elt F) (outView.writes (Elt F) outView.junk
      (runLast c (grid1.coords ⟨n, hn⟩) (inBuf ⟨n, hn⟩) (inBuf_whole ⟨n, hn⟩) (outBuf ⟨n, hn⟩) (outBuf_whole ⟨n, hn⟩) accBuf (Memref.isWhole_whole _)
        (notReset_of_last ⟨n, hn⟩ h) (isFlush ⟨n, hn⟩ h) (iblk W c 0 ⟨n, hn⟩) (accAt W c (n - 1) (Nat.lt_of_le_of_lt (Nat.sub_le _ _) hn))).1)
  else outView.read (Elt F) outView.junk

/-! ## The recurrences, for any proofs of the point's kind -/

theorem accAt_first (c : Dev nD) (t : Fin cfg1.N) (h : t.val % 64 = 0) (hr) (hf) : accAt W c t.val t.isLt = accView.read (Elt F) (accView.writes (Elt F) accView.junk (runFirst c (grid1.coords t) (inBuf t) (inBuf_whole t) (outBuf t) (outBuf_whole t) accBuf (Memref.isWhole_whole _) hr hf (iblk W c 0 t)).1) := by
  obtain ⟨n, hn⟩ := t
  cases n with
  | zero => exact rfl
  | succ n => exact (dif_pos h).trans rfl

theorem accAt_inner (c : Dev nD) (t : Fin cfg1.N) (h0 : t.val % 64 ≠ 0) (h1 : t.val % 64 ≠ 63) (hr) (hf) : accAt W c t.val t.isLt = accView.read (Elt F) (accView.writes (Elt F) accView.junk (runInner c (grid1.coords t) (inBuf t) (inBuf_whole t) (outBuf t) (outBuf_whole t) accBuf (Memref.isWhole_whole _) hr hf (iblk W c 0 t) (accAt W c (t.val - 1) (Nat.lt_of_le_of_lt (Nat.sub_le _ _) t.isLt))).1) := by
  obtain ⟨n, hn⟩ := t
  cases n with
  | zero => exact absurd (Nat.zero_mod _) h0
  | succ n => exact (dif_neg h0).trans ((dif_neg h1).trans rfl)

theorem accAt_last (c : Dev nD) (t : Fin cfg1.N) (h : t.val % 64 = 63) (hr) (hf) : accAt W c t.val t.isLt = accView.read (Elt F) (accView.writes (Elt F) accView.junk (runLast c (grid1.coords t) (inBuf t) (inBuf_whole t) (outBuf t) (outBuf_whole t) accBuf (Memref.isWhole_whole _) hr hf (iblk W c 0 t) (accAt W c (t.val - 1) (Nat.lt_of_le_of_lt (Nat.sub_le _ _) t.isLt))).2.1) := by
  obtain ⟨n, hn⟩ := t
  cases n with
  | zero => exact absurd ((Nat.zero_mod 64).symm.trans h) (by decide)
  | succ n => exact (dif_neg (by (try dsimp only at h); omega)).trans ((dif_pos h).trans rfl)

theorem outAt_last (c : Dev nD) (t : Fin cfg1.N) (h : t.val % 64 = 63) (hr) (hf) : outAt W c t.val t.isLt = outView.read (Elt F) (outView.writes (Elt F) outView.junk (runLast c (grid1.coords t) (inBuf t) (inBuf_whole t) (outBuf t) (outBuf_whole t) accBuf (Memref.isWhole_whole _) hr hf (iblk W c 0 t) (accAt W c (t.val - 1) (Nat.lt_of_le_of_lt (Nat.sub_le _ _) t.isLt))).1) :=
  (dif_pos h).trans rfl

/-! ## The invariant from point to point -/

/-- The invariant before position `n`: the class's before the first point; afterwards the accumulator owned at what
    point `n - 1` left in it, the other scoped buffers and the generator register. -/
private def carried (c : Dev nD) : (n : ℕ) → n ≤ cfg1.N → sProp 𝕄
  | 0, _ => Pipeline.ΦA spec1 c
  | n + 1, hn => iprop(iprop(owns (c : Thread nD τ) accBuf fullShare (accAt W c n hn) ∗ otherScoped c) ∗ (∃ r, prngReg c r))

private theorem carried_succ (c : Dev nD) (n : ℕ) (hn : n < cfg1.N) :
    carried W c (n + 1) hn = iprop(iprop(owns (c : Thread nD τ) accBuf fullShare (accAt W c n hn) ∗ otherScoped c) ∗ (∃ r, prngReg c r)) := rfl

/-- Before a point that is not the first, the accumulator is owned at what the point before left. -/
private theorem carried_pos (c : Dev nD) (n : ℕ) (h : n ≤ cfg1.N) (hz : n ≠ 0) :
    carried W c n h = iprop(iprop(owns (c : Thread nD τ) accBuf fullShare (accAt W c (n - 1) (by omega)) ∗ otherScoped c) ∗ (∃ r, prngReg c r)) := by
  cases n with
  | zero => exact absurd rfl hz
  | succ n => rfl

/-- At any position the invariant yields the accumulator at some contents: the class's invariant. -/
private theorem carried_forget (c : Dev nD) (n : ℕ) (h : n ≤ cfg1.N) :
    carried W c n h ⊢ iprop(iprop((∃ d, owns (c : Thread nD τ) accBuf fullShare d) ∗ otherScoped c) ∗ (∃ r, prngReg c r)) := by
  cases n with
  | zero =>
    rw [show carried W c 0 h = Pipeline.ΦA spec1 c from rfl, classInv_eq]
  | succ n =>
    rw [carried_succ]
    iintro ⟨⟨HS, Hr⟩, Hg⟩
    isplitr [Hg]
    · isplitl [HS]
      · iexists _; iexact HS
      iexact Hr
    iexact Hg

/-! ## The proof data -/

/-- The launch's proof data on core `c`: the arrays as the region finds them; after the body at point `t` the input's
    buffer at its block and the output's at `outAt`; the invariant `carried`; full shares; nothing owed. -/
def dat0 (c : Dev nD) : Dat τ (Elt F) Unit ℕ (UR sig nD τ) ℕ cfg1 c where
  A w := arrs W c (Pipeline.arrRef spec1 w)
  after w t := match w with
    | ⟨0, _⟩ => iblk W c 0 t
    | ⟨1, _⟩ => outAt W c t.val t.isLt
  Φ t := carried W c t.val (Nat.le_of_lt_succ t.isLt)
  q _ := fullShare
  owed _ := 0

theorem A_eq (c : Dev nD) (w : Fin cfg1.W) : (dat0 W c).A w = arrs W c (Pipeline.arrRef spec1 w) := by
  dsimp only [dat0]
theorem after_in (c : Dev nD) (t : Fin cfg1.N) : (dat0 W c).after 0 t = iblk W c 0 t := by dsimp only [dat0]
theorem after_out (c : Dev nD) (t : Fin cfg1.N) : (dat0 W c).after 1 t = outAt W c t.val t.isLt := by dsimp only [dat0]
theorem q_full (c : Dev nD) (w : Fin cfg1.W) : (dat0 W c).q w = fullShare := rfl
theorem owed_zero (c : Dev nD) (t : Fin (cfg1.N + 1)) : (dat0 W c).owed t = 0 := rfl
theorem recorded_univ (c : Dev nD) : (dat0 W c).recorded 0 = Set.univ := rfl

/-- The invariant at a point's start, restated at the point's number. -/
private theorem inv_castSucc (c : Dev nD) (t : Fin cfg1.N) :
    (dat0 W c).Φ t.castSucc = carried W c t.val (Nat.le_of_lt t.isLt) := by
  dsimp only [dat0]; simp only [Fin.coe_castSucc]

/-- The input's current staging buffer holds its block at every point. -/
private theorem before_in (c : Dev nD) (t : Fin cfg1.N) (d) : (dat0 W c).before 0 t d = iblk W c 0 t :=
  before_in_of W (dat0 W c) (A_eq W c 0) (after_in W c) t d

/-! ## The body obligation, at a generic point -/

/-- What the body is called with at point `t`, the windows one by one, -/
private def bodyPre (c : Dev nD) (t : Fin cfg1.N) : sProp 𝕄 :=
  iprop((dat0 W c).Φ t.castSucc ∗ (dat0 W c).owesAt () t.castSucc
    ∗ (∃ d, owns (c : Thread nD τ) (inBuf t) fullShare ((dat0 W c).before 0 t d))
    ∗ (∃ d, owns (c : Thread nD τ) (outBuf t) fullShare ((dat0 W c).before 1 t d)))

/-- and what it returns. -/
private def bodyPost (c : Dev nD) (t : Fin cfg1.N) : sProp 𝕄 :=
  iprop((dat0 W c).Φ t.succ ∗ (dat0 W c).owesAt () t.succ
    ∗ (dat0 W c).leavesExact 0 t
    ∗ (dat0 W c).leavesExact 1 t)

/-- The input window is live at every point: its buffer is left at the block. -/
private theorem leaves_in (c : Dev nD) (t : Fin cfg1.N) :
    (dat0 W c).leavesExact 0 t = owns (c : Thread nD τ) (inBuf t) fullShare (iblk W c 0 t) := by
  unfold Dat.leavesExact; rw [inLive t, after_in]

/-- The output window is live at the last point of a group: its buffer is left at `outAt`. -/
private theorem leaves_out_last (c : Dev nD) (t : Fin cfg1.N) (hf : flushAt (grid1.coords t)) :
    (dat0 W c).leavesExact 1 t = owns (c : Thread nD τ) (outBuf t) fullShare (outAt W c t.val t.isLt) := by
  unfold Dat.leavesExact; rw [outLive t hf, after_out]

set_option maxHeartbeats 4800000 in
/-- The body at any point. The input's buffer holds the point's block. At the first point of a group the accumulator
    is handed over at whatever it holds and taken back at the rows stored over zero; at an inner point it is handed
    over at what the point before left and taken back at the rows stored over that; at the last point the same, and
    the output's buffer, handed over at anything, is taken back at the block stored. At the other points the output's
    buffer goes through untouched. The other scoped buffers, the generator register and what the core owes ride along. -/
private theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_in]
  rw [show (dat0 W c).owesAt () t.succ = (dat0 W c).owesAt () t.castSucc from rfl]
  rw [show (dat0 W c).Φ t.succ = carried W c (t.val + 1) t.isLt from rfl, carried_succ]
  rw [inv_castSucc, leaves_in]
  by_cases h0 : t.val % 64 = 0
  · have hr := isReset t h0
    have hf := notFlush_of_first t h0
    rw [Dat.leavesExact_idle (dat0 W c) 1 t (outIdle t hf) (outNoFlush t hf)]
    rw [accAt_first W c t h0 hr hf]
    iintro ⟨HΦ, Ho, ⟨%d0, H0⟩, ⟨%d1, H1⟩⟩
    ihave HΦ' := (carried_forget W c t.val (Nat.le_of_lt t.isLt)) $$ HΦ
    icases HΦ' with ⟨⟨HS, Hr⟩, Hg⟩
    iapply ((runFirst c (grid1.coords t) _ _ _ _ _ _ hr hf (iblk W c 0 t)).2 _ Set.univ _)
    isplitl [H0]; · iexact H0
    isplitl [H1]; · iexact H1
    isplitl [HS]; · iexact HS
    iintro ⟨H0, H1, ⟨%es, HS⟩⟩
    isplitl [HS Hr Hg]
    · isplitr [Hg]
      · isplitl [HS]
        · unfold owns; iexists _; isplitr
          swap; · iexact HS
          ipureintro; exact View.read_writes_of_cover _ _ _ _ _ (cover_first c _ _ _ _ _ _ _ _ _ _)
        iexact Hr
      iexact Hg
    isplitl [Ho]; · iexact Ho
    isplitl [H0]; · iexact H0
    iexists _; iexact H1
  · have hr := notReset t h0
    have hz : t.val ≠ 0 := fun hz => h0 (by rw [hz])
    rw [carried_pos W c _ _ hz]
    by_cases h1 : t.val % 64 = 63
    · have hf := isFlush t h1
      rw [leaves_out_last W c t hf]
      rw [accAt_last W c t h1 hr hf, outAt_last W c t h1 hr hf]
      iintro ⟨⟨⟨HS, Hr⟩, Hg⟩, Ho, ⟨%d0, H0⟩, ⟨%d1, H1⟩⟩
      iapply ((runLast c (grid1.coords t) _ _ _ _ _ _ hr hf (iblk W c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hr Hg]
      · isplitr [Hg]
        · isplitl [HS]
          · unfold owns; iexists _; isplitr
            swap; · iexact HS
            ipureintro; exact View.read_writes_of_cover _ _ _ _ _ (cover_last_acc c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover_last_out c _ _ _ _ _ _ _ _ _ _ _)
    · have hf := notFlush t h1
      rw [Dat.leavesExact_idle (dat0 W c) 1 t (outIdle t hf) (outNoFlush t hf)]
      rw [accAt_inner W c t h0 h1 hr hf]
      iintro ⟨⟨⟨HS, Hr⟩, Hg⟩, Ho, ⟨%d0, H0⟩, ⟨%d1, H1⟩⟩
      iapply ((runInner c (grid1.coords t) _ _ _ _ _ _ hr hf (iblk W c 0 t) _).2 _ Set.univ _)
      isplitl [H0]; · iexact H0
      isplitl [H1]; · iexact H1
      isplitl [HS]; · iexact HS
      iintro ⟨H0, H1, ⟨%es, HS⟩⟩
      isplitl [HS Hr Hg]
      · isplitr [Hg]
        · isplitl [HS]
          · unfold owns; iexists _; isplitr
            swap; · iexact HS
            ipureintro; exact View.read_writes_of_cover _ _ _ _ _ (cover_inner c _ _ _ _ _ _ _ _ _ _ _)
          iexact Hr
        iexact Hg
      isplitl [Ho]; · iexact Ho
      isplitl [H0]; · iexact H0
      iexists _; iexact H1

/-- The body obligation, at every point. -/
theorem body_obligation (c : Dev nD) : BodyObligation (dat0 (F := F) W c) (defs₀ (F := F)) Variants.none () Set.univ := fun t => by
  rw [bigSep_W1, bigSep_W1]
  exact sound_body W c t

/-! ## The invariant at the region's two ends -/

/-- What the launch hands the region is the invariant before the first point. -/
theorem inv_in (c : Dev nD) : (Pipeline.ΦA spec1 c : sProp 𝕄) ⊢ (dat0 W c).Φ 0 := by
  rw [show (dat0 W c).Φ 0 = Pipeline.ΦA spec1 c from rfl]

/-- After the last point the invariant gives the class's back: what the accumulator holds is forgotten. -/
theorem inv_out (c : Dev nD) : (dat0 W c).Φ (Fin.last cfg1.N) ⊢ (Pipeline.ΦA spec1 c : sProp 𝕄) := by
  rw [show (dat0 W c).Φ (Fin.last cfg1.N) = carried W c (Fin.last cfg1.N).val (Nat.le_of_lt_succ (Fin.last cfg1.N).isLt) from rfl, classInv_eq]
  exact carried_forget W c _ _

end Cert.Kernel.R1

end
-- ==== Proof.LibRegionHeld.lean ====
/-
  A kernel region of a TensorCore program whose main function is followed through ONE valuation of the core's
  unscoped buffers.

  Between two items of such a program (a stretch of host operations, a kernel region) a core holds every unscoped
  TensorCore buffer whole, at a valuation `W c`, beside its generator register at some state and the fact that it
  owes nothing. A stretch of host operations moves the valuation along its fold. This file says what a kernel region
  does to it, as the pipeline library's region record:

    * at the entry the windows' arrays are cut out of the unscoped buffers, at the contents the proof data name
      for them (`hA`), the other unscoped buffers bypassing the region;
    * the generator register and the scoped buffers no window stages travel through the class invariant `ΦA`, from
      which the proof data's own invariant is reached at the first point (`hΦin`) and into which it falls back at
      the last (`hΦout`);
    * the body owes nothing at any point, holds every input array whole, and the kernel has no cell of its own;
    * at the exit the arrays return at what the write-backs leave, `Dat.arrAt · N`, and with the bypassing buffers
      they are the unscoped buffers again, whole at any valuation `W' c` that has the arrays there (`hF`) and
      agrees with `W c` everywhere else (`hrest`).

  The region is then entered from "the unscoped buffers at `W`" and left at "the unscoped buffers at `W'`", the
  same shape a host stretch is entered from and left at, so that the items of a main function chain by reflexivity.
-/
import Idealize.ShloMosaic.Lib.Pipeline.Kit
import Idealize.ShloMosaic.Lib.Pipeline.Frame
import Idealize.ShloMosaic.Lib.Pipeline.FrameSuffix
import Idealize.ShloMosaic.Lib.Pipeline.Regions
import Idealize.ShloMosaic.Lib.Pipeline.RegionsLoop

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

namespace Pipeline

open PCS
open Idealize.ShloMosaic.Rounds

variable {nD : Nat} {τ : Topo} {sig : RefSig} {Val : EltTy → Type} {Λ₀ : SL.Sem.Labels}

/-! ## A core that owes nothing, and a proof data's account of what it owes -/

section Owing

variable {Ix : Type} [DecidableEq Ix] {Name : Type} [DecidableEq Name] {U : Type} [URA U] {Lvl : Type}
variable {cfg : Cfg sig Λ₀} {c : Dev nD} (dat : Dat τ Val Ix Name U Lvl cfg c)

local notation "𝕄" => MT nD τ sig Ix Val Name U Lvl

/-- A core that owes nothing, whatever pairs its waits have recorded, is the proof data's account before point `t`
    when the data owe nothing there and put no bound on the recorded pairs. -/
theorem Dat.owesAt_of_owes_nothing (ι : Ix) (t : Fin (cfg.N + 1)) (h0 : dat.owed t = 0) (hrec : dat.recorded t = Set.univ) :
    (iprop(∃ S, owes (c : Thread nD τ) (0 : CellTallies nD τ sig Ix) S) : sProp 𝕄) ⊢ dat.owesAt ι t := by
  unfold Dat.owesAt owesWithin
  rw [h0]
  iintro ⟨%S, Howe⟩
  iexists S
  isplitr
  · ipureintro
    intro x _
    exact Or.inl (by rw [hrec]; exact Set.mem_univ x)
  iexact Howe

/-- Conversely the account before a point where the data owe nothing is a core that owes nothing. -/
theorem Dat.owes_nothing_of_owesAt (ι : Ix) (t : Fin (cfg.N + 1)) (h0 : dat.owed t = 0) :
    dat.owesAt ι t ⊢ (iprop(∃ S, owes (c : Thread nD τ) (0 : CellTallies nD τ sig Ix) S) : sProp 𝕄) := by
  unfold Dat.owesAt owesWithin
  rw [h0]
  iintro ⟨%S, -, Howe⟩
  iexists S
  iexact Howe

/-- A pipeline with no prefetched table holds none: there is nothing to ask for. -/
theorem emp_prefHeld_of_no_table (pre : Prefetch sig) (hK : pre.K = 0) (c : Dev nD) (q : Fin pre.K → PosShare TreeShare)
    (V : pre.Contents Val) : (BI.emp : sProp 𝕄) ⊢ prefHeld pre c q V := by
  haveI : IsEmpty (Fin pre.K) := ⟨fun k => absurd k.isLt (by omega)⟩
  unfold prefHeld
  rw [Finset.univ_eq_empty, BI.bigSep_empty]

end Owing

/-! ## The exit valuation: the entry valuation with the arrays replaced -/

section Exit

variable {gr : Nat} {Wn : Nat} (win : Fin Wn → WinSpec sig gr) (c : Dev nD) (V : Valuation τ sig Val)
  (A : (w : Fin Wn) → Buf Val ((win w).arr.view.loc (c : Thread nD τ)))

/-- `withArrays` has each array at the contents given for it (the arrays being distinct buffers), -/
theorem withArrays_hF (hinj : Function.Injective (arrRef win)) (w : Fin Wn) :
    A w = withArrays win c V A (Proc.devRef .tc (arrRef win w)) :=
  (withArrays_arr win hinj c V A w).symm

/-- and every buffer that is no window's array at the valuation it started from. -/
theorem withArrays_hrest (b : Ref sig .tc) (hb : b ∉ Finset.univ.image (arrRef win)) :
    withArrays win c V A (Proc.devRef .tc b) = V (Proc.devRef .tc b) :=
  withArrays_of_ne win c V A b fun w e => hb (Finset.mem_image.mpr ⟨w, Finset.mem_univ w, e⟩)

end Exit

/-! ## The thread state between two items, and the region over it -/

section Held

variable {U : Type} [URA U] {P : Type} [Fintype P]

local notation "𝕄" => MT nD τ sig Unit Val ℕ U ℕ

/-- What rides beside the unscoped buffers between two items of the main function: the core's generator register at
    some state, and the core owing nothing. -/
abbrev idleRest (c : Dev nD) : sProp 𝕄 :=
  iprop((∃ r, prngReg c r) ∗ ∃ S, owes (c : Thread nD τ) (0 : CellTallies nD τ sig Unit) S)

/-- The thread state between two items: every unscoped TensorCore buffer whole at the valuation, beside `idleRest`. -/
abbrev heldIdle (W : Dev nD → Valuation τ sig Val) (c : Dev nD) : sProp 𝕄 :=
  iprop(StableHlo.held (c : Thread nD τ) (ucRefs τ sig) (W c) ∗ idleRest c)

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

-- the library's lemmas on the arrays are stated over `pin pcs a p`; meeting them from a goal that names the pipeline's
-- own fields takes unfolding plain definitions inside types
set_option backward.isDefEq.respectTransparency.types false in
/-- THE REGION OVER A HELD VALUATION. Pipeline `p`'s region, entered from `heldIdle W` and left at `heldIdle W'`:
    given the layout the launch decides (`hw`, `hpos`, `harr`, `hstage`), no prefetched table to hold (`hpre`), the
    body obligation of proof data that hold every input array whole (`hq`), owe nothing (`howed`, `hrec`), enter
    at the arrays' contents under `W` (`hA`) and reach `W'` (`hF`, `hrest`), and whose invariant begins below and ends
    above the class invariant `ΦA` (`hΦin`, `hΦout`). The kernel has no semaphore of its own. -/
def RegionSeg.ofHeld (p : P)
    (hw : WinFacts (pin pcs a p).spec)
    (hpos : ∀ w : Fin (pin pcs a p).W, 0 < ((pin pcs a p).spec w).block.numel)
    (harr : ∀ w : Fin (pin pcs a p).W, ((pin pcs a p).spec w).arr.IsWhole)
    (hstage : ∀ (w : Fin (pin pcs a p).W) (s : Fin ((pin pcs a p).spec w).nbuf), (((pin pcs a p).spec w).stage s).IsWhole)
    (hpre : ∀ c : Dev nD, (BI.emp : sProp 𝕄) ⊢ prefHeld (pcs p).pre c (fun _ => fullShare) (a p).1)
    (hbody : ∀ c : Dev nD, BodyObligation (pdats p c) defs₀ 𝒱₀ () Set.univ)
    (hq : ∀ (c : Dev nD) (w : Fin (pin pcs a p).W), (pdats p c).q w = fullShare)
    (howed : ∀ (c : Dev nD) (t : Fin ((pin pcs a p).N + 1)), (pdats p c).owed t = 0)
    (hrec : ∀ c : Dev nD, (pdats p c).recorded 0 = Set.univ)
    (W W' : Dev nD → Valuation τ sig Val)
    (hA : ∀ (c : Dev nD) (w : Fin (pin pcs a p).W), (pdats p c).A w = W c (Proc.devRef .tc (arrRef (pin pcs a p).spec w)))
    (hF : ∀ (c : Dev nD) (w : Fin (pin pcs a p).W),
      (pdats p c).arrAt w (pin pcs a p).N = W' c (Proc.devRef .tc (arrRef (pin pcs a p).spec w)))
    (hrest : ∀ (c : Dev nD) (b : Ref sig .tc), b ∉ Finset.univ.image (arrRef (pin pcs a p).spec) →
      W' c (Proc.devRef .tc b) = W c (Proc.devRef .tc b))
    (hΦin : ∀ c : Dev nD, (ΦA (pin pcs a p).spec c : sProp 𝕄) ⊢ (pdats p c).Φ 0)
    (hΦout : ∀ c : Dev nD, (pdats p c).Φ (Fin.last (pin pcs a p).N) ⊢ (ΦA (pin pcs a p).spec c : sProp 𝕄)) :
    RegionSeg pcs a pdats () defs₀ 𝒱₀ L lv p where
  win := hw.to₀
  block_pos := hpos
  stage_whole := hstage
  K := PEmpty
  osem k := k.elim
  ho := OwnSemFacts.none _
  hbody c := (hbody c).loose
  hwaits := hwaits_of_owed_zero pcs a pdats () L lv p howed
  pre := heldIdle W
  post := heldIdle W'
  -- into the invariant and out of it: the generator register
  X c := iprop(∃ r, prngReg c r)
  Y c := iprop(∃ r, prngReg c r)
  -- past the region: the unscoped buffers that are no window's array, as entered
  Z c := unscopedRest (Ix := Unit) (Name := ℕ) (U := U) (Lvl := ℕ) (pin pcs a p).spec c (fun b => W c (Proc.devRef .tc b))
  hentry c := by
    have hcut : (StableHlo.held (c : Thread nD τ) (ucRefs τ sig) (W c) : sProp 𝕄)
        ⊢ iprop((pdats p c).arrays ((pdats p c).arrAt · 0)
            ∗ unscopedRest (pin pcs a p).spec c (fun b => W c (Proc.devRef .tc b))) := by
      rw [← unscopedBufs_held]
      exact arrays_of_unscopedBufs pcs a pdats hw harr c ((pdats p c).share_full (hq c))
        (fun b => W c (Proc.devRef .tc b)) (hA c)
    iintro ⟨⟨Hbufs, Hgen, Howe⟩, -, -⟩
    ihave Hsplit := hcut $$ Hbufs
    icases Hsplit with ⟨Harr, Hby⟩
    imodintro
    isplitl [Harr]; · iexact Harr
    isplitr
    · iapply (hpre c); iempintro
    isplitl [Howe]
    · iapply ((pdats p c).owesAt_of_owes_nothing () 0 (howed c 0) (hrec c)); iexact Howe
    isplitl [Hgen]; · iexact Hgen
    iexact Hby
  hin c := by
    refine Entails.trans ?_ (hΦin c)
    unfold ΦA
    iintro ⟨Hgen, -, Hsc⟩
    isplitl [Hsc]; · iexact Hsc
    iexact Hgen
  hout c := by
    refine (hΦout c).trans ?_
    rw [ownSems0_none]
    unfold ΦA
    iintro ⟨Hsc, Hgen⟩
    isplitl [Hgen]; · iexact Hgen
    isplitr; · iempintro
    iexact Hsc
  hexit c := by
    have hglue : iprop((pdats p c).arrays ((pdats p c).arrAt · (pin pcs a p).N)
            ∗ unscopedRest (pin pcs a p).spec c (fun b => W c (Proc.devRef .tc b)))
        ⊢ (StableHlo.held (c : Thread nD τ) (ucRefs τ sig) (W' c) : sProp 𝕄) := by
      rw [← unscopedBufs_held]
      exact unscopedBufs_of_arrays pcs a hw harr c pdats ((pdats p c).share_full (hq c))
        (fun b => W c (Proc.devRef .tc b)) (fun b => W' c (Proc.devRef .tc b))
        ((pdats p c).arrAt · (pin pcs a p).N) (hF c) (hrest c)
    iintro ⟨Harr, Howe, Hgen, Hby⟩
    imodintro
    isplitl [Harr Hby]
    · iapply hglue; isplitl [Harr] <;> iassumption
    isplitl [Hgen]; · iexact Hgen
    iapply ((pdats p c).owes_nothing_of_owesAt () _ (howed c _)); iexact Howe

end Held

end Pipeline

end Idealize.ShloMosaic

end
-- ==== Proof.K.Run.lean ====
/-
  The launch of the main function: two kernel regions, each followed by a stretch of host operations.

  Between two items a core holds every unscoped buffer whole at a valuation, beside its generator register and the
  fact that it owes nothing. The valuations are folded through the main function from the launch memory: a region
  replaces its windows' arrays by what its write-backs leave and keeps every other buffer; a host stretch moves the
  valuation along its operations. The run of the main function then ends with every unscoped buffer at the last
  valuation of the fold, and the argument arrays, which no item writes, read back through the fold to the launch memory.
-/
import proofs.«178617_j19834158972940_1_alg».proof.Proof.K.R0.Data
import proofs.«178617_j19834158972940_1_alg».proof.Proof.K.R1.Data
import proofs.«178617_j19834158972940_1_alg».proof.Proof.LibRegionHeld
import proofs.«178617_j19834158972940_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items: a fold through the main function -/

/-- A core's buffers at launch. -/
abbrev W0 : Dev nD → Valuation τ sig (Elt F) := fun c b => m (c, b)
/-- After the first region: its arrays at what the write-backs leave, every other buffer as entered. -/
def W1 (c : Dev nD) : Valuation τ sig (Elt F) :=
  Pipeline.withArrays spec0 c (W0 m c) fun w => (R0.dat0 (W0 m) c).arrAt w cfg0.N
/-- After the first host stretch. -/
abbrev W2 : Dev nD → Valuation τ sig (Elt F) := fun c => StableHlo.after hostOps1 (W1 m c)
/-- After the second region. -/
def W3 (c : Dev nD) : Valuation τ sig (Elt F) :=
  Pipeline.withArrays spec1 c (W2 m c) fun w => (R1.dat0 (W2 m) c).arrAt w cfg1.N
/-- After the second host stretch: at the return. -/
abbrev W4 : Dev nD → Valuation τ sig (Elt F) := fun c => StableHlo.after hostOps2 (W3 m c)

theorem W1_arr (c : Dev nD) (w : Fin cfg0.W) :
    W1 m c (Proc.devRef .tc (Pipeline.arrRef spec0 w)) = (R0.dat0 (W0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W3_arr (c : Dev nD) (w : Fin cfg1.W) :
    W3 m c (Proc.devRef .tc (Pipeline.arrRef spec1 w)) = (R1.dat0 (W2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- A buffer the first host stretch does not write keeps its contents across it, -/
theorem W2_of (c : Dev nD) (r : Ref sig .tc) (h : r ∉ hostOps1_W) :
    W2 m c (Proc.devRef .tc r) = W1 m c (Proc.devRef .tc r) :=
  StableHlo.after_of_writes_sub hostOps1 _ hostOps1_writes h
/-- and so across the second. -/
theorem W4_of (c : Dev nD) (r : Ref sig .tc) (h : r ∉ hostOps2_W) :
    W4 m c (Proc.devRef .tc r) = W3 m c (Proc.devRef .tc r) :=
  StableHlo.after_of_writes_sub hostOps2 _ hostOps2_writes h

/-- The first region's output array after it. -/
theorem W1_out (c : Dev nD) : W1 m c (Proc.devRef .tc main_v0) = (R0.dat0 (W0 m) c).arrAt 1 cfg0.N :=
  W1_arr m c 1
/-- The second region's output array after it. -/
theorem W3_out (c : Dev nD) : W3 m c (Proc.devRef .tc main_v2) = (R1.dat0 (W2 m) c).arrAt 1 cfg1.N :=
  W3_arr m c 1

/-- An input array leaves its region as it entered: no point writes it back. -/
theorem W1_arg0 (c : Dev nD) : W1 m c (Proc.devRef .tc main_arg0) = m ((c : Thread nD τ).loc main_arg0) :=
  (W1_arr m c 0).trans (((R0.dat0 (W0 m) c).arrAt_in 0 rfl _).trans (R0.A_eq (W0 m) c 0))

/-- The second argument reaches the second region as launched. -/
theorem W2_arg1 (c : Dev nD) : W2 m c (Proc.devRef .tc main_arg1) = m ((c : Thread nD τ).loc main_arg1) :=
  (W2_of m c main_arg1 (by decide)).trans (W1_of_ne m c main_arg1 (by decide))

/-- The second region keeps the first stretch's sum. -/
theorem W3_v1 (c : Dev nD) : W3 m c (Proc.devRef .tc main_v1) = W2 m c (Proc.devRef .tc main_v1) :=
  W3_of_ne m c main_v1 (by decide)

/-- The first argument ends as launched, -/
theorem W4_arg0 (c : Dev nD) : W4 m c (Proc.devRef .tc main_arg0) = m ((c : Thread nD τ).loc main_arg0) :=
  (W4_of m c main_arg0 (by decide)).trans <| (W3_of_ne m c main_arg0 (by decide)).trans <|
    (W2_of m c main_arg0 (by decide)).trans (W1_arg0 m c)

/-- and the second. -/
theorem W4_arg1 (c : Dev nD) : W4 m c (Proc.devRef .tc main_arg1) = m ((c : Thread nD τ).loc main_arg1) :=
  (W4_of m c main_arg1 (by decide)).trans <| (W3_arr m c 0).trans <|
    ((R1.dat0 (W2 m) c).arrAt_in 0 rfl _).trans <| (R1.A_eq (W2 m) c 0).trans (W2_arg1 m c)

/-! ## The proof data of the two regions, and the items as segments -/

/-- Each region's proof data at its entry valuation: a literal match, so that the configuration pinned at a numeral
    reduces to the printed one. -/
def pdats : (p : Fin 2) → (c : Dev nD) → Dat τ (Elt F) Unit ℕ (UR sig nD τ) ℕ (Pipeline.pin (pcfgs (F := F)) adm p) c
  | ⟨0, _⟩ => fun c => R0.dat0 (W0 m) c
  | ⟨1, _⟩ => fun c => R1.dat0 (W2 m) c
abbrev 𝒱₀ : Variants := Variants.none
/-- No core owes another anything: no level is assigned. -/
abbrev L : GSem nD τ sig → Finset Unit := fun _ => ∅
abbrev lv : GSem nD τ sig → Unit → ℕ := fun _ _ => 0

/-- A host stretch as a segment over the unscoped buffers from the valuation W, the generator register and the
    empty debt riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Pipeline.idleRest

set_option backward.isDefEq.respectTransparency.types false in
/-- The first region, entered from the launch valuation and left at the next of the fold. -/
def reg0 : Pipeline.RegionSeg (pcfgs (F := F)) adm (pdats m) () defs₀ 𝒱₀ L lv 0 :=
  Pipeline.RegionSeg.ofHeld (pcfgs (F := F)) adm (pdats m) defs₀ 𝒱₀ L lv 0
    launch0.win launch0.block_pos launch0.arr_whole launch0.stage_whole
    (fun c => Pipeline.emp_prefHeld_of_no_table _ rfl c _ _)
    (fun c => R0.body_obligation (W0 m) c)
    (fun c w => R0.q_full (W0 m) c w)
    (fun c t => R0.owed_zero (W0 m) c t)
    (fun c => R0.recorded_univ (W0 m) c)
    (W0 m) (W1 m)
    (fun c w => R0.A_eq (W0 m) c w)
    (fun c w => (W1_arr m c w).symm)
    (fun c b hb => W1_of_ne m c b fun w e => hb (Finset.mem_image.mpr ⟨w, Finset.mem_univ w, e⟩))
    (fun c => R0.inv_in (W0 m) c)
    (fun c => R0.inv_out (W0 m) c)

set_option backward.isDefEq.respectTransparency.types false in
/-- The second region, entered from the valuation the first host stretch leaves. -/
def reg1 : Pipeline.RegionSeg (pcfgs (F := F)) adm (pdats m) () defs₀ 𝒱₀ L lv 1 :=
  Pipeline.RegionSeg.ofHeld (pcfgs (F := F)) adm (pdats m) defs₀ 𝒱₀ L lv 1
    launch1.win launch1.block_pos launch1.arr_whole launch1.stage_whole
    (fun c => Pipeline.emp_prefHeld_of_no_table _ rfl c _ _)
    (fun c => R1.body_obligation (W2 m) c)
    (fun c w => R1.q_full (W2 m) c w)
    (fun c t => R1.owed_zero (W2 m) c t)
    (fun c => R1.recorded_univ (W2 m) c)
    (W2 m) (W3 m)
    (fun c w => R1.A_eq (W2 m) c w)
    (fun c w => (W3_arr m c w).symm)
    (fun c b hb => W3_of_ne m c b fun w e => hb (Finset.mem_image.mpr ⟨w, Finset.mem_univ w, e⟩))
    (fun c => R1.inv_in (W2 m) c)
    (fun c => R1.inv_out (W2 m) c)

/-- The main function's four items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

/-- The main function is the run of the items. -/
theorem main_run (c : Dev nD) : main (F := F) c = Pipeline.Seg.run (segs m) := (main_chain c).trans (by chain_rfl)

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debt: every unscoped buffer at the last valuation, the generator register at
    some state. -/
abbrev Tₙ (c : Dev nD) : sProp 𝕄 :=
  iprop(StableHlo.held (c : Thread nD τ) (Pipeline.ucRefs τ sig) (W4 m c) ∗ ∃ r, prngReg c r)

/-! ## The run -/

set_option backward.isDefEq.respectTransparency.types false in
/-- Every weakly fair execution of the main function from memory m with zero counters terminates, and every final
    memory holds each unscoped buffer at the last valuation of the fold. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Pipeline.heldIdle (W0 m)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ Pipeline.idleRest c) : sProp 𝕄)
        ⊢ iprop(Tₙ m c ∗ ∃ S, owes (c : Thread nD τ) (0 : CellTallies nD τ sig Unit) S)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W4 m c b)
    (hfin := fun c s' => by
      iintro ⟨⟨Hh, -⟩, HSI⟩
      unfold StableHlo.held
      imodintro
      iapply (pointsTo_read_all (Pipeline.ucRefs τ sig) (fun b => ((c : Thread nD τ).1, b)) (W4 m c) s')
      isplitl [Hh] <;> iassumption)
    (hQ := fun s h => h)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_arg0 m c),
     (h c _ (mem_uc main_arg1 (by decide))).trans (W4_arg1 m c)⟩) (run_all m ρ)

/-- The result buffer ends at the last valuation of the fold, the argument arrays as launched. -/
theorem run_result : θ_run defs (onTc (τ := τ) (main (F := F))) ⟨m, fun _ => 0, ρ⟩ (fun r => ∀ c : Dev nD,
      r.2.mem ((c.tc : Thread nD τ).loc main_v23) = W4 m c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v23 (by decide)),
     (h c _ (mem_uc main_arg0 (by decide))).trans (W4_arg0 m c),
     (h c _ (mem_uc main_arg1 (by decide))).trans (W4_arg1 m c)⟩) (run_all m ρ)

end Cert.Kernel.Run

end
-- ==== Proof.KI.R0.Shared.lean ====
/-
  One launch of the histogram kernel: what every later module about it is stated over.

  The grid has 2 x 16 x 4 = 128 points, visited in order; point t belongs to group t / 64. The body zeroes its
  accumulator at the first point of a group (t % 64 = 0), adds the block's 3 x 256 joint counts into it at every point,
  and copies it into the output's staging buffer at the last point of a group (t % 64 = 63), the only points where that
  buffer is written back. So a point is of one of three kinds: first of a group, inner, last of a group.
-/
import proofs.«178617_j19834158972940_1_alg».proof.Proof.Gen.KernelIdeal.Launch
import proofs.«178617_j19834158972940_1_alg».proof.Proof.Gen.KernelIdeal.Skeleton
import proofs.«178617_j19834158972940_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The accumulator is zeroed: the second and third grid coordinates are both zero. -/
abbrev resetAt (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- That is the first point of a group of 64. -/
theorem resetAt_iff : ∀ t : Fin cfg0.N, resetAt (grid0.coords t) ↔ t.val % 64 = 0 :=
  (by decide +kernel : ∀ t : Fin grid0.N, resetAt (grid0.coords t) ↔ t.val % 64 = 0)

/-- The accumulator is copied out: the second coordinate is 15 and the third is 3. -/
abbrev flushAt (i : grid0.Coords) : Prop := k0_cond2 i = 1#1
/-- That is the last point of a group of 64. -/
theorem flushAt_iff : ∀ t : Fin cfg0.N, flushAt (grid0.coords t) ↔ t.val % 64 = 63 :=
  (by decide +kernel : ∀ t : Fin grid0.N, flushAt (grid0.coords t) ↔ t.val % 64 = 63)

/-! ## Where the output window is idle -/

/-- The input window is never idle. -/
theorem inLive : ∀ t : Fin cfg0.N, cfg0.idle 0 (grid0.coords t) = false := by decide +kernel
/-- Where the accumulator is not copied out the output window is idle -/
theorem outIdle : ∀ t : Fin cfg0.N, ¬flushAt (grid0.coords t) → cfg0.idle 1 (grid0.coords t) = true := by decide +kernel
/-- and is not written back; -/
theorem outNoFlush : ∀ t : Fin cfg0.N, ¬flushAt (grid0.coords t) → (cfg0.win 1).flush t = false := by decide +kernel
/-- where it is copied out the window is live. -/
theorem outLive : ∀ t : Fin cfg0.N, flushAt (grid0.coords t) → cfg0.idle 1 (grid0.coords t) = false := by decide +kernel

/-! ## The memrefs the body is called with -/

/-- The input block's staging memref at point `t`, -/
abbrev inBuf (t : Fin cfg0.N) : Memref sig .tc .vmem S1x3x128x512 .f32 := win0_0.stage (cfg0.slots t 0)
abbrev inBuf_whole (t : Fin cfg0.N) : (inBuf t).IsWhole := hstage0_0 ((cfg0.slots t 0).cast nbuf0_0)
/-- the output block's, -/
abbrev outBuf (t : Fin cfg0.N) : Memref sig .tc .vmem S1x3x256 .f32 := win0_1.stage (cfg0.slots t 1)
abbrev outBuf_whole (t : Fin cfg0.N) : (outBuf t).IsWhole := hstage0_1 ((cfg0.slots t 1).cast nbuf0_1)
/-- and the accumulator, a scoped buffer of the kernel's own. -/
abbrev accBuf : Memref sig .tc .vmem S3x256 .f32 := Memref.whole cc0_scratch0
/-- The views through which the accumulator's and the output buffer's contents are stated. -/
abbrev accView : View sig .tc .vmem S3x256 .f32 := accBuf.view
abbrev outView : View sig .tc .vmem S1x3x256 .f32 := (Memref.whole cc0_stg1_0 : Memref sig .tc .vmem S1x3x256 .f32).view

/-- The scoped buffers of the core that this launch neither stages through nor uses: the other launch's. Each whole,
    at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f))

/-- The core's scoped buffers that are no staging buffer of this launch, the accumulator first. -/
theorem scopedOwn_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f)) :=
  Pipeline.scopedRest_eq_of_list spec0 c [cc0_scratch0, cc1_stg0_0, cc1_stg0_1, cc1_stg1_0, cc1_stg1_1, cc1_scratch0] (by decide) (by decide)

/-- The region's class invariant: the accumulator owned at some contents, the other scoped buffers, and the
    generator register at some state. -/
theorem classInv_eq (c : Dev nD) :
    (Pipeline.ΦA spec0 c : sProp 𝕄)
      = iprop(iprop((∃ d, owns (c : Thread nD τ) accBuf fullShare d) ∗ otherScoped c) ∗ (∃ r, prngReg c r)) := by
  unfold Pipeline.ΦA otherScoped; rw [scopedOwn_eq]; simp only [accBuf, owns_whole]; try rfl

/-! ## The input block at a point, read off the array as the region finds it -/

variable (W : Dev nD → Valuation τ sig (Elt F))

/-- The arrays as the region finds them. -/
abbrev arrs (c : Dev nD) (b : Ref sig .tc) : Buf (Elt F) ((c : Thread nD τ).loc b) := W c (Proc.devRef .tc b)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (arrs W c (Pipeline.arrRef spec0 w))

/-- The input's current staging buffer holds its block at every point, for any proof data whose array is the
    region-entry one and whose body leaves the block in place. -/
theorem before_in_of {c : Dev nD} (dat : Dat τ (Elt F) Unit ℕ (UR sig nD τ) ℕ cfg0 c) (hA : dat.A 0 = arrs W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.R0

end
-- ==== Proof.KI.R0.RunInner.lean ====
/-
  The body at an inner point of a group: the accumulator is neither zeroed nor copied out. Each of its three rows
  is loaded, the block's counts for that channel added, and the row stored back; the output's staging buffer is left
  as found.
-/
import proofs.«178617_j19834158972940_1_alg».proof.Proof.KI.R0.Shared

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the accumulator at an inner point (last first), with its run: from the input's
    buffer at `x0`, the output's at `xo` and the accumulator at `s0`, to the same with the accumulator's pieces written. -/
noncomputable def runInner (c : Dev nD) (i : grid0.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : ¬flushAt i)
    (x0 : Vec F S1x3x128x512 .f32) (s0 : Vec F S3x256 .f32) :
    { LS : List (View.Piece (Elt F) S3x256 .f32) //
      ∀ (xo : Vec F S1x3x256 .f32) (E : Set ℕ) (K : PUnit → sProp 𝕄),
        iprop(owns (c : Thread nD τ) arg3 fullShare x0 ∗ owns (c : Thread nD τ) arg4 fullShare xo ∗ owns (c : Thread nD τ) arg5 fullShare s0
            ∗ (iprop(owns (c : Thread nD τ) arg3 fullShare x0 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__hist_kernel i arg3 harg3 arg4 harg4 arg5 harg5) K } := by
  refine ⟨?_, fun xo E K => ?run⟩
  case run =>
    simp only [cc0__hist_kernel_eq_skeleton]; unfold cc0__hist_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg5.eq_unread hfs0
    sl_exec (disch := first | exact hr | exact hf)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.R0

end
-- ==== Proof.KI.R0.RunFirst.lean ====
/-
  The body at the first point of a group: the accumulator is zeroed whole, then each of its three rows is loaded
  back, the block's counts for that channel added, and the row stored; the output's staging buffer is left as found.
-/
import proofs.«178617_j19834158972940_1_alg».proof.Proof.KI.R0.RunInner

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the accumulator at the first point of a group (last first), with its run: from
    the input's buffer at `x0`, the output's at `xo` and the accumulator at anything, to the same with the
    accumulator's pieces written. -/
noncomputable def runFirst (c : Dev nD) (i : grid0.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : resetAt i) (hf : ¬flushAt i)
    (x0 : Vec F S1x3x128x512 .f32) :
    { LS : List (View.Piece (Elt F) S3x256 .f32) //
      ∀ (xo : Vec F S1x3x256 .f32) (E : Set ℕ) (K : PUnit → sProp 𝕄),
        iprop(owns (c : Thread nD τ) arg3 fullShare x0 ∗ owns (c : Thread nD τ) arg4 fullShare xo ∗ (∃ d, owns (c : Thread nD τ) arg5 fullShare d)
            ∗ (iprop(owns (c : Thread nD τ) arg3 fullShare x0 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__hist_kernel i arg3 harg3 arg4 harg4 arg5 harg5) K } := by
  refine ⟨?_, fun xo E K => ?run⟩
  case run =>
    simp only [cc0__hist_kernel_eq_skeleton]; unfold cc0__hist_kernel_skel
    unfold owns
    iintro ⟨⟨%f0, %hf0, H0⟩, ⟨%f1, %hf1, H1⟩, ⟨%d, %fs0, %hfs0, HS0⟩, Hk⟩
    obtain rfl := harg3.eq_unread hf0; obtain rfl := harg4.eq_unread hf1; obtain rfl := harg5.eq_unread hfs0
    sl_exec (disch := first | exact hr | exact hf)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.R0

end
-- ==== Proof.KI.R0.RunLast.lean ====
/-
  The body at the last point of a group: each row of the accumulator is loaded, the block's counts added and the
  row stored back; then the whole accumulator is loaded and stored, re-laid as one 1 x 3 x 256 block, into the output's
  staging buffer, which the pipeline writes back after this point.
-/
import proofs.«178617_j19834158972940_1_alg».proof.Proof.KI.R0.RunFirst

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the output's staging buffer and into the accumulator at the last point of a group
    (last first), with its run: from the input's buffer at `x0`, the output's at anything and the accumulator at
    `s0`, to the input's as it was and the other two with their pieces written. -/
noncomputable def runLast (c : Dev nD) (i : grid0.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : flushAt i)
    (x0 : Vec F S1x3x128x512 .f32) (s0 : Vec F S3x256 .f32) :
    Σ' (LO : List (View.Piece (Elt F) S1x3x256 .f32)), { LS : List (View.Piece (Elt F) S3x256 .f32) //
      ∀ (E : Set ℕ) (K : PUnit → sProp 𝕄),
        iprop(owns (c : Thread nD τ) arg3 fullShare x0 ∗ (∃ d, owns (c : Thread nD τ) arg4 fullShare d) ∗ owns (c : Thread nD τ) arg5 fullShare s0
            ∗ (iprop(owns (c : Thread nD τ) arg3 fullShare x0 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__hist_kernel i arg3 harg3 arg4 harg4 arg5 harg5) K } := by
  refine ⟨?_, ?_, fun E K => ?run⟩
  case run =>
    simp only [cc0__hist_kernel_eq_skeleton]; unfold cc0__hist_kernel_skel
    unfold owns
    iintro ⟨⟨%f0, %hf0, H0⟩, ⟨%d1, %f1, %hf1, H1⟩, ⟨%fs0, %hfs0, HS0⟩, Hk⟩
    obtain rfl := harg3.eq_unread hf0; obtain rfl := harg4.eq_unread hf1; obtain rfl := harg5.eq_unread hfs0
    sl_exec (disch := first | exact hr | exact hf)
    sl_step
    iapply Hk
    isplitl [H0]
    · iexists _; isplitr; · ipureintro; exact harg3.read_unread _
      iexact H0
    isplitl [H1]
    · iexists _; iexact H1
    iexists _; iexact HS0

end Cert.KernelIdeal.R0

end
-- ==== Proof.KI.R0.Covers.lean ====
/-
  The rows the body stores tile the accumulator, and its one store into the output's staging buffer fills it: every
  index of either buffer lies in a stored piece, at each kind of point.
-/
import proofs.«178617_j19834158972940_1_alg».proof.Proof.KI.R0.RunLast

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first point of a group the stored pieces cover the accumulator. -/
theorem cover_first (c : Dev nD) (i : grid0.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : resetAt i) (hf : ¬flushAt i) (x0 : Vec F S1x3x128x512 .f32) (y : S3x256.Idx) :
    ∃ pc ∈ (runFirst c i arg3 harg3 arg4 harg4 arg5 harg5 hr hf x0).1, y ∈ pc.1.set :=
  View.cover_of_tiledL (runFirst c i arg3 harg3 arg4 harg4 arg5 harg5 hr hf x0).1 S3x256.size (by sl_kernel_rfl) y

/-- At an inner point the three stored rows cover the accumulator. -/
theorem cover_inner (c : Dev nD) (i : grid0.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : ¬flushAt i) (x0 : Vec F S1x3x128x512 .f32) (s0 : Vec F S3x256 .f32) (y : S3x256.Idx) :
    ∃ pc ∈ (runInner c i arg3 harg3 arg4 harg4 arg5 harg5 hr hf x0 s0).1, y ∈ pc.1.set :=
  View.cover_of_tiledL (runInner c i arg3 harg3 arg4 harg4 arg5 harg5 hr hf x0 s0).1 S1x256.size (by sl_kernel_rfl) y

/-- At the last point of a group the three stored rows cover the accumulator, -/
theorem cover_last_acc (c : Dev nD) (i : grid0.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : flushAt i) (x0 : Vec F S1x3x128x512 .f32) (s0 : Vec F S3x256 .f32) (y : S3x256.Idx) :
    ∃ pc ∈ (runLast c i arg3 harg3 arg4 harg4 arg5 harg5 hr hf x0 s0).2.1, y ∈ pc.1.set :=
  View.cover_of_tiledL (runLast c i arg3 harg3 arg4 harg4 arg5 harg5 hr hf x0 s0).2.1 S1x256.size (by sl_kernel_rfl) y

/-- and the one store into the output's staging buffer fills it. -/
theorem cover_last_out (c : Dev nD) (i : grid0.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : flushAt i) (x0 : Vec F S1x3x128x512 .f32) (s0 : Vec F S3x256 .f32) (y : S1x3x256.Idx) :
    ∃ pc ∈ (runLast c i arg3 harg3 arg4 harg4 arg5 harg5 hr hf x0 s0).1, y ∈ pc.1.set :=
  View.cover_of_tiledL (runLast c i arg3 harg3 arg4 harg4 arg5 harg5 hr hf x0 s0).1 S1x3x256.size (by sl_kernel_rfl) y

end Cert.KernelIdeal.R0

end
-- ==== Proof.KI.R0.Data.lean ====
/-
  The launch's proof data and its body obligation.

  After point n the accumulator holds accAt n: at the first point of a group the rows the body stores over a zeroed
  accumulator, at any other point the rows it stores over what the point before left. The output's staging buffer is
  written only at the last point of a group, where it receives the accumulator just completed. The invariant carried
  from point to point is the class's before the first point, and afterwards the accumulator owned at accAt of the point
  just run, beside the other scoped buffers and the generator register. At every point the body's run of the point's
  kind takes the invariant before the point to the invariant after it, leaves the input's buffer at its block, and
  leaves the output's buffer untouched except at the last point of a group.
-/
import proofs.«178617_j19834158972940_1_alg».proof.Proof.KI.R0.Covers

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## The kind of a point, from its position in its group -/

private theorem isReset (t : Fin cfg0.N) (h : t.val % 64 = 0) : resetAt (grid0.coords t) := (resetAt_iff t).mpr h
private theorem notReset (t : Fin cfg0.N) (h : ¬t.val % 64 = 0) : ¬resetAt (grid0.coords t) := fun hr => h ((resetAt_iff t).mp hr)
private theorem isFlush (t : Fin cfg0.N) (h : t.val % 64 = 63) : flushAt (grid0.coords t) := (flushAt_iff t).mpr h
private theorem notFlush (t : Fin cfg0.N) (h : ¬t.val % 64 = 63) : ¬flushAt (grid0.coords t) := fun hf => h ((flushAt_iff t).mp hf)
/-- A point cannot be both first and last of its group. -/
private theorem notFlush_of_first (t : Fin cfg0.N) (h : t.val % 64 = 0) : ¬flushAt (grid0.coords t) :=
  notFlush t (by omega)
private theorem notReset_of_last (t : Fin cfg0.N) (h : t.val % 64 = 63) : ¬resetAt (grid0.coords t) :=
  notReset t (by omega)

/-! ## What the accumulator and the output's buffer hold after each point -/

/-- The accumulator after point `n`: the rows the point's body stores, read back; at the first point of a group they
    do not depend on what was there, elsewhere they are computed over what point `n - 1` left. -/
def accAt (c : Dev nD) : (n : ℕ) → n < cfg0.N → Vec F S3x256 .f32
  | 0, hn =>
    accView.read (Elt F) (accView.writes (Elt F) accView.junk
      (runFirst c (grid0.coords ⟨0, hn⟩) (inBuf ⟨0, hn⟩) (inBuf_whole ⟨0, hn⟩) (outBuf ⟨0, hn⟩) (outBuf_whole ⟨0, hn⟩) accBuf (Memref.isWhole_whole _)
        (isReset ⟨0, hn⟩ (Nat.zero_mod _)) (notFlush_of_first ⟨0, hn⟩ (Nat.zero_mod _)) (iblk W c 0 ⟨0, hn⟩)).1)
  | n + 1, hn =>
    if h0 : (n + 1) % 64 = 0 then
      accView.read (Elt F) (accView.writes (Elt F) accView.junk
        (runFirst c (grid0.coords ⟨n + 1, hn⟩) (inBuf ⟨n + 1, hn⟩) (inBuf_whole ⟨n + 1, hn⟩) (outBuf ⟨n + 1, hn⟩) (outBuf_whole ⟨n + 1, hn⟩) accBuf (Memref.isWhole_whole _)
          (isReset ⟨n + 1, hn⟩ h0) (notFlush_of_first ⟨n + 1, hn⟩ h0) (iblk W c 0 ⟨n + 1, hn⟩)).1)
    else if h1 : (n + 1) % 64 = 63 then
      accView.read (Elt F) (accView.writes (Elt F) accView.junk
        (runLast c (grid0.coords ⟨n + 1, hn⟩) (inBuf ⟨n + 1, hn⟩) (inBuf_whole ⟨n + 1, hn⟩) (outBuf ⟨n + 1, hn⟩) (outBuf_whole ⟨n + 1, hn⟩) accBuf (Memref.isWhole_whole _)
          (notReset ⟨n + 1, hn⟩ h0) (isFlush ⟨n + 1, hn⟩ h1) (iblk W c 0 ⟨n + 1, hn⟩) (accAt c n (Nat.lt_of_succ_lt hn))).2.1)
    else
      accView.read (Elt F) (accView.writes (Elt F) accView.junk
        (runInner c (grid0.coords ⟨n + 1, hn⟩) (inBuf ⟨n + 1, hn⟩) (inBuf_whole ⟨n + 1, hn⟩) (outBuf ⟨n + 1, hn⟩) (outBuf_whole ⟨n + 1, hn⟩) accBuf (Memref.isWhole_whole _)
          (notReset ⟨n + 1, hn⟩ h0) (notFlush ⟨n + 1, hn⟩ h1) (iblk W c 0 ⟨n + 1, hn⟩) (accAt c n (Nat.lt_of_succ_lt hn))).1)

/-- The output's staging buffer after point `n`: at the last point of a group the one block the body stores, read
    back; elsewhere the body stores nothing there and the value is a placeholder that nothing consults. -/
def outAt (c : Dev nD) (n : ℕ) (hn : n < cfg0.N) : Vec F S1x3x256 .f32 :=
  if h : n % 64 = 63 then
    outView.read (Elt F) (outView.writes (Elt F) outView.junk
      (runLast c (grid0.coords ⟨n, hn⟩) (inBuf ⟨n, hn⟩) (inBuf_whole ⟨n, hn⟩) (outBuf ⟨n, hn⟩) (outBuf_whole ⟨n, hn⟩) accBuf (Memref.isWhole_whole _)
        (notReset_of_last ⟨n, hn⟩ h) (isFlush ⟨n, hn⟩ h) (iblk W c 0 ⟨n, hn⟩) (accAt W c (n - 1) (Nat.lt_of_le_of_lt (Nat.sub_le _ _) hn))).1)
  else outView.read (Elt F) outView.junk

/-! ## The recurrences, for any proofs of the point's kind -/

theorem accAt_first (c : Dev nD) (t : Fin cfg0.N) (h : t.val % 64 = 0) (hr) (hf) : accAt W c t.val t.isLt = accView.read (Elt F) (accView.writes (Elt F) accView.junk (runFirst c (grid0.coords t) (inBuf t) (inBuf_whole t) (outBuf t) (outBuf_whole t) accBuf (Memref.isWhole_whole _) hr hf (iblk W c 0 t)).1) := by
  obtain ⟨n, hn⟩ := t
  cases n with
  | zero => exact rfl
  | succ n => exact (dif_pos h).trans rfl

theorem accAt_inner (c : Dev nD) (t : Fin cfg0.N) (h0 : t.val % 64 ≠ 0) (h1 : t.val % 64 ≠ 63) (hr) (hf) : accAt W c t.val t.isLt = accView.read (Elt F) (accView.writes (Elt F) accView.junk (runInner c (grid0.coords t) (inBuf t) (inBuf_whole t) (outBuf t) (outBuf_whole t) accBuf (Memref.isWhole_whole _) hr hf (iblk W c 0 t) (accAt W c (t.val - 1) (Nat.lt_of_le_of_lt (Nat.sub_le _ _) t.isLt))).1) := by
  obtain ⟨n, hn⟩ := t
  cases n with
  | zero => exact absurd (Nat.zero_mod _) h0
  | succ n => exact (dif_neg h0).trans ((dif_neg h1).trans rfl)

theorem accAt_last (c : Dev nD) (t : Fin cfg0.N) (h : t.val % 64 = 63) (hr) (hf) : accAt W c t.val t.isLt = accView.read (Elt F) (accView.writes (Elt F) accView.junk (runLast c (grid0.coords t) (inBuf t) (inBuf_whole t) (outBuf t) (outBuf_whole t) accBuf (Memref.isWhole_whole _) hr hf (iblk W c 0 t) (accAt W c (t.val - 1) (Nat.lt_of_le_of_lt (Nat.sub_le _ _) t.isLt))).2.1) := by
  obtain ⟨n, hn⟩ := t
  cases n with
  | zero => exact absurd ((Nat.zero_mod 64).symm.trans h) (by decide)
  | succ n => exact (dif_neg (by (try dsimp only at h); omega)).trans ((dif_pos h).trans rfl)

theorem outAt_last (c : Dev nD) (t : Fin cfg0.N) (h : t.val % 64 = 63) (hr) (hf) : outAt W c t.val t.isLt = outView.read (Elt F) (outView.writes (Elt F) outView.junk (runLast c (grid0.coords t) (inBuf t) (inBuf_whole t) (outBuf t) (outBuf_whole t) accBuf (Memref.isWhole_whole _) hr hf (iblk W c 0 t) (accAt W c (t.val - 1) (Nat.lt_of_le_of_lt (Nat.sub_le _ _) t.isLt))).1) :=
  (dif_pos h).trans rfl

/-! ## The invariant from point to point -/

/-- The invariant before position `n`: the class's before the first point; afterwards the accumulator owned at what
    point `n - 1` left in it, the other scoped buffers and the generator register. -/
private def carried (c : Dev nD) : (n : ℕ) → n ≤ cfg0.N → sProp 𝕄
  | 0, _ => Pipeline.ΦA spec0 c
  | n + 1, hn => iprop(iprop(owns (c : Thread nD τ) accBuf fullShare (accAt W c n hn) ∗ otherScoped c) ∗ (∃ r, prngReg c r))

private theorem carried_succ (c : Dev nD) (n : ℕ) (hn : n < cfg0.N) :
    carried W c (n + 1) hn = iprop(iprop(owns (c : Thread nD τ) accBuf fullShare (accAt W c n hn) ∗ otherScoped c) ∗ (∃ r, prngReg c r)) := rfl

/-- Before a point that is not the first, the accumulator is owned at what the point before left. -/
private theorem carried_pos (c : Dev nD) (n : ℕ) (h : n ≤ cfg0.N) (hz : n ≠ 0) :
    carried W c n h = iprop(iprop(owns (c : Thread nD τ) accBuf fullShare (accAt W c (n - 1) (by omega)) ∗ otherScoped c) ∗ (∃ r, prngReg c r)) := by
  cases n with
  | zero => exact absurd rfl hz
  | succ n => rfl

/-- At any position the invariant yields the accumulator at some contents: the class's invariant. -/
private theorem carried_forget (c : Dev nD) (n : ℕ) (h : n ≤ cfg0.N) :
    carried W c n h ⊢ iprop(iprop((∃ d, owns (c : Thread nD τ) accBuf fullShare d) ∗ otherScoped c) ∗ (∃ r, prngReg c r)) := by
  cases n with
  | zero =>
    rw [show carried W c 0 h = Pipeline.ΦA spec0 c from rfl, classInv_eq]
  | succ n =>
    rw [carried_succ]
    iintro ⟨⟨HS, Hr⟩, Hg⟩
    isplitr [Hg]
    · isplitl [HS]
      · iexists _; iexact HS
      iexact Hr
    iexact Hg

/-! ## The proof data -/

/-- The launch's proof data on core `c`: the arrays as the region finds them; after the body at point `t` the input's
    buffer at its block and the output's at `outAt`; the invariant `carried`; full shares; nothing owed. -/
def dat0 (c : Dev nD) : Dat τ (Elt F) Unit ℕ (UR sig nD τ) ℕ cfg0 c where
  A w := arrs W c (Pipeline.arrRef spec0 w)
  after w t := match w with
    | ⟨0, _⟩ => iblk W c 0 t
    | ⟨1, _⟩ => outAt W c t.val t.isLt
  Φ t := carried W c t.val (Nat.le_of_lt_succ t.isLt)
  q _ := fullShare
  owed _ := 0

theorem A_eq (c : Dev nD) (w : Fin cfg0.W) : (dat0 W c).A w = arrs W c (Pipeline.arrRef spec0 w) := by
  dsimp only [dat0]
theorem after_in (c : Dev nD) (t : Fin cfg0.N) : (dat0 W c).after 0 t = iblk W c 0 t := by dsimp only [dat0]
theorem after_out (c : Dev nD) (t : Fin cfg0.N) : (dat0 W c).after 1 t = outAt W c t.val t.isLt := by dsimp only [dat0]
theorem q_full (c : Dev nD) (w : Fin cfg0.W) : (dat0 W c).q w = fullShare := rfl
theorem owed_zero (c : Dev nD) (t : Fin (cfg0.N + 1)) : (dat0 W c).owed t = 0 := rfl
theorem recorded_univ (c : Dev nD) : (dat0 W c).recorded 0 = Set.univ := rfl

/-- The invariant at a point's start, restated at the point's number. -/
private theorem inv_castSucc (c : Dev nD) (t : Fin cfg0.N) :
    (dat0 W c).Φ t.castSucc = carried W c t.val (Nat.le_of_lt t.isLt) := by
  dsimp only [dat0]; simp only [Fin.coe_castSucc]

/-- The input's current staging buffer holds its block at every point. -/
private theorem before_in (c : Dev nD) (t : Fin cfg0.N) (d) : (dat0 W c).before 0 t d = iblk W c 0 t :=
  before_in_of W (dat0 W c) (A_eq W c 0) (after_in W c) t d

/-! ## The body obligation, at a generic point -/

/-- What the body is called with at point `t`, the windows one by one, -/
private def bodyPre (c : Dev nD) (t : Fin cfg0.N) : sProp 𝕄 :=
  iprop((dat0 W c).Φ t.castSucc ∗ (dat0 W c).owesAt () t.castSucc
    ∗ (∃ d, owns (c : Thread nD τ) (inBuf t) fullShare ((dat0 W c).before 0 t d))
    ∗ (∃ d, owns (c : Thread nD τ) (outBuf t) fullShare ((dat0 W c).before 1 t d)))

/-- and what it returns. -/
private def bodyPost (c : Dev nD) (t : Fin cfg0.N) : sProp 𝕄 :=
  iprop((dat0 W c).Φ t.succ ∗ (dat0 W c).owesAt () t.succ
    ∗ (dat0 W c).leavesExact 0 t
    ∗ (dat0 W c).leavesExact 1 t)

/-- The input window is live at every point: its buffer is left at the block. -/
private theorem leaves_in (c : Dev nD) (t : Fin cfg0.N) :
    (dat0 W c).leavesExact 0 t = owns (c : Thread nD τ) (inBuf t) fullShare (iblk W c 0 t) := by
  unfold Dat.leavesExact; rw [inLive t, after_in]

/-- The output window is live at the last point of a group: its buffer is left at `outAt`. -/
private theorem leaves_out_last (c : Dev nD) (t : Fin cfg0.N) (hf : flushAt (grid0.coords t)) :
    (dat0 W c).leavesExact 1 t = owns (c : Thread nD τ) (outBuf t) fullShare (outAt W c t.val t.isLt) := by
  unfold Dat.leavesExact; rw [outLive t hf, after_out]

set_option maxHeartbeats 4800000 in
/-- The body at any point. The input's buffer holds the point's block. At the first point of a group the accumulator
    is handed over at whatever it holds and taken back at the rows stored over zero; at an inner point it is handed
    over at what the point before left and taken back at the rows stored over that; at the last point the same, and
    the output's buffer, handed over at anything, is taken back at the block stored. At the other points the output's
    buffer goes through untouched. The other scoped buffers, the generator register and what the core owes ride along. -/
private theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_in]
  rw [show (dat0 W c).owesAt () t.succ = (dat0 W c).owesAt () t.castSucc from rfl]
  rw [show (dat0 W c).Φ t.succ = carried W c (t.val + 1) t.isLt from rfl, carried_succ]
  rw [inv_castSucc, leaves_in]
  by_cases h0 : t.val % 64 = 0
  · have hr := isReset t h0
    have hf := notFlush_of_first t h0
    rw [Dat.leavesExact_idle (dat0 W c) 1 t (outIdle t hf) (outNoFlush t hf)]
    rw [accAt_first W c t h0 hr hf]
    iintro ⟨HΦ, Ho, ⟨%d0, H0⟩, ⟨%d1, H1⟩⟩
    ihave HΦ' := (carried_forget W c t.val (Nat.le_of_lt t.isLt)) $$ HΦ
    icases HΦ' with ⟨⟨HS, Hr⟩, Hg⟩
    iapply ((runFirst c (grid0.coords t) _ _ _ _ _ _ hr hf (iblk W c 0 t)).2 _ Set.univ _)
    isplitl [H0]; · iexact H0
    isplitl [H1]; · iexact H1
    isplitl [HS]; · iexact HS
    iintro ⟨H0, H1, ⟨%es, HS⟩⟩
    isplitl [HS Hr Hg]
    · isplitr [Hg]
      · isplitl [HS]
        · unfold owns; iexists _; isplitr
          swap; · iexact HS
          ipureintro; exact View.read_writes_of_cover _ _ _ _ _ (cover_first c _ _ _ _ _ _ _ _ _ _)
        iexact Hr
      iexact Hg
    isplitl [Ho]; · iexact Ho
    isplitl [H0]; · iexact H0
    iexists _; iexact H1
  · have hr := notReset t h0
    have hz : t.val ≠ 0 := fun hz => h0 (by rw [hz])
    rw [carried_pos W c _ _ hz]
    by_cases h1 : t.val % 64 = 63
    · have hf := isFlush t h1
      rw [leaves_out_last W c t hf]
      rw [accAt_last W c t h1 hr hf, outAt_last W c t h1 hr hf]
      iintro ⟨⟨⟨HS, Hr⟩, Hg⟩, Ho, ⟨%d0, H0⟩, ⟨%d1, H1⟩⟩
      iapply ((runLast c (grid0.coords t) _ _ _ _ _ _ hr hf (iblk W c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hr Hg]
      · isplitr [Hg]
        · isplitl [HS]
          · unfold owns; iexists _; isplitr
            swap; · iexact HS
            ipureintro; exact View.read_writes_of_cover _ _ _ _ _ (cover_last_acc c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover_last_out c _ _ _ _ _ _ _ _ _ _ _)
    · have hf := notFlush t h1
      rw [Dat.leavesExact_idle (dat0 W c) 1 t (outIdle t hf) (outNoFlush t hf)]
      rw [accAt_inner W c t h0 h1 hr hf]
      iintro ⟨⟨⟨HS, Hr⟩, Hg⟩, Ho, ⟨%d0, H0⟩, ⟨%d1, H1⟩⟩
      iapply ((runInner c (grid0.coords t) _ _ _ _ _ _ hr hf (iblk W c 0 t) _).2 _ Set.univ _)
      isplitl [H0]; · iexact H0
      isplitl [H1]; · iexact H1
      isplitl [HS]; · iexact HS
      iintro ⟨H0, H1, ⟨%es, HS⟩⟩
      isplitl [HS Hr Hg]
      · isplitr [Hg]
        · isplitl [HS]
          · unfold owns; iexists _; isplitr
            swap; · iexact HS
            ipureintro; exact View.read_writes_of_cover _ _ _ _ _ (cover_inner c _ _ _ _ _ _ _ _ _ _ _)
          iexact Hr
        iexact Hg
      isplitl [Ho]; · iexact Ho
      isplitl [H0]; · iexact H0
      iexists _; iexact H1

/-- The body obligation, at every point. -/
theorem body_obligation (c : Dev nD) : BodyObligation (dat0 (F := F) W c) (defs₀ (F := F)) Variants.none () Set.univ := fun t => by
  rw [bigSep_W0, bigSep_W0]
  exact sound_body W c t

/-! ## The invariant at the region's two ends -/

/-- What the launch hands the region is the invariant before the first point. -/
theorem inv_in (c : Dev nD) : (Pipeline.ΦA spec0 c : sProp 𝕄) ⊢ (dat0 W c).Φ 0 := by
  rw [show (dat0 W c).Φ 0 = Pipeline.ΦA spec0 c from rfl]

/-- After the last point the invariant gives the class's back: what the accumulator holds is forgotten. -/
theorem inv_out (c : Dev nD) : (dat0 W c).Φ (Fin.last cfg0.N) ⊢ (Pipeline.ΦA spec0 c : sProp 𝕄) := by
  rw [show (dat0 W c).Φ (Fin.last cfg0.N) = carried W c (Fin.last cfg0.N).val (Nat.le_of_lt_succ (Fin.last cfg0.N).isLt) from rfl, classInv_eq]
  exact carried_forget W c _ _

end Cert.KernelIdeal.R0

end
-- ==== Proof.KI.R1.Shared.lean ====
/-
  One launch of the histogram kernel: what every later module about it is stated over.

  The grid has 2 x 16 x 4 = 128 points, visited in order; point t belongs to group t / 64. The body zeroes its
  accumulator at the first point of a group (t % 64 = 0), adds the block's 3 x 256 joint counts into it at every point,
  and copies it into the output's staging buffer at the last point of a group (t % 64 = 63), the only points where that
  buffer is written back. So a point is of one of three kinds: first of a group, inner, last of a group.
-/
import proofs.«178617_j19834158972940_1_alg».proof.Proof.Gen.KernelIdeal.Launch
import proofs.«178617_j19834158972940_1_alg».proof.Proof.Gen.KernelIdeal.Skeleton
import proofs.«178617_j19834158972940_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The accumulator is zeroed: the second and third grid coordinates are both zero. -/
abbrev resetAt (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- That is the first point of a group of 64. -/
theorem resetAt_iff : ∀ t : Fin cfg1.N, resetAt (grid1.coords t) ↔ t.val % 64 = 0 :=
  (by decide +kernel : ∀ t : Fin grid1.N, resetAt (grid1.coords t) ↔ t.val % 64 = 0)

/-- The accumulator is copied out: the second coordinate is 15 and the third is 3. -/
abbrev flushAt (i : grid1.Coords) : Prop := k1_cond2 i = 1#1
/-- That is the last point of a group of 64. -/
theorem flushAt_iff : ∀ t : Fin cfg1.N, flushAt (grid1.coords t) ↔ t.val % 64 = 63 :=
  (by decide +kernel : ∀ t : Fin grid1.N, flushAt (grid1.coords t) ↔ t.val % 64 = 63)

/-! ## Where the output window is idle -/

/-- The input window is never idle. -/
theorem inLive : ∀ t : Fin cfg1.N, cfg1.idle 0 (grid1.coords t) = false := by decide +kernel
/-- Where the accumulator is not copied out the output window is idle -/
theorem outIdle : ∀ t : Fin cfg1.N, ¬flushAt (grid1.coords t) → cfg1.idle 1 (grid1.coords t) = true := by decide +kernel
/-- and is not written back; -/
theorem outNoFlush : ∀ t : Fin cfg1.N, ¬flushAt (grid1.coords t) → (cfg1.win 1).flush t = false := by decide +kernel
/-- where it is copied out the window is live. -/
theorem outLive : ∀ t : Fin cfg1.N, flushAt (grid1.coords t) → cfg1.idle 1 (grid1.coords t) = false := by decide +kernel

/-! ## The memrefs the body is called with -/

/-- The input block's staging memref at point `t`, -/
abbrev inBuf (t : Fin cfg1.N) : Memref sig .tc .vmem S1x3x128x512 .f32 := win1_0.stage (cfg1.slots t 0)
abbrev inBuf_whole (t : Fin cfg1.N) : (inBuf t).IsWhole := hstage1_0 ((cfg1.slots t 0).cast nbuf1_0)
/-- the output block's, -/
abbrev outBuf (t : Fin cfg1.N) : Memref sig .tc .vmem S1x3x256 .f32 := win1_1.stage (cfg1.slots t 1)
abbrev outBuf_whole (t : Fin cfg1.N) : (outBuf t).IsWhole := hstage1_1 ((cfg1.slots t 1).cast nbuf1_1)
/-- and the accumulator, a scoped buffer of the kernel's own. -/
abbrev accBuf : Memref sig .tc .vmem S3x256 .f32 := Memref.whole cc1_scratch0
/-- The views through which the accumulator's and the output buffer's contents are stated. -/
abbrev accView : View sig .tc .vmem S3x256 .f32 := accBuf.view
abbrev outView : View sig .tc .vmem S1x3x256 .f32 := (Memref.whole cc1_stg1_0 : Memref sig .tc .vmem S1x3x256 .f32).view

/-- The scoped buffers of the core that this launch neither stages through nor uses: the other launch's. Each whole,
    at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

/-- The core's scoped buffers that are no staging buffer of this launch, the accumulator first. -/
theorem scopedOwn_eq (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f)) :=
  Pipeline.scopedRest_eq_of_list spec1 c [cc1_scratch0, cc0_stg0_0, cc0_stg0_1, cc0_stg1_0, cc0_stg1_1, cc0_scratch0] (by decide) (by decide)

/-- The region's class invariant: the accumulator owned at some contents, the other scoped buffers, and the
    generator register at some state. -/
theorem classInv_eq (c : Dev nD) :
    (Pipeline.ΦA spec1 c : sProp 𝕄)
      = iprop(iprop((∃ d, owns (c : Thread nD τ) accBuf fullShare d) ∗ otherScoped c) ∗ (∃ r, prngReg c r)) := by
  unfold Pipeline.ΦA otherScoped; rw [scopedOwn_eq]; simp only [accBuf, owns_whole]; try rfl

/-! ## The input block at a point, read off the array as the region finds it -/

variable (W : Dev nD → Valuation τ sig (Elt F))

/-- The arrays as the region finds them. -/
abbrev arrs (c : Dev nD) (b : Ref sig .tc) : Buf (Elt F) ((c : Thread nD τ).loc b) := W c (Proc.devRef .tc b)

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (arrs W c (Pipeline.arrRef spec1 w))

/-- The input's current staging buffer holds its block at every point, for any proof data whose array is the
    region-entry one and whose body leaves the block in place. -/
theorem before_in_of {c : Dev nD} (dat : Dat τ (Elt F) Unit ℕ (UR sig nD τ) ℕ cfg1 c) (hA : dat.A 0 = arrs W c (Pipeline.arrRef spec1 0))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.R1

end
-- ==== Proof.KI.R1.RunInner.lean ====
/-
  The body at an inner point of a group: the accumulator is neither zeroed nor copied out. Each of its three rows
  is loaded, the block's counts for that channel added, and the row stored back; the output's staging buffer is left
  as found.
-/
import proofs.«178617_j19834158972940_1_alg».proof.Proof.KI.R1.Shared

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the accumulator at an inner point (last first), with its run: from the input's
    buffer at `x0`, the output's at `xo` and the accumulator at `s0`, to the same with the accumulator's pieces written. -/
noncomputable def runInner (c : Dev nD) (i : grid1.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : ¬flushAt i)
    (x0 : Vec F S1x3x128x512 .f32) (s0 : Vec F S3x256 .f32) :
    { LS : List (View.Piece (Elt F) S3x256 .f32) //
      ∀ (xo : Vec F S1x3x256 .f32) (E : Set ℕ) (K : PUnit → sProp 𝕄),
        iprop(owns (c : Thread nD τ) arg3 fullShare x0 ∗ owns (c : Thread nD τ) arg4 fullShare xo ∗ owns (c : Thread nD τ) arg5 fullShare s0
            ∗ (iprop(owns (c : Thread nD τ) arg3 fullShare x0 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__hist_kernel i arg3 harg3 arg4 harg4 arg5 harg5) K } := by
  refine ⟨?_, fun xo E K => ?run⟩
  case run =>
    simp only [cc1__hist_kernel_eq_skeleton]; unfold cc1__hist_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg5.eq_unread hfs0
    sl_exec (disch := first | exact hr | exact hf)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.R1

end
-- ==== Proof.KI.R1.RunFirst.lean ====
/-
  The body at the first point of a group: the accumulator is zeroed whole, then each of its three rows is loaded
  back, the block's counts for that channel added, and the row stored; the output's staging buffer is left as found.
-/
import proofs.«178617_j19834158972940_1_alg».proof.Proof.KI.R1.RunInner

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the accumulator at the first point of a group (last first), with its run: from
    the input's buffer at `x0`, the output's at `xo` and the accumulator at anything, to the same with the
    accumulator's pieces written. -/
noncomputable def runFirst (c : Dev nD) (i : grid1.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : resetAt i) (hf : ¬flushAt i)
    (x0 : Vec F S1x3x128x512 .f32) :
    { LS : List (View.Piece (Elt F) S3x256 .f32) //
      ∀ (xo : Vec F S1x3x256 .f32) (E : Set ℕ) (K : PUnit → sProp 𝕄),
        iprop(owns (c : Thread nD τ) arg3 fullShare x0 ∗ owns (c : Thread nD τ) arg4 fullShare xo ∗ (∃ d, owns (c : Thread nD τ) arg5 fullShare d)
            ∗ (iprop(owns (c : Thread nD τ) arg3 fullShare x0 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__hist_kernel i arg3 harg3 arg4 harg4 arg5 harg5) K } := by
  refine ⟨?_, fun xo E K => ?run⟩
  case run =>
    simp only [cc1__hist_kernel_eq_skeleton]; unfold cc1__hist_kernel_skel
    unfold owns
    iintro ⟨⟨%f0, %hf0, H0⟩, ⟨%f1, %hf1, H1⟩, ⟨%d, %fs0, %hfs0, HS0⟩, Hk⟩
    obtain rfl := harg3.eq_unread hf0; obtain rfl := harg4.eq_unread hf1; obtain rfl := harg5.eq_unread hfs0
    sl_exec (disch := first | exact hr | exact hf)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.R1

end
-- ==== Proof.KI.R1.RunLast.lean ====
/-
  The body at the last point of a group: each row of the accumulator is loaded, the block's counts added and the
  row stored back; then the whole accumulator is loaded and stored, re-laid as one 1 x 3 x 256 block, into the output's
  staging buffer, which the pipeline writes back after this point.
-/
import proofs.«178617_j19834158972940_1_alg».proof.Proof.KI.R1.RunFirst

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the output's staging buffer and into the accumulator at the last point of a group
    (last first), with its run: from the input's buffer at `x0`, the output's at anything and the accumulator at
    `s0`, to the input's as it was and the other two with their pieces written. -/
noncomputable def runLast (c : Dev nD) (i : grid1.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : flushAt i)
    (x0 : Vec F S1x3x128x512 .f32) (s0 : Vec F S3x256 .f32) :
    Σ' (LO : List (View.Piece (Elt F) S1x3x256 .f32)), { LS : List (View.Piece (Elt F) S3x256 .f32) //
      ∀ (E : Set ℕ) (K : PUnit → sProp 𝕄),
        iprop(owns (c : Thread nD τ) arg3 fullShare x0 ∗ (∃ d, owns (c : Thread nD τ) arg4 fullShare d) ∗ owns (c : Thread nD τ) arg5 fullShare s0
            ∗ (iprop(owns (c : Thread nD τ) arg3 fullShare x0 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__hist_kernel i arg3 harg3 arg4 harg4 arg5 harg5) K } := by
  refine ⟨?_, ?_, fun E K => ?run⟩
  case run =>
    simp only [cc1__hist_kernel_eq_skeleton]; unfold cc1__hist_kernel_skel
    unfold owns
    iintro ⟨⟨%f0, %hf0, H0⟩, ⟨%d1, %f1, %hf1, H1⟩, ⟨%fs0, %hfs0, HS0⟩, Hk⟩
    obtain rfl := harg3.eq_unread hf0; obtain rfl := harg4.eq_unread hf1; obtain rfl := harg5.eq_unread hfs0
    sl_exec (disch := first | exact hr | exact hf)
    sl_step
    iapply Hk
    isplitl [H0]
    · iexists _; isplitr; · ipureintro; exact harg3.read_unread _
      iexact H0
    isplitl [H1]
    · iexists _; iexact H1
    iexists _; iexact HS0

end Cert.KernelIdeal.R1

end
-- ==== Proof.KI.R1.Covers.lean ====
/-
  The rows the body stores tile the accumulator, and its one store into the output's staging buffer fills it: every
  index of either buffer lies in a stored piece, at each kind of point.
-/
import proofs.«178617_j19834158972940_1_alg».proof.Proof.KI.R1.RunLast

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first point of a group the stored pieces cover the accumulator. -/
theorem cover_first (c : Dev nD) (i : grid1.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : resetAt i) (hf : ¬flushAt i) (x0 : Vec F S1x3x128x512 .f32) (y : S3x256.Idx) :
    ∃ pc ∈ (runFirst c i arg3 harg3 arg4 harg4 arg5 harg5 hr hf x0).1, y ∈ pc.1.set :=
  View.cover_of_tiledL (runFirst c i arg3 harg3 arg4 harg4 arg5 harg5 hr hf x0).1 S3x256.size (by sl_kernel_rfl) y

/-- At an inner point the three stored rows cover the accumulator. -/
theorem cover_inner (c : Dev nD) (i : grid1.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : ¬flushAt i) (x0 : Vec F S1x3x128x512 .f32) (s0 : Vec F S3x256 .f32) (y : S3x256.Idx) :
    ∃ pc ∈ (runInner c i arg3 harg3 arg4 harg4 arg5 harg5 hr hf x0 s0).1, y ∈ pc.1.set :=
  View.cover_of_tiledL (runInner c i arg3 harg3 arg4 harg4 arg5 harg5 hr hf x0 s0).1 S1x256.size (by sl_kernel_rfl) y

/-- At the last point of a group the three stored rows cover the accumulator, -/
theorem cover_last_acc (c : Dev nD) (i : grid1.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : flushAt i) (x0 : Vec F S1x3x128x512 .f32) (s0 : Vec F S3x256 .f32) (y : S3x256.Idx) :
    ∃ pc ∈ (runLast c i arg3 harg3 arg4 harg4 arg5 harg5 hr hf x0 s0).2.1, y ∈ pc.1.set :=
  View.cover_of_tiledL (runLast c i arg3 harg3 arg4 harg4 arg5 harg5 hr hf x0 s0).2.1 S1x256.size (by sl_kernel_rfl) y

/-- and the one store into the output's staging buffer fills it. -/
theorem cover_last_out (c : Dev nD) (i : grid1.Coords) (arg3 : Memref sig .tc .vmem S1x3x128x512 .f32) (harg3 : arg3.IsWhole) (arg4 : Memref sig .tc .vmem S1x3x256 .f32) (harg4 : arg4.IsWhole) (arg5 : Memref sig .tc .vmem S3x256 .f32) (harg5 : arg5.IsWhole) (hr : ¬resetAt i) (hf : flushAt i) (x0 : Vec F S1x3x128x512 .f32) (s0 : Vec F S3x256 .f32) (y : S1x3x256.Idx) :
    ∃ pc ∈ (runLast c i arg3 harg3 arg4 harg4 arg5 harg5 hr hf x0 s0).1, y ∈ pc.1.set :=
  View.cover_of_tiledL (runLast c i arg3 harg3 arg4 harg4 arg5 harg5 hr hf x0 s0).1 S1x3x256.size (by sl_kernel_rfl) y

end Cert.KernelIdeal.R1

end
-- ==== Proof.KI.R1.Data.lean ====
/-
  The launch's proof data and its body obligation.

  After point n the accumulator holds accAt n: at the first point of a group the rows the body stores over a zeroed
  accumulator, at any other point the rows it stores over what the point before left. The output's staging buffer is
  written only at the last point of a group, where it receives the accumulator just completed. The invariant carried
  from point to point is the class's before the first point, and afterwards the accumulator owned at accAt of the point
  just run, beside the other scoped buffers and the generator register. At every point the body's run of the point's
  kind takes the invariant before the point to the invariant after it, leaves the input's buffer at its block, and
  leaves the output's buffer untouched except at the last point of a group.
-/
import proofs.«178617_j19834158972940_1_alg».proof.Proof.KI.R1.Covers

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## The kind of a point, from its position in its group -/

private theorem isReset (t : Fin cfg1.N) (h : t.val % 64 = 0) : resetAt (grid1.coords t) := (resetAt_iff t).mpr h
private theorem notReset (t : Fin cfg1.N) (h : ¬t.val % 64 = 0) : ¬resetAt (grid1.coords t) := fun hr => h ((resetAt_iff t).mp hr)
private theorem isFlush (t : Fin cfg1.N) (h : t.val % 64 = 63) : flushAt (grid1.coords t) := (flushAt_iff t).mpr h
private theorem notFlush (t : Fin cfg1.N) (h : ¬t.val % 64 = 63) : ¬flushAt (grid1.coords t) := fun hf => h ((flushAt_iff t).mp hf)
/-- A point cannot be both first and last of its group. -/
private theorem notFlush_of_first (t : Fin cfg1.N) (h : t.val % 64 = 0) : ¬flushAt (grid1.coords t) :=
  notFlush t (by omega)
private theorem notReset_of_last (t : Fin cfg1.N) (h : t.val % 64 = 63) : ¬resetAt (grid1.coords t) :=
  notReset t (by omega)

/-! ## What the accumulator and the output's buffer hold after each point -/

/-- The accumulator after point `n`: the rows the point's body stores, read back; at the first point of a group they
    do not depend on what was there, elsewhere they are computed over what point `n - 1` left. -/
def accAt (c : Dev nD) : (n : ℕ) → n < cfg1.N → Vec F S3x256 .f32
  | 0, hn =>
    accView.read (Elt F) (accView.writes (Elt F) accView.junk
      (runFirst c (grid1.coords ⟨0, hn⟩) (inBuf ⟨0, hn⟩) (inBuf_whole ⟨0, hn⟩) (outBuf ⟨0, hn⟩) (outBuf_whole ⟨0, hn⟩) accBuf (Memref.isWhole_whole _)
        (isReset ⟨0, hn⟩ (Nat.zero_mod _)) (notFlush_of_first ⟨0, hn⟩ (Nat.zero_mod _)) (iblk W c 0 ⟨0, hn⟩)).1)
  | n + 1, hn =>
    if h0 : (n + 1) % 64 = 0 then
      accView.read (Elt F) (accView.writes (Elt F) accView.junk
        (runFirst c (grid1.coords ⟨n + 1, hn⟩) (inBuf ⟨n + 1, hn⟩) (inBuf_whole ⟨n + 1, hn⟩) (outBuf ⟨n + 1, hn⟩) (outBuf_whole ⟨n + 1, hn⟩) accBuf (Memref.isWhole_whole _)
          (isReset ⟨n + 1, hn⟩ h0) (notFlush_of_first ⟨n + 1, hn⟩ h0) (iblk W c 0 ⟨n + 1, hn⟩)).1)
    else if h1 : (n + 1) % 64 = 63 then
      accView.read (Elt F) (accView.writes (Elt F) accView.junk
        (runLast c (grid1.coords ⟨n + 1, hn⟩) (inBuf ⟨n + 1, hn⟩) (inBuf_whole ⟨n + 1, hn⟩) (outBuf ⟨n + 1, hn⟩) (outBuf_whole ⟨n + 1, hn⟩) accBuf (Memref.isWhole_whole _)
          (notReset ⟨n + 1, hn⟩ h0) (isFlush ⟨n + 1, hn⟩ h1) (iblk W c 0 ⟨n + 1, hn⟩) (accAt c n (Nat.lt_of_succ_lt hn))).2.1)
    else
      accView.read (Elt F) (accView.writes (Elt F) accView.junk
        (runInner c (grid1.coords ⟨n + 1, hn⟩) (inBuf ⟨n + 1, hn⟩) (inBuf_whole ⟨n + 1, hn⟩) (outBuf ⟨n + 1, hn⟩) (outBuf_whole ⟨n + 1, hn⟩) accBuf (Memref.isWhole_whole _)
          (notReset ⟨n + 1, hn⟩ h0) (notFlush ⟨n + 1, hn⟩ h1) (iblk W c 0 ⟨n + 1, hn⟩) (accAt c n (Nat.lt_of_succ_lt hn))).1)

/-- The output's staging buffer after point `n`: at the last point of a group the one block the body stores, read
    back; elsewhere the body stores nothing there and the value is a placeholder that nothing consults. -/
def outAt (c : Dev nD) (n : ℕ) (hn : n < cfg1.N) : Vec F S1x3x256 .f32 :=
  if h : n % 64 = 63 then
    outView.read (Elt F) (outView.writes (Elt F) outView.junk
      (runLast c (grid1.coords ⟨n, hn⟩) (inBuf ⟨n, hn⟩) (inBuf_whole ⟨n, hn⟩) (outBuf ⟨n, hn⟩) (outBuf_whole ⟨n, hn⟩) accBuf (Memref.isWhole_whole _)
        (notReset_of_last ⟨n, hn⟩ h) (isFlush ⟨n, hn⟩ h) (iblk W c 0 ⟨n, hn⟩) (accAt W c (n - 1) (Nat.lt_of_le_of_lt (Nat.sub_le _ _) hn))).1)
  else outView.read (Elt F) outView.junk

/-! ## The recurrences, for any proofs of the point's kind -/

theorem accAt_first (c : Dev nD) (t : Fin cfg1.N) (h : t.val % 64 = 0) (hr) (hf) : accAt W c t.val t.isLt = accView.read (Elt F) (accView.writes (Elt F) accView.junk (runFirst c (grid1.coords t) (inBuf t) (inBuf_whole t) (outBuf t) (outBuf_whole t) accBuf (Memref.isWhole_whole _) hr hf (iblk W c 0 t)).1) := by
  obtain ⟨n, hn⟩ := t
  cases n with
  | zero => exact rfl
  | succ n => exact (dif_pos h).trans rfl

theorem accAt_inner (c : Dev nD) (t : Fin cfg1.N) (h0 : t.val % 64 ≠ 0) (h1 : t.val % 64 ≠ 63) (hr) (hf) : accAt W c t.val t.isLt = accView.read (Elt F) (accView.writes (Elt F) accView.junk (runInner c (grid1.coords t) (inBuf t) (inBuf_whole t) (outBuf t) (outBuf_whole t) accBuf (Memref.isWhole_whole _) hr hf (iblk W c 0 t) (accAt W c (t.val - 1) (Nat.lt_of_le_of_lt (Nat.sub_le _ _) t.isLt))).1) := by
  obtain ⟨n, hn⟩ := t
  cases n with
  | zero => exact absurd (Nat.zero_mod _) h0
  | succ n => exact (dif_neg h0).trans ((dif_neg h1).trans rfl)

theorem accAt_last (c : Dev nD) (t : Fin cfg1.N) (h : t.val % 64 = 63) (hr) (hf) : accAt W c t.val t.isLt = accView.read (Elt F) (accView.writes (Elt F) accView.junk (runLast c (grid1.coords t) (inBuf t) (inBuf_whole t) (outBuf t) (outBuf_whole t) accBuf (Memref.isWhole_whole _) hr hf (iblk W c 0 t) (accAt W c (t.val - 1) (Nat.lt_of_le_of_lt (Nat.sub_le _ _) t.isLt))).2.1) := by
  obtain ⟨n, hn⟩ := t
  cases n with
  | zero => exact absurd ((Nat.zero_mod 64).symm.trans h) (by decide)
  | succ n => exact (dif_neg (by (try dsimp only at h); omega)).trans ((dif_pos h).trans rfl)

theorem outAt_last (c : Dev nD) (t : Fin cfg1.N) (h : t.val % 64 = 63) (hr) (hf) : outAt W c t.val t.isLt = outView.read (Elt F) (outView.writes (Elt F) outView.junk (runLast c (grid1.coords t) (inBuf t) (inBuf_whole t) (outBuf t) (outBuf_whole t) accBuf (Memref.isWhole_whole _) hr hf (iblk W c 0 t) (accAt W c (t.val - 1) (Nat.lt_of_le_of_lt (Nat.sub_le _ _) t.isLt))).1) :=
  (dif_pos h).trans rfl

/-! ## The invariant from point to point -/

/-- The invariant before position `n`: the class's before the first point; afterwards the accumulator owned at what
    point `n - 1` left in it, the other scoped buffers and the generator register. -/
private def carried (c : Dev nD) : (n : ℕ) → n ≤ cfg1.N → sProp 𝕄
  | 0, _ => Pipeline.ΦA spec1 c
  | n + 1, hn => iprop(iprop(owns (c : Thread nD τ) accBuf fullShare (accAt W c n hn) ∗ otherScoped c) ∗ (∃ r, prngReg c r))

private theorem carried_succ (c : Dev nD) (n : ℕ) (hn : n < cfg1.N) :
    carried W c (n + 1) hn = iprop(iprop(owns (c : Thread nD τ) accBuf fullShare (accAt W c n hn) ∗ otherScoped c) ∗ (∃ r, prngReg c r)) := rfl

/-- Before a point that is not the first, the accumulator is owned at what the point before left. -/
private theorem carried_pos (c : Dev nD) (n : ℕ) (h : n ≤ cfg1.N) (hz : n ≠ 0) :
    carried W c n h = iprop(iprop(owns (c : Thread nD τ) accBuf fullShare (accAt W c (n - 1) (by omega)) ∗ otherScoped c) ∗ (∃ r, prngReg c r)) := by
  cases n with
  | zero => exact absurd rfl hz
  | succ n => rfl

/-- At any position the invariant yields the accumulator at some contents: the class's invariant. -/
private theorem carried_forget (c : Dev nD) (n : ℕ) (h : n ≤ cfg1.N) :
    carried W c n h ⊢ iprop(iprop((∃ d, owns (c : Thread nD τ) accBuf fullShare d) ∗ otherScoped c) ∗ (∃ r, prngReg c r)) := by
  cases n with
  | zero =>
    rw [show carried W c 0 h = Pipeline.ΦA spec1 c from rfl, classInv_eq]
  | succ n =>
    rw [carried_succ]
    iintro ⟨⟨HS, Hr⟩, Hg⟩
    isplitr [Hg]
    · isplitl [HS]
      · iexists _; iexact HS
      iexact Hr
    iexact Hg

/-! ## The proof data -/

/-- The launch's proof data on core `c`: the arrays as the region finds them; after the body at point `t` the input's
    buffer at its block and the output's at `outAt`; the invariant `carried`; full shares; nothing owed. -/
def dat0 (c : Dev nD) : Dat τ (Elt F) Unit ℕ (UR sig nD τ) ℕ cfg1 c where
  A w := arrs W c (Pipeline.arrRef spec1 w)
  after w t := match w with
    | ⟨0, _⟩ => iblk W c 0 t
    | ⟨1, _⟩ => outAt W c t.val t.isLt
  Φ t := carried W c t.val (Nat.le_of_lt_succ t.isLt)
  q _ := fullShare
  owed _ := 0

theorem A_eq (c : Dev nD) (w : Fin cfg1.W) : (dat0 W c).A w = arrs W c (Pipeline.arrRef spec1 w) := by
  dsimp only [dat0]
theorem after_in (c : Dev nD) (t : Fin cfg1.N) : (dat0 W c).after 0 t = iblk W c 0 t := by dsimp only [dat0]
theorem after_out (c : Dev nD) (t : Fin cfg1.N) : (dat0 W c).after 1 t = outAt W c t.val t.isLt := by dsimp only [dat0]
theorem q_full (c : Dev nD) (w : Fin cfg1.W) : (dat0 W c).q w = fullShare := rfl
theorem owed_zero (c : Dev nD) (t : Fin (cfg1.N + 1)) : (dat0 W c).owed t = 0 := rfl
theorem recorded_univ (c : Dev nD) : (dat0 W c).recorded 0 = Set.univ := rfl

/-- The invariant at a point's start, restated at the point's number. -/
private theorem inv_castSucc (c : Dev nD) (t : Fin cfg1.N) :
    (dat0 W c).Φ t.castSucc = carried W c t.val (Nat.le_of_lt t.isLt) := by
  dsimp only [dat0]; simp only [Fin.coe_castSucc]

/-- The input's current staging buffer holds its block at every point. -/
private theorem before_in (c : Dev nD) (t : Fin cfg1.N) (d) : (dat0 W c).before 0 t d = iblk W c 0 t :=
  before_in_of W (dat0 W c) (A_eq W c 0) (after_in W c) t d

/-! ## The body obligation, at a generic point -/

/-- What the body is called with at point `t`, the windows one by one, -/
private def bodyPre (c : Dev nD) (t : Fin cfg1.N) : sProp 𝕄 :=
  iprop((dat0 W c).Φ t.castSucc ∗ (dat0 W c).owesAt () t.castSucc
    ∗ (∃ d, owns (c : Thread nD τ) (inBuf t) fullShare ((dat0 W c).before 0 t d))
    ∗ (∃ d, owns (c : Thread nD τ) (outBuf t) fullShare ((dat0 W c).before 1 t d)))

/-- and what it returns. -/
private def bodyPost (c : Dev nD) (t : Fin cfg1.N) : sProp 𝕄 :=
  iprop((dat0 W c).Φ t.succ ∗ (dat0 W c).owesAt () t.succ
    ∗ (dat0 W c).leavesExact 0 t
    ∗ (dat0 W c).leavesExact 1 t)

/-- The input window is live at every point: its buffer is left at the block. -/
private theorem leaves_in (c : Dev nD) (t : Fin cfg1.N) :
    (dat0 W c).leavesExact 0 t = owns (c : Thread nD τ) (inBuf t) fullShare (iblk W c 0 t) := by
  unfold Dat.leavesExact; rw [inLive t, after_in]

/-- The output window is live at the last point of a group: its buffer is left at `outAt`. -/
private theorem leaves_out_last (c : Dev nD) (t : Fin cfg1.N) (hf : flushAt (grid1.coords t)) :
    (dat0 W c).leavesExact 1 t = owns (c : Thread nD τ) (outBuf t) fullShare (outAt W c t.val t.isLt) := by
  unfold Dat.leavesExact; rw [outLive t hf, after_out]

set_option maxHeartbeats 4800000 in
/-- The body at any point. The input's buffer holds the point's block. At the first point of a group the accumulator
    is handed over at whatever it holds and taken back at the rows stored over zero; at an inner point it is handed
    over at what the point before left and taken back at the rows stored over that; at the last point the same, and
    the output's buffer, handed over at anything, is taken back at the block stored. At the other points the output's
    buffer goes through untouched. The other scoped buffers, the generator register and what the core owes ride along. -/
private theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_in]
  rw [show (dat0 W c).owesAt () t.succ = (dat0 W c).owesAt () t.castSucc from rfl]
  rw [show (dat0 W c).Φ t.succ = carried W c (t.val + 1) t.isLt from rfl, carried_succ]
  rw [inv_castSucc, leaves_in]
  by_cases h0 : t.val % 64 = 0
  · have hr := isReset t h0
    have hf := notFlush_of_first t h0
    rw [Dat.leavesExact_idle (dat0 W c) 1 t (outIdle t hf) (outNoFlush t hf)]
    rw [accAt_first W c t h0 hr hf]
    iintro ⟨HΦ, Ho, ⟨%d0, H0⟩, ⟨%d1, H1⟩⟩
    ihave HΦ' := (carried_forget W c t.val (Nat.le_of_lt t.isLt)) $$ HΦ
    icases HΦ' with ⟨⟨HS, Hr⟩, Hg⟩
    iapply ((runFirst c (grid1.coords t) _ _ _ _ _ _ hr hf (iblk W c 0 t)).2 _ Set.univ _)
    isplitl [H0]; · iexact H0
    isplitl [H1]; · iexact H1
    isplitl [HS]; · iexact HS
    iintro ⟨H0, H1, ⟨%es, HS⟩⟩
    isplitl [HS Hr Hg]
    · isplitr [Hg]
      · isplitl [HS]
        · unfold owns; iexists _; isplitr
          swap; · iexact HS
          ipureintro; exact View.read_writes_of_cover _ _ _ _ _ (cover_first c _ _ _ _ _ _ _ _ _ _)
        iexact Hr
      iexact Hg
    isplitl [Ho]; · iexact Ho
    isplitl [H0]; · iexact H0
    iexists _; iexact H1
  · have hr := notReset t h0
    have hz : t.val ≠ 0 := fun hz => h0 (by rw [hz])
    rw [carried_pos W c _ _ hz]
    by_cases h1 : t.val % 64 = 63
    · have hf := isFlush t h1
      rw [leaves_out_last W c t hf]
      rw [accAt_last W c t h1 hr hf, outAt_last W c t h1 hr hf]
      iintro ⟨⟨⟨HS, Hr⟩, Hg⟩, Ho, ⟨%d0, H0⟩, ⟨%d1, H1⟩⟩
      iapply ((runLast c (grid1.coords t) _ _ _ _ _ _ hr hf (iblk W c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hr Hg]
      · isplitr [Hg]
        · isplitl [HS]
          · unfold owns; iexists _; isplitr
            swap; · iexact HS
            ipureintro; exact View.read_writes_of_cover _ _ _ _ _ (cover_last_acc c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover_last_out c _ _ _ _ _ _ _ _ _ _ _)
    · have hf := notFlush t h1
      rw [Dat.leavesExact_idle (dat0 W c) 1 t (outIdle t hf) (outNoFlush t hf)]
      rw [accAt_inner W c t h0 h1 hr hf]
      iintro ⟨⟨⟨HS, Hr⟩, Hg⟩, Ho, ⟨%d0, H0⟩, ⟨%d1, H1⟩⟩
      iapply ((runInner c (grid1.coords t) _ _ _ _ _ _ hr hf (iblk W c 0 t) _).2 _ Set.univ _)
      isplitl [H0]; · iexact H0
      isplitl [H1]; · iexact H1
      isplitl [HS]; · iexact HS
      iintro ⟨H0, H1, ⟨%es, HS⟩⟩
      isplitl [HS Hr Hg]
      · isplitr [Hg]
        · isplitl [HS]
          · unfold owns; iexists _; isplitr
            swap; · iexact HS
            ipureintro; exact View.read_writes_of_cover _ _ _ _ _ (cover_inner c _ _ _ _ _ _ _ _ _ _ _)
          iexact Hr
        iexact Hg
      isplitl [Ho]; · iexact Ho
      isplitl [H0]; · iexact H0
      iexists _; iexact H1

/-- The body obligation, at every point. -/
theorem body_obligation (c : Dev nD) : BodyObligation (dat0 (F := F) W c) (defs₀ (F := F)) Variants.none () Set.univ := fun t => by
  rw [bigSep_W1, bigSep_W1]
  exact sound_body W c t

/-! ## The invariant at the region's two ends -/

/-- What the launch hands the region is the invariant before the first point. -/
theorem inv_in (c : Dev nD) : (Pipeline.ΦA spec1 c : sProp 𝕄) ⊢ (dat0 W c).Φ 0 := by
  rw [show (dat0 W c).Φ 0 = Pipeline.ΦA spec1 c from rfl]

/-- After the last point the invariant gives the class's back: what the accumulator holds is forgotten. -/
theorem inv_out (c : Dev nD) : (dat0 W c).Φ (Fin.last cfg1.N) ⊢ (Pipeline.ΦA spec1 c : sProp 𝕄) := by
  rw [show (dat0 W c).Φ (Fin.last cfg1.N) = carried W c (Fin.last cfg1.N).val (Nat.le_of_lt_succ (Fin.last cfg1.N).isLt) from rfl, classInv_eq]
  exact carried_forget W c _ _

end Cert.KernelIdeal.R1

end
-- ==== Proof.KI.Run.lean ====
/-
  The launch of the main function: two kernel regions, each followed by a stretch of host operations.

  Between two items a core holds every unscoped buffer whole at a valuation, beside its generator register and the
  fact that it owes nothing. The valuations are folded through the main function from the launch memory: a region
  replaces its windows' arrays by what its write-backs leave and keeps every other buffer; a host stretch moves the
  valuation along its operations. The run of the main function then ends with every unscoped buffer at the last
  valuation of the fold, and the argument arrays, which no item writes, read back through the fold to the launch memory.
-/
import proofs.«178617_j19834158972940_1_alg».proof.Proof.KI.R0.Data
import proofs.«178617_j19834158972940_1_alg».proof.Proof.KI.R1.Data
import proofs.«178617_j19834158972940_1_alg».proof.Proof.LibRegionHeld
import proofs.«178617_j19834158972940_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items: a fold through the main function -/

/-- A core's buffers at launch. -/
abbrev W0 : Dev nD → Valuation τ sig (Elt F) := fun c b => m (c, b)
/-- After the first region: its arrays at what the write-backs leave, every other buffer as entered. -/
def W1 (c : Dev nD) : Valuation τ sig (Elt F) :=
  Pipeline.withArrays spec0 c (W0 m c) fun w => (R0.dat0 (W0 m) c).arrAt w cfg0.N
/-- After the first host stretch. -/
abbrev W2 : Dev nD → Valuation τ sig (Elt F) := fun c => StableHlo.after hostOps1 (W1 m c)
/-- After the second region. -/
def W3 (c : Dev nD) : Valuation τ sig (Elt F) :=
  Pipeline.withArrays spec1 c (W2 m c) fun w => (R1.dat0 (W2 m) c).arrAt w cfg1.N
/-- After the second host stretch: at the return. -/
abbrev W4 : Dev nD → Valuation τ sig (Elt F) := fun c => StableHlo.after hostOps2 (W3 m c)

theorem W1_arr (c : Dev nD) (w : Fin cfg0.W) :
    W1 m c (Proc.devRef .tc (Pipeline.arrRef spec0 w)) = (R0.dat0 (W0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W3_arr (c : Dev nD) (w : Fin cfg1.W) :
    W3 m c (Proc.devRef .tc (Pipeline.arrRef spec1 w)) = (R1.dat0 (W2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- A buffer the first host stretch does not write keeps its contents across it, -/
theorem W2_of (c : Dev nD) (r : Ref sig .tc) (h : r ∉ hostOps1_W) :
    W2 m c (Proc.devRef .tc r) = W1 m c (Proc.devRef .tc r) :=
  StableHlo.after_of_writes_sub hostOps1 _ hostOps1_writes h
/-- and so across the second. -/
theorem W4_of (c : Dev nD) (r : Ref sig .tc) (h : r ∉ hostOps2_W) :
    W4 m c (Proc.devRef .tc r) = W3 m c (Proc.devRef .tc r) :=
  StableHlo.after_of_writes_sub hostOps2 _ hostOps2_writes h

/-- The first region's output array after it. -/
theorem W1_out (c : Dev nD) : W1 m c (Proc.devRef .tc main_v0) = (R0.dat0 (W0 m) c).arrAt 1 cfg0.N :=
  W1_arr m c 1
/-- The second region's output array after it. -/
theorem W3_out (c : Dev nD) : W3 m c (Proc.devRef .tc main_v2) = (R1.dat0 (W2 m) c).arrAt 1 cfg1.N :=
  W3_arr m c 1

/-- An input array leaves its region as it entered: no point writes it back. -/
theorem W1_arg0 (c : Dev nD) : W1 m c (Proc.devRef .tc main_arg0) = m ((c : Thread nD τ).loc main_arg0) :=
  (W1_arr m c 0).trans (((R0.dat0 (W0 m) c).arrAt_in 0 rfl _).trans (R0.A_eq (W0 m) c 0))

/-- The second argument reaches the second region as launched. -/
theorem W2_arg1 (c : Dev nD) : W2 m c (Proc.devRef .tc main_arg1) = m ((c : Thread nD τ).loc main_arg1) :=
  (W2_of m c main_arg1 (by decide)).trans (W1_of_ne m c main_arg1 (by decide))

/-- The second region keeps the first stretch's sum. -/
theorem W3_v1 (c : Dev nD) : W3 m c (Proc.devRef .tc main_v1) = W2 m c (Proc.devRef .tc main_v1) :=
  W3_of_ne m c main_v1 (by decide)

/-- The first argument ends as launched, -/
theorem W4_arg0 (c : Dev nD) : W4 m c (Proc.devRef .tc main_arg0) = m ((c : Thread nD τ).loc main_arg0) :=
  (W4_of m c main_arg0 (by decide)).trans <| (W3_of_ne m c main_arg0 (by decide)).trans <|
    (W2_of m c main_arg0 (by decide)).trans (W1_arg0 m c)

/-- and the second. -/
theorem W4_arg1 (c : Dev nD) : W4 m c (Proc.devRef .tc main_arg1) = m ((c : Thread nD τ).loc main_arg1) :=
  (W4_of m c main_arg1 (by decide)).trans <| (W3_arr m c 0).trans <|
    ((R1.dat0 (W2 m) c).arrAt_in 0 rfl _).trans <| (R1.A_eq (W2 m) c 0).trans (W2_arg1 m c)

/-! ## The proof data of the two regions, and the items as segments -/

/-- Each region's proof data at its entry valuation: a literal match, so that the configuration pinned at a numeral
    reduces to the printed one. -/
def pdats : (p : Fin 2) → (c : Dev nD) → Dat τ (Elt F) Unit ℕ (UR sig nD τ) ℕ (Pipeline.pin (pcfgs (F := F)) adm p) c
  | ⟨0, _⟩ => fun c => R0.dat0 (W0 m) c
  | ⟨1, _⟩ => fun c => R1.dat0 (W2 m) c
abbrev 𝒱₀ : Variants := Variants.none
/-- No core owes another anything: no level is assigned. -/
abbrev L : GSem nD τ sig → Finset Unit := fun _ => ∅
abbrev lv : GSem nD τ sig → Unit → ℕ := fun _ _ => 0

/-- A host stretch as a segment over the unscoped buffers from the valuation W, the generator register and the
    empty debt riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Pipeline.idleRest

set_option backward.isDefEq.respectTransparency.types false in
/-- The first region, entered from the launch valuation and left at the next of the fold. -/
def reg0 : Pipeline.RegionSeg (pcfgs (F := F)) adm (pdats m) () defs₀ 𝒱₀ L lv 0 :=
  Pipeline.RegionSeg.ofHeld (pcfgs (F := F)) adm (pdats m) defs₀ 𝒱₀ L lv 0
    launch0.win launch0.block_pos launch0.arr_whole launch0.stage_whole
    (fun c => Pipeline.emp_prefHeld_of_no_table _ rfl c _ _)
    (fun c => R0.body_obligation (W0 m) c)
    (fun c w => R0.q_full (W0 m) c w)
    (fun c t => R0.owed_zero (W0 m) c t)
    (fun c => R0.recorded_univ (W0 m) c)
    (W0 m) (W1 m)
    (fun c w => R0.A_eq (W0 m) c w)
    (fun c w => (W1_arr m c w).symm)
    (fun c b hb => W1_of_ne m c b fun w e => hb (Finset.mem_image.mpr ⟨w, Finset.mem_univ w, e⟩))
    (fun c => R0.inv_in (W0 m) c)
    (fun c => R0.inv_out (W0 m) c)

set_option backward.isDefEq.respectTransparency.types false in
/-- The second region, entered from the valuation the first host stretch leaves. -/
def reg1 : Pipeline.RegionSeg (pcfgs (F := F)) adm (pdats m) () defs₀ 𝒱₀ L lv 1 :=
  Pipeline.RegionSeg.ofHeld (pcfgs (F := F)) adm (pdats m) defs₀ 𝒱₀ L lv 1
    launch1.win launch1.block_pos launch1.arr_whole launch1.stage_whole
    (fun c => Pipeline.emp_prefHeld_of_no_table _ rfl c _ _)
    (fun c => R1.body_obligation (W2 m) c)
    (fun c w => R1.q_full (W2 m) c w)
    (fun c t => R1.owed_zero (W2 m) c t)
    (fun c => R1.recorded_univ (W2 m) c)
    (W2 m) (W3 m)
    (fun c w => R1.A_eq (W2 m) c w)
    (fun c w => (W3_arr m c w).symm)
    (fun c b hb => W3_of_ne m c b fun w e => hb (Finset.mem_image.mpr ⟨w, Finset.mem_univ w, e⟩))
    (fun c => R1.inv_in (W2 m) c)
    (fun c => R1.inv_out (W2 m) c)

/-- The main function's four items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

/-- The main function is the run of the items. -/
theorem main_run (c : Dev nD) : main (F := F) c = Pipeline.Seg.run (segs m) := (main_chain c).trans (by chain_rfl)

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debt: every unscoped buffer at the last valuation, the generator register at
    some state. -/
abbrev Tₙ (c : Dev nD) : sProp 𝕄 :=
  iprop(StableHlo.held (c : Thread nD τ) (Pipeline.ucRefs τ sig) (W4 m c) ∗ ∃ r, prngReg c r)

/-! ## The run -/

set_option backward.isDefEq.respectTransparency.types false in
/-- Every weakly fair execution of the main function from memory m with zero counters terminates, and every final
    memory holds each unscoped buffer at the last valuation of the fold. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Pipeline.heldIdle (W0 m)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ Pipeline.idleRest c) : sProp 𝕄)
        ⊢ iprop(Tₙ m c ∗ ∃ S, owes (c : Thread nD τ) (0 : CellTallies nD τ sig Unit) S)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W4 m c b)
    (hfin := fun c s' => by
      iintro ⟨⟨Hh, -⟩, HSI⟩
      unfold StableHlo.held
      imodintro
      iapply (pointsTo_read_all (Pipeline.ucRefs τ sig) (fun b => ((c : Thread nD τ).1, b)) (W4 m c) s')
      isplitl [Hh] <;> iassumption)
    (hQ := fun s h => h)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_arg0 m c),
     (h c _ (mem_uc main_arg1 (by decide))).trans (W4_arg1 m c)⟩) (run_all m ρ)

/-- The result buffer ends at the last valuation of the fold, the argument arrays as launched. -/
theorem run_result : θ_run defs (onTc (τ := τ) (main (F := F))) ⟨m, fun _ => 0, ρ⟩ (fun r => ∀ c : Dev nD,
      r.2.mem ((c.tc : Thread nD τ).loc main_v23) = W4 m c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v23 (by decide)),
     (h c _ (mem_uc main_arg0 (by decide))).trans (W4_arg0 m c),
     (h c _ (mem_uc main_arg1 (by decide))).trans (W4_arg1 m c)⟩) (run_all m ρ)

end Cert.KernelIdeal.Run

end
-- ==== Proof.KI.R0.Step.lean ====
/-
  One grid point's update of the 3 x 256 accumulator, as a function of the input block and of what the accumulator
  held: row c of the new accumulator is row c of the old one plus the 16 x 16 joint counts of channel c's high and low
  nibbles, re-laid as 256 numbers. Stated with the body's own value terms, row by row, so that the run's stores and
  the arithmetic about them meet in one name.
-/
import proofs.«178617_j19834158972940_1_alg».proof.Proof.Gen.KernelIdeal.Skeleton
import Idealize.ShloMosaic.Lib.ValueIdx

noncomputable section

namespace Cert.KernelIdeal.R0

open Cert.KernelIdeal Cert.KernelIdeal.Gen
open Idealize.ShloMosaic Idealize.ShloMosaic.ValueIdx

variable {F : FTy → Type} [FloatOps F]

/-- Row `r` of a 3 x 256 array, as a 1 x 256 vector. -/
def rowOf (s : Vec F S3x256 .f32) (r : Fin 3) : Vec F S1x256 .f32 := fun y => s (ix2 r (y 1))

/-- The lane numbers 0 … 15 the nibbles are compared with. -/
abbrev lanes : IVec S1x16 32 := iota .tc S1x16 32 [1] iota_S1x16_d1_w32

/-- The block's pixels as integers, their high nibbles and their low nibbles, as the body computes them. -/
abbrev pix (x0 : Vec F S1x3x128x512 .f32) : IVec S3x128x512 32 := k0_pay4 x0
abbrev highs (x0 : Vec F S1x3x128x512 .f32) : IVec S3x65536 32 := k0_pay5 x0
abbrev lows (x0 : Vec F S1x3x128x512 .f32) : IVec S3x65536 32 := k0_pay7 (k0_pay4 x0) 16#32 (k0_pay6 x0)

/-- The three rows the body stores at a point. -/
def newRow0 (x0 : Vec F S1x3x128x512 .f32) (s : Vec F S3x256 .f32) : FVec F S1x256 .f32 :=
  k0_pay9 (k0_pay8 (pix x0) (highs x0) 16#32 (k0_pay6 x0) (rowOf s 0))
def newRow1 (x0 : Vec F S1x3x128x512 .f32) (s : Vec F S3x256 .f32) : FVec F S1x256 .f32 :=
  k0_pay10 (highs x0) (lows x0) lanes (rowOf s 1)
def newRow2 (x0 : Vec F S1x3x128x512 .f32) (s : Vec F S3x256 .f32) : FVec F S1x256 .f32 :=
  k0_pay1 (k0_pay11 (F := F) (highs x0) (lows x0) lanes) (rowOf s 2)

/-- The accumulator after a point, from the input block `x0` and the accumulator before the rows are updated `s`. -/
def stepAcc (x0 : Vec F S1x3x128x512 .f32) (s : Vec F S3x256 .f32) : Vec F S3x256 .f32 := fun i =>
  match (i 0).val with
  | 0 => newRow0 x0 s (ix2 0 (i 1))
  | 1 => newRow1 x0 s (ix2 0 (i 1))
  | _ => newRow2 x0 s (ix2 0 (i 1))

/-- The all-zero accumulator the first point of a group starts from. -/
abbrev zeroAcc : Vec F S3x256 .f32 := k0_pay3 (F := F)

/-- What the last point of a group copies out: the accumulator re-laid as a 1 x 3 x 256 block. -/
abbrev outOf (s : Vec F S3x256 .f32) : Vec F S1x3x256 .f32 := k0_pay2 s

end Cert.KernelIdeal.R0

end
-- ==== Proof.KI.R0.Pieces.lean ====
/-
  What the pieces a grid point stores read back as. The body loads a row of the 3 x 256 accumulator, adds the block's
  joint counts for that channel and stores the row back, for rows 0, 1, 2 in turn; the three stored rows tile the
  accumulator, so reading it back row by row gives the one-step update of what the rows were loaded from: the
  accumulator as found at an inner or a last point, the zeros stored just before at the first point of a group. At a
  last point the accumulator so updated is then loaded whole and stored, re-laid, over the whole output buffer.
-/
import proofs.«178617_j19834158972940_1_alg».proof.Proof.KI.R0.Covers
import proofs.«178617_j19834158972940_1_alg».proof.Proof.KI.R0.Step
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-- The zero offsets of a rectangle of rank 4, 3 and 2, as the constant function. -/
theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-! ## One row of the accumulator: its rectangle, a load through it, a store through it -/

/-- A load through the rectangle of row `o` (one row, all 256 columns) reads that row. -/
theorem ld_row (s : Vec F S3x256 .f32) (o : ℕ) (ho : o < 3) (inb : ∀ a, (![o, 0] : Fin 2 → Nat) a + S1x256.size a ≤ S3x256.size a) :
    View.ld s (Rect.unit (s := S3x256) ![o, 0] S1x256.size inb) = rowOf s ⟨o, ho⟩ := by
  funext x
  show s ((Rect.unit (s := S3x256) ![o, 0] S1x256.size inb).idx x) = s (ix2 ⟨o, ho⟩ (x 1))
  refine congrArg s (funext fun a => Fin.ext ?_)
  have h0 : (x 0).val < 1 := (x 0).isLt
  match a with
  | ⟨0, _⟩ => show o + 1 * (x 0).val = o; omega
  | ⟨1, _⟩ => show 0 + 1 * (x 1).val = (x 1).val; omega

/-- A load of row `o` after the stores `L` reads row `o` of what they leave. -/
theorem readCov_row (v : View sig .tc .vmem S3x256 .f32) (L : List (View.Piece (Elt F) S3x256 .f32)) (o : ℕ) (ho : o < 3)
    (inb : ∀ a, (![o, 0] : Fin 2 → Nat) a + S1x256.size a ≤ S3x256.size a) :
    v.readCov L (Rect.unit (s := S3x256) ![o, 0] S1x256.size inb).toLoadRect = rowOf (View.canon L) ⟨o, ho⟩ :=
  (View.readCov_eq_canon' v L _).trans (ld_row (View.canon L) o ho inb)

/-- An index of another row is not in row `o`'s rectangle. -/
theorem not_mem_row (o : ℕ) (inb : ∀ a, (![o, 0] : Fin 2 → Nat) a + S1x256.size a ≤ S3x256.size a) (r : Fin 3) (h : r.val ≠ o) (j : Fin 256) :
    (ix2 r j : S3x256.Idx) ∉ (Rect.unit (s := S3x256) ![o, 0] S1x256.size inb).set := by
  rw [Rect.mem_set_unit]
  intro hm
  have h0 : o ≤ r.val ∧ r.val < o + 1 := hm 0
  omega

/-- Off the row last stored, what the stores leave is what the earlier ones left; -/
theorem canon_row_ne (o : ℕ) (inb : ∀ a, (![o, 0] : Fin 2 → Nat) a + S1x256.size a ≤ S3x256.size a)
    (w : (Rect.unit (s := S3x256) ![o, 0] S1x256.size inb).shape.Idx → Elt F .f32) (L : List (View.Piece (Elt F) S3x256 .f32))
    (r : Fin 3) (h : r.val ≠ o) (j : Fin 256) :
    View.canon ((⟨Rect.unit (s := S3x256) ![o, 0] S1x256.size inb, w⟩ : View.Piece (Elt F) S3x256 .f32) :: L) (ix2 r j) = View.canon L (ix2 r j) :=
  View.canon_cons_of_not_mem _ _ (not_mem_row o inb r h j)

/-- on it, the stored row. -/
theorem canon_row_eq (o : ℕ) (ho : o < 3) (inb : ∀ a, (![o, 0] : Fin 2 → Nat) a + S1x256.size a ≤ S3x256.size a)
    (w : Vec F S1x256 .f32) (L : List (View.Piece (Elt F) S3x256 .f32)) (j : Fin 256) :
    View.canon ((⟨Rect.unit (s := S3x256) ![o, 0] S1x256.size inb, w⟩ : View.Piece (Elt F) S3x256 .f32) :: L) (ix2 ⟨o, ho⟩ j) = w (ix2 0 j) := by
  have e : (Rect.unit (s := S3x256) ![o, 0] S1x256.size inb).emb (ix2 (0 : Fin 1) j) = ix2 ⟨o, ho⟩ j :=
    funext fun a => Fin.ext (by
      match a with
      | ⟨0, _⟩ => show o + 1 * 0 = o; omega
      | ⟨1, _⟩ => show 0 + 1 * j.val = j.val; omega)
  rw [← e]
  exact View.canon_cons_emb (Rect.unit (s := S3x256) ![o, 0] S1x256.size inb) w L _

/-- So a row other than the one last stored is a row of what the earlier stores left. -/
theorem rowOf_canon_ne (o : ℕ) (inb : ∀ a, (![o, 0] : Fin 2 → Nat) a + S1x256.size a ≤ S3x256.size a)
    (w : Vec F S1x256 .f32) (L : List (View.Piece (Elt F) S3x256 .f32)) (r : Fin 3) (h : r.val ≠ o) :
    rowOf (View.canon ((⟨Rect.unit (s := S3x256) ![o, 0] S1x256.size inb, w⟩ : View.Piece (Elt F) S3x256 .f32) :: L)) r = rowOf (View.canon L) r :=
  funext fun x => canon_row_ne o inb w L r h (x 1)

/-- Three stores, of rows 0, 1, 2 in that order over whatever was stored before, leave those rows. -/
theorem canon_rows (w0 w1 w2 : Vec F S1x256 .f32) (L : List (View.Piece (Elt F) S3x256 .f32)) :
    View.canon ((⟨Rect.unit (s := S3x256) ![2, 0] S1x256.size inb_S3x256_S1x256_2_0, w2⟩ : View.Piece (Elt F) S3x256 .f32)
      :: ⟨Rect.unit (s := S3x256) ![1, 0] S1x256.size inb_S3x256_S1x256_1_0, w1⟩
      :: ⟨Rect.unit (s := S3x256) ![0, 0] S1x256.size inb_S3x256_S1x256_0_0, w0⟩ :: L)
      = fun y => match (y 0).val with
        | 0 => w0 (ix2 0 (y 1))
        | 1 => w1 (ix2 0 (y 1))
        | _ => w2 (ix2 0 (y 1)) := by
  funext y
  obtain ⟨r, j, rfl⟩ : ∃ (r : Fin 3) (j : Fin 256), y = ix2 r j := ⟨y 0, y 1, eq_ix2 y⟩
  match r with
  | ⟨0, _⟩ =>
    rw [canon_row_ne 2 _ _ _ _ (by show (0 : ℕ) ≠ 2; decide), canon_row_ne 1 _ _ _ _ (by show (0 : ℕ) ≠ 1; decide)]
    exact canon_row_eq 0 (by decide) _ w0 L j
  | ⟨1, _⟩ =>
    rw [canon_row_ne 2 _ _ _ _ (by show (1 : ℕ) ≠ 2; decide)]
    exact canon_row_eq 1 (by decide) _ w1 _ j
  | ⟨2, _⟩ => exact canon_row_eq 2 (by decide) _ w2 _ j

/-- The accumulator's raw contents that read `s` read `s`. -/
theorem read_acc (s : Vec F S3x256 .f32) :
    View.read (Elt F) (View.whole cc0_scratch0) ((Memref.isWhole_whole cc0_scratch0).unread s) = s :=
  (Memref.isWhole_whole cc0_scratch0).read_unread s

/-- A load of the whole accumulator after the stores `L` reads what they leave. -/
theorem readCov_whole (v : View sig .tc .vmem S3x256 .f32) (L : List (View.Piece (Elt F) S3x256 .f32))
    (inb : ∀ a, (![0, 0] : Fin 2 → Nat) a + S3x256.size a ≤ S3x256.size a) :
    v.readCov L (Rect.unit (s := S3x256) ![0, 0] S3x256.size inb).toLoadRect = View.canon L :=
  (View.readCov_eq_canon' v L _).trans (View.ld_unit_zero (S := S3x256) hz2 inb (View.canon L))

/-! ## The pieces of each kind of point, read back -/

/-- At the first point of a group the accumulator reads back as one step from the zeros stored just before. -/
theorem pieces_first (c : Dev nD) (i : grid0.Coords) (arg3 : Memref sig .tc .vmem S1x3x128x512 .f32) (harg3 : arg3.IsWhole) (arg4 : Memref sig .tc .vmem S1x3x256 .f32) (harg4 : arg4.IsWhole) (hr : resetAt i) (hf : ¬flushAt i) (x0 : Vec F S1x3x128x512 .f32) :
    accView.read (Elt F) (accView.writes (Elt F) accView.junk (runFirst c i arg3 harg3 arg4 harg4 accBuf (Memref.isWhole_whole _) hr hf x0).1) = stepAcc x0 zeroAcc := by
  rw [View.read_writes_junk_eq_canon]
  unfold runFirst
  dsimp only
  sl_unfold_words
  refine (canon_rows _ _ _ _).trans ?_
  simp only [View.readAt_eq_ld, harg3.read_unread, View.ld_unit_zero (S := S1x3x128x512) hz4,
    readCov_row _ _ 0 (by decide), readCov_row _ _ 1 (by decide), readCov_row _ _ 2 (by decide),
    rowOf_canon_ne 1 _ _ _ ⟨2, by decide⟩ (by decide), rowOf_canon_ne 0 _ _ _ ⟨2, by decide⟩ (by decide),
    rowOf_canon_ne 0 _ _ _ ⟨1, by decide⟩ (by decide), View.canon_unit_zero (S := S3x256) hz2]
  rfl

/-- At an inner point it reads back as one step from what it held. -/
theorem pieces_inner (c : Dev nD) (i : grid0.Coords) (arg3 : Memref sig .tc .vmem S1x3x128x512 .f32) (harg3 : arg3.IsWhole) (arg4 : Memref sig .tc .vmem S1x3x256 .f32) (harg4 : arg4.IsWhole) (hr : ¬resetAt i) (hf : ¬flushAt i) (x0 : Vec F S1x3x128x512 .f32) (s0 : Vec F S3x256 .f32) :
    accView.read (Elt F) (accView.writes (Elt F) accView.junk (runInner c i arg3 harg3 arg4 harg4 accBuf (Memref.isWhole_whole _) hr hf x0 s0).1) = stepAcc x0 s0 := by
  rw [View.read_writes_junk_eq_canon]
  unfold runInner
  dsimp only
  sl_unfold_words
  refine (canon_rows _ _ _ _).trans ?_
  simp only [View.readAt_eq_ld, harg3.read_unread, read_acc, View.ld_unit_zero (S := S1x3x128x512) hz4,
    ld_row s0 0 (by decide) inb_S3x256_S1x256_0_0, ld_row s0 1 (by decide) inb_S3x256_S1x256_1_0, ld_row s0 2 (by decide) inb_S3x256_S1x256_2_0]
  rfl

/-- At the last point of a group likewise, -/
theorem pieces_last_acc (c : Dev nD) (i : grid0.Coords) (arg3 : Memref sig .tc .vmem S1x3x128x512 .f32) (harg3 : arg3.IsWhole) (arg4 : Memref sig .tc .vmem S1x3x256 .f32) (harg4 : arg4.IsWhole) (hr : ¬resetAt i) (hf : flushAt i) (x0 : Vec F S1x3x128x512 .f32) (s0 : Vec F S3x256 .f32) :
    accView.read (Elt F) (accView.writes (Elt F) accView.junk (runLast c i arg3 harg3 arg4 harg4 accBuf (Memref.isWhole_whole _) hr hf x0 s0).2.1) = stepAcc x0 s0 := by
  rw [View.read_writes_junk_eq_canon]
  unfold runLast
  dsimp only
  sl_unfold_words
  refine (canon_rows _ _ _ _).trans ?_
  simp only [View.readAt_eq_ld, harg3.read_unread, read_acc, View.ld_unit_zero (S := S1x3x128x512) hz4,
    ld_row s0 0 (by decide) inb_S3x256_S1x256_0_0, ld_row s0 1 (by decide) inb_S3x256_S1x256_1_0, ld_row s0 2 (by decide) inb_S3x256_S1x256_2_0]
  rfl

/-- and the output's buffer reads back as that accumulator re-laid. -/
theorem pieces_last_out (c : Dev nD) (i : grid0.Coords) (arg3 : Memref sig .tc .vmem S1x3x128x512 .f32) (harg3 : arg3.IsWhole) (arg4 : Memref sig .tc .vmem S1x3x256 .f32) (harg4 : arg4.IsWhole) (hr : ¬resetAt i) (hf : flushAt i) (x0 : Vec F S1x3x128x512 .f32) (s0 : Vec F S3x256 .f32) :
    outView.read (Elt F) (outView.writes (Elt F) outView.junk (runLast c i arg3 harg3 arg4 harg4 accBuf (Memref.isWhole_whole _) hr hf x0 s0).1) = outOf (stepAcc x0 s0) := by
  rw [View.read_writes_junk_eq_canon]
  unfold runLast
  dsimp only
  sl_unfold_words
  rw [View.canon_unit_zero (S := S1x3x256) hz3]
  refine congrArg k0_pay2 ?_
  rw [readCov_whole]
  refine (canon_rows _ _ _ _).trans ?_
  simp only [View.readAt_eq_ld, harg3.read_unread, read_acc, View.ld_unit_zero (S := S1x3x128x512) hz4,
    ld_row s0 0 (by decide) inb_S3x256_S1x256_0_0, ld_row s0 1 (by decide) inb_S3x256_S1x256_1_0, ld_row s0 2 (by decide) inb_S3x256_S1x256_2_0]
  rfl

end Cert.KernelIdeal.R0

end
-- ==== Proof.Spec.lean ====
/-
  What both programs compute, stated once over plain arrays of extended reals.

  A pixel value is clipped to [0, 255] and truncated to an integer, its bin. For an image batch of shape
  32 x 3 x 512 x 512 the histogram of channel c counts, for each bin j < 256, the pixels of that channel (over the
  batch and both image axes) whose bin is j. Two such 3 x 256 histograms are then compared channel by channel by the
  Bhattacharyya distance, and the three distances are summed: the last stretch of host operations, the same in both
  programs, carried here as one function of the two histograms.
-/
import Idealize.ShloMosaic.PureOps.Ideal
import Idealize.ShloMosaic.Lib.ValueIdx

noncomputable section

namespace Cert.Hist

open Idealize.ShloMosaic

abbrev SImg : Shape := ⟨4, ![32, 3, 512, 512]⟩
abbrev SHist : Shape := ⟨2, ![3, 256]⟩
abbrev SCh : Shape := ⟨1, ![3]⟩
abbrev SOne : Shape := ⟨0, ![]⟩

/-- The bin of a pixel value: the value clipped to [0, 255], truncated toward zero, as a 32-bit word. -/
def bin (v : Ideal .f32) : BitVec 32 :=
  FloatOps.fptosi 32 (FloatOps.minimumf (Scalar.ofBits (F := Ideal) .f32 0x437F0000#32)
    (FloatOps.maximumf (Scalar.ofBits (F := Ideal) .f32 0x00000000#32) v))

/-- One when the pixel's bin is `j`, zero otherwise. -/
def hit (v : Ideal .f32) (j : Fin 256) : EReal := if (bin v).toNat = j.val then 1 else 0

/-- How many pixels of channel `c` have bin `j`, over the batch and both image axes. -/
def count (x : SImg.Idx → Ideal .f32) (c : Fin 3) (j : Fin 256) : EReal :=
  ∑ b : Fin 32, ∑ h : Fin 512, ∑ w : Fin 512, hit (x (ValueIdx.ix4 b c h w)) j

/-- The 3 x 256 histogram of an image batch. -/
def histArr (x : SImg.Idx → Ideal .f32) : SHist.Idx → Ideal .f32 := fun i => count x (i 0) (i 1)

theorem red_hist_ch : SHist.ReducesTo [1] SCh := by decide
theorem red_ch_one : SCh.ReducesTo [0] SOne := by decide
theorem pos_one : 0 < SOne.numel := by decide
theorem bc_one_ch : SOne.BroadcastsInDim SCh (![] : Fin 0 → Fin SCh.rank) := by decide

/-- The sum over channels of the Bhattacharyya distances of two histograms `a`, `b`:
    per channel `sqrt (max (1 - (sum_j sqrt (a_j b_j)) / (sqrt ((sum a / 256) (sum b / 256)) 256)) 0)`. -/
def distance (a b : SHist.Idx → Ideal .f32) : SOne.Idx → Ideal .f32 :=
  Host.reduceAdd (F := Ideal)
    (Host.sqrt (F := Ideal) (maximumf
      (subf (broadcastInDim SCh ![] bc_one_ch (constant (F := Ideal) SOne .f32 0x3F800000#32))
        (Host.divf (F := Ideal)
          (Host.reduceAdd (F := Ideal) (Host.sqrt (F := Ideal) (mulf a b)) (constant (F := Ideal) SOne .f32 0x00000000#32) red_hist_ch pos_one)
          (mulf
            (Host.sqrt (F := Ideal) (mulf
              (Host.divf (F := Ideal) (Host.reduceAdd (F := Ideal) a (constant (F := Ideal) SOne .f32 0x00000000#32) red_hist_ch pos_one)
                (broadcastInDim SCh ![] bc_one_ch (constant (F := Ideal) SOne .f32 0x43800000#32)))
              (Host.divf (F := Ideal) (Host.reduceAdd (F := Ideal) b (constant (F := Ideal) SOne .f32 0x00000000#32) red_hist_ch pos_one)
                (broadcastInDim SCh ![] bc_one_ch (constant (F := Ideal) SOne .f32 0x43800000#32)))))
            (broadcastInDim SCh ![] bc_one_ch (constant (F := Ideal) SOne .f32 0x43800000#32)))))
      (broadcastInDim SCh ![] bc_one_ch (constant (F := Ideal) SOne .f32 0x00000000#32))))
    (constant (F := Ideal) SOne .f32 0x00000000#32) red_ch_one pos_one

end Cert.Hist

end
-- ==== Proof.KI.R0.StepMath.lean ====
/-
  The arithmetic of one grid point, at the extended reals.

  A pixel value is clipped to [0, 255] and truncated, so its bin v is a word with 0 ≤ v < 256. The body splits v by a
  signed floor division by sixteen into a high nibble v / 16 and a low nibble v - 16 (v / 16) = v mod 16, both in
  0 … 15 (checked once over the 256 words). For a channel, the 65536 x 16 one-hot matrix of the high nibbles and that
  of the low nibbles are contracted over the pixels onto a zero matrix: entry (p, q) of the 16 x 16 result is the sum
  over pixels of the product of the two indicators, and that product is the indicator of v = 16 p + q. Re-laid as 256
  numbers, entry (p, q) sits at lane 16 p + q, so lane j of the channel's new accumulator row is the old lane plus the
  number of the channel's pixels, over the block's 128 rows and 512 columns, whose bin is j.
-/
import proofs.«178617_j19834158972940_1_alg».proof.Proof.KI.R0.Step
import proofs.«178617_j19834158972940_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.R0

open Cert.KernelIdeal Cert.KernelIdeal.Gen
open Idealize.ShloMosaic Idealize.ShloMosaic.ValueIdx

/-- The high nibble of a word, as the body's floor-division chain computes it. -/
def hiWord (v : BitVec 32) : BitVec 32 :=
  Scalar.select
    (IntOp.andi
      (IntOp.cmpi .ne
        (IntOp.subi ((IntOp.cmpi .sgt v 0#32).setWidth 32) ((IntOp.cmpi .slt v 0#32).setWidth 32))
        (Scalar.subi (Scalar.extui (Scalar.cmpi .sgt 16#32 0#32)) (Scalar.extui (Scalar.cmpi .slt 16#32 0#32))))
      (IntOp.cmpi .ne (IntOp.remsi .vector v 16#32) 0#32))
    (IntOp.subi (IntOp.divsi .vector v 16#32) 1#32)
    (IntOp.divsi .vector v 16#32)

/-- The low nibble of a word: the word minus sixteen times its high nibble. -/
def loWord (v : BitVec 32) : BitVec 32 := IntOp.subi v (IntOp.muli (hiWord v) 16#32)

theorem hiWord_ofNat : ∀ n : Fin 256, hiWord (BitVec.ofNat 32 n.val) = BitVec.ofNat 32 (n.val / 16) := by
  decide +kernel

theorem loWord_ofNat : ∀ n : Fin 256, loWord (BitVec.ofNat 32 n.val) = BitVec.ofNat 32 (n.val % 16) := by
  decide +kernel

/-- A lane comparison of two small words, widened and read as an integer, is the indicator of equality. -/
theorem laneEq_toInt : ∀ a b : Fin 16,
    ((IntOp.cmpi .eq (BitVec.ofNat 32 a.val) (BitVec.ofNat 32 b.val)).setWidth 32).toInt = if a.val = b.val then 1 else 0 := by
  decide +kernel

theorem ofBits_255 : Ideal.ofBits .f32 0x437F0000#32 = ((255 : ℝ) : EReal) := by
  simp [Ideal.ofBits, Ideal.ieee]
  rw [← EReal.coe_mul]
  norm_num

/-- A pixel's bin is below 256: the value is clipped to [0, 255] before it is truncated. -/
theorem bin_lt (x : Ideal .f32) : (Cert.Hist.bin x).toNat < 256 := by
  show (Ideal.fptosi 32 (min (Ideal.ofBits .f32 0x437F0000#32) (max (Ideal.ofBits .f32 0x00000000#32) x))).toNat < 256
  rw [ofBits_255, Ideal.ofBits_zero_f32]
  have hlo : (0 : EReal) ≤ min ((255 : ℝ) : EReal) (max 0 x) := le_min (by exact_mod_cast (by norm_num : (0:ℝ) ≤ 255)) (le_max_left _ _)
  have hhi : min ((255 : ℝ) : EReal) (max 0 x) ≤ ((255 : ℝ) : EReal) := min_le_left _ _
  generalize min ((255 : ℝ) : EReal) (max 0 x) = y at hlo hhi
  induction y using EReal.rec with
  | bot => simp at hlo
  | top => simp at hhi
  | coe r =>
    have rlo : (0 : ℝ) ≤ r := by exact_mod_cast hlo
    have rhi : r ≤ 255 := by exact_mod_cast hhi
    have flo : (0 : ℤ) ≤ ⌊r⌋ := Int.floor_nonneg.mpr rlo
    have fhi : ⌊r⌋ ≤ 255 := by
      have : ⌊r⌋ ≤ ⌊(255 : ℝ)⌋ := Int.floor_le_floor rhi
      simpa using this
    rw [Ideal.fptosi, Ideal.toIntClamped_coe, if_pos rlo]
    rw [BitVec.toNat_ofInt]
    omega

theorem hiWord_of_lt (v : BitVec 32) (hv : v.toNat < 256) : hiWord v = BitVec.ofNat 32 (v.toNat / 16) := by
  have h := hiWord_ofNat ⟨v.toNat, hv⟩
  rwa [BitVec.ofNat_toNat, BitVec.setWidth_eq] at h

theorem loWord_of_lt (v : BitVec 32) (hv : v.toNat < 256) : loWord v = BitVec.ofNat 32 (v.toNat % 16) := by
  have h := loWord_ofNat ⟨v.toNat, hv⟩
  rwa [BitVec.ofNat_toNat, BitVec.setWidth_eq] at h

theorem laneEq_toInt' (a b : Nat) (ha : a < 16) (hb : b < 16) :
    ((IntOp.cmpi .eq (BitVec.ofNat 32 a) (BitVec.ofNat 32 b)).setWidth 32).toInt = if a = b then 1 else 0 :=
  laneEq_toInt ⟨a, ha⟩ ⟨b, hb⟩

/-- The product of the two nibble indicators of a word below 256 is the indicator of the word itself. -/
theorem nibbles_onehot (v : BitVec 32) (hv : v.toNat < 256) (p q : Fin 16) :
    ((((IntOp.cmpi .eq (hiWord v) (BitVec.ofNat 32 p.val)).setWidth 32).toInt : ℝ) : EReal)
        * ((((IntOp.cmpi .eq (loWord v) (BitVec.ofNat 32 q.val)).setWidth 32).toInt : ℝ) : EReal)
      = if v.toNat = 16 * p.val + q.val then 1 else 0 := by
  rw [hiWord_of_lt v hv, loWord_of_lt v hv, laneEq_toInt' _ _ (by omega) p.isLt, laneEq_toInt' _ _ (by omega) q.isLt]
  by_cases h1 : v.toNat / 16 = p.val <;> by_cases h2 : v.toNat % 16 = q.val
  · rw [if_pos h1, if_pos h2, if_pos (by omega)]; simp
  · rw [if_pos h1, if_neg h2, if_neg (by omega)]; simp
  · rw [if_neg h1, if_pos h2, if_neg (by omega)]; simp
  · rw [if_neg h1, if_neg h2, if_neg (by omega)]; simp

section Layout

/-- The one-hot matrix of one channel row of a 3 x 65536 array of words against the sixteen lanes:
    entry (n, p) is one when word n of the row is lane p's number. -/
def oneHot {F : FTy → Type} [FloatOps F] (off : Fin S3x65536.rank → Nat) (hs : S3x65536.Slices off S1x65536)
    (v : IVec S3x65536 32) (l : IVec S1x16 32) : FVec F S65536x16 .bf16 :=
  truncf .bf16 (sitofp .f32 (extui 32 (cmpi .eq
    (broadcastTo S65536x16 (shapeCast S65536x1 (shapeCast S65536 (extractStridedSlice S1x65536 off v hs) shapeCasts_S1x65536_S65536)
      shapeCasts_S65536_S65536x1) broadcasts_S65536x1_S65536x16)
    (broadcastTo S65536x16 l broadcasts_S1x16_S65536x16)) natLt_1_32)) bitsLt_bf16_f32

theorem oneHot_apply (off : Fin S3x65536.rank → Nat) (hs : S3x65536.Slices off S1x65536) (v : IVec S3x65536 32) (l : IVec S1x16 32)
    (r : Fin 3) (hrow : off 0 = r.val) (hcol : off 1 = 0) (n : Fin 65536) (p : Fin 16) :
    oneHot (F := Ideal) off hs v l (ix2 n p)
      = (((((IntOp.cmpi .eq (v (ix2 r n)) (l (ix2 (0 : Fin 1) p))).setWidth 32).toInt : ℝ)) : EReal) := by
  have e1 : broadcastTo S65536x16 (shapeCast S65536x1 (shapeCast S65536 (extractStridedSlice S1x65536 off v hs) shapeCasts_S1x65536_S65536)
      shapeCasts_S65536_S65536x1) broadcasts_S65536x1_S65536x16 (ix2 n p) = v (ix2 r n) := by
    refine (broadcastTo_apply _ _ (ix2 n p) (ix2 n (0 : Fin 1)) ?_).trans ?_
    · intro a; match a with | ⟨0, _⟩ => rfl | ⟨1, _⟩ => rfl
    refine (shapeCast_apply _ _ (ix2 n (0 : Fin 1)) (ix1 n) ?_).trans ?_
    · rw [Shape.rowMajor_val_one, Shape.rowMajor_val_two]; show n.val = n.val * 1 + 0; omega
    refine (shapeCast_apply _ _ (ix1 n) (ix2 (0 : Fin 1) n) ?_).trans ?_
    · rw [Shape.rowMajor_val_one, Shape.rowMajor_val_two]; show 0 * 65536 + n.val = n.val; omega
    refine extractStridedSlice_apply off v hs (ix2 (0 : Fin 1) n) (ix2 r n) ?_
    intro a; match a with
      | ⟨0, _⟩ => show r.val = off 0 + 0; omega
      | ⟨1, _⟩ => show n.val = off 1 + n.val; omega
  have e2 : broadcastTo S65536x16 l broadcasts_S1x16_S65536x16 (ix2 n p) = l (ix2 (0 : Fin 1) p) := by
    refine broadcastTo_apply _ _ (ix2 n p) (ix2 (0 : Fin 1) p) ?_
    intro a; match a with | ⟨0, _⟩ => rfl | ⟨1, _⟩ => rfl
  show (((((IntOp.cmpi .eq (broadcastTo S65536x16 (shapeCast S65536x1 (shapeCast S65536 (extractStridedSlice S1x65536 off v hs) shapeCasts_S1x65536_S65536)
      shapeCasts_S65536_S65536x1) broadcasts_S65536x1_S65536x16 (ix2 n p)) (broadcastTo S65536x16 l broadcasts_S1x16_S65536x16 (ix2 n p))).setWidth 32).toInt : ℝ)) : EReal) = _
  rw [e1, e2]

theorem lhs_contr (j : S16x16.Idx) (k : dot_S65536x16_S65536x16_S16x16_0_0_1_1_n_n.contr.Idx) :
    (dot_S65536x16_S65536x16_S16x16_0_0_1_1_n_n.lhsIdx j k 0).val = (k ⟨0, by decide⟩).val :=
  DotDims.lhsIdx_val_of_single _ rfl j k
theorem rhs_contr (j : S16x16.Idx) (k : dot_S65536x16_S65536x16_S16x16_0_0_1_1_n_n.contr.Idx) :
    (dot_S65536x16_S65536x16_S16x16_0_0_1_1_n_n.rhsIdx j k 0).val = (k ⟨0, by decide⟩).val :=
  DotDims.rhsIdx_val_of_single _ rfl j k
theorem lhs_free (j : S16x16.Idx) (k : dot_S65536x16_S65536x16_S16x16_0_0_1_1_n_n.contr.Idx) :
    (dot_S65536x16_S65536x16_S16x16_0_0_1_1_n_n.lhsIdx j k 1).val = (j 0).val := by
  unfold DotDims.lhsIdx
  rw [dif_neg (show ¬(1 : Fin S65536x16.rank) ∈ dot_S65536x16_S65536x16_S16x16_0_0_1_1_n_n.lhsBatch by decide),
    dif_pos (show (1 : Fin S65536x16.rank) ∈ dot_S65536x16_S65536x16_S16x16_0_0_1_1_n_n.lhsNonContracting by decide)]
  rfl
theorem rhs_free (j : S16x16.Idx) (k : dot_S65536x16_S65536x16_S16x16_0_0_1_1_n_n.contr.Idx) :
    (dot_S65536x16_S65536x16_S16x16_0_0_1_1_n_n.rhsIdx j k 1).val = (j 1).val := by
  unfold DotDims.rhsIdx
  rw [dif_neg (show ¬(1 : Fin S65536x16.rank) ∈ dot_S65536x16_S65536x16_S16x16_0_0_1_1_n_n.rhsBatch by decide),
    dif_pos (show (1 : Fin S65536x16.rank) ∈ dot_S65536x16_S65536x16_S16x16_0_0_1_1_n_n.rhsNonContracting by decide)]
  rfl

/-- The contraction of two 65536 x 16 matrices over their rows onto a zero accumulator, entry by entry. -/
theorem matmul_rows (A B : FVec Ideal S65536x16 .bf16) (p q : Fin 16) :
    matmul dot_S65536x16_S65536x16_S16x16_0_0_1_1_n_n none A B (constant (F := Ideal) S16x16 .f32 0x00000000#32) (ix2 p q)
      = ∑ n : Fin 65536, A (ix2 n p) * B (ix2 n q) := by
  refine (Ideal.matmul_constant_zero_apply dot_S65536x16_S65536x16_S16x16_0_0_1_1_n_n none A B (ix2 p q)).trans ?_
  rw [← Equiv.sum_comp (contrEquiv1 dot_S65536x16_S65536x16_S16x16_0_0_1_1_n_n 65536 rfl rfl).symm]
  refine Finset.sum_congr rfl fun n _ => ?_
  have c2 := contrEquiv1_symm_val dot_S65536x16_S65536x16_S16x16_0_0_1_1_n_n 65536 rfl rfl n
  have l2 : dot_S65536x16_S65536x16_S16x16_0_0_1_1_n_n.lhsIdx (ix2 p q) ((contrEquiv1 _ 65536 rfl rfl).symm n) = ix2 n p := by
    funext ax; apply Fin.ext
    match ax with
    | ⟨0, _⟩ => exact (lhs_contr _ _).trans c2
    | ⟨1, _⟩ => exact lhs_free _ _
  have r2 : dot_S65536x16_S65536x16_S16x16_0_0_1_1_n_n.rhsIdx (ix2 p q) ((contrEquiv1 _ 65536 rfl rfl).symm n) = ix2 n q := by
    funext ax; apply Fin.ext
    match ax with
    | ⟨0, _⟩ => exact (rhs_contr _ _).trans c2
    | ⟨1, _⟩ => exact rhs_free _ _
  rw [l2, r2]

end Layout

/-- The block's pixel words: at (c, h, w) the bin of the input there. -/
theorem pix_apply (x0 : Vec Ideal S1x3x128x512 .f32) (c : Fin 3) (h : Fin 128) (w : Fin 512) :
    k0_pay4 (F := Ideal) x0 (ix3 c h w) = Cert.Hist.bin (x0 (ix4 (0 : Fin 1) c h w)) := by
  unfold k0_pay4
  show FloatOps.fptosi 32 (FloatOps.minimumf (Scalar.ofBits (F := Ideal) .f32 0x437F0000#32)
    (FloatOps.maximumf (Scalar.ofBits (F := Ideal) .f32 0x00000000#32)
      (shapeCast S3x128x512 x0 shapeCasts_S1x3x128x512_S3x128x512 (ix3 c h w)))) = _
  rw [shapeCast_1abc_abc_apply]
  rfl

/-- The high nibbles, laid 3 x 65536: at (c, h * 512 + w) the high nibble of the pixel word at (c, h, w). -/
theorem highs_apply (x0 : Vec Ideal S1x3x128x512 .f32) (c : Fin 3) (h : Fin 128) (w : Fin 512) (n : Fin 65536)
    (hn : n.val = h.val * 512 + w.val) :
    k0_pay5 (F := Ideal) x0 (ix2 c n) = hiWord (Cert.Hist.bin (x0 (ix4 (0 : Fin 1) c h w))) := by
  rw [← pix_apply]
  exact shapeCast_apply (fun i => hiWord (k0_pay4 (F := Ideal) x0 i)) shapeCasts_S3x128x512_S3x65536 (ix2 c n) (ix3 c h w) (by
    rw [Shape.rowMajor_val_three, Shape.rowMajor_val_two]
    show (c.val * 128 + h.val) * 512 + w.val = c.val * 65536 + n.val
    omega)

/-- The low nibbles, likewise. -/
theorem lows_apply (x0 : Vec Ideal S1x3x128x512 .f32) (c : Fin 3) (h : Fin 128) (w : Fin 512) (n : Fin 65536)
    (hn : n.val = h.val * 512 + w.val) :
    k0_pay7 (k0_pay4 (F := Ideal) x0) 16#32 (k0_pay6 (F := Ideal) x0) (ix2 c n) = loWord (Cert.Hist.bin (x0 (ix4 (0 : Fin 1) c h w))) := by
  rw [← pix_apply]
  exact shapeCast_apply (fun i => loWord (k0_pay4 (F := Ideal) x0 i)) shapeCasts_S3x128x512_S3x65536 (ix2 c n) (ix3 c h w) (by
    rw [Shape.rowMajor_val_three, Shape.rowMajor_val_two]
    show (c.val * 128 + h.val) * 512 + w.val = c.val * 65536 + n.val
    omega)

theorem lanes_apply (p : Fin 16) : lanes (ix2 (0 : Fin 1) p) = BitVec.ofNat 32 p.val :=
  iota_single_apply .tc S1x16 32 1 iota_S1x16_d1_w32 (ix2 (0 : Fin 1) p)

/-- A sum over the 65536 pixels of a channel block is the sum over its 128 rows and 512 columns. -/
theorem sum_pixels {M : Type*} [AddCommMonoid M] (f : Fin 65536 → M) :
    ∑ n, f n = ∑ h : Fin 128, ∑ w : Fin 512, f ⟨h.val * 512 + w.val, by have := h.isLt; have := w.isLt; omega⟩ := by
  rw [← Equiv.sum_comp (finProdFinEquiv.trans (finCongr (by norm_num : 128 * 512 = 65536))), Fintype.sum_prod_type]
  refine Finset.sum_congr rfl fun h _ => Finset.sum_congr rfl fun w _ => ?_
  congr 1
  apply Fin.ext
  show w.val + 512 * h.val = h.val * 512 + w.val
  omega

/-- The 16 x 16 joint counts of the high and low nibbles of one channel row: the two one-hot matrices contracted over
    the pixels. -/
def rowCounts {F : FTy → Type} [FloatOps F] (off : Fin S3x65536.rank → Nat) (hs : S3x65536.Slices off S1x65536)
    (vh vl : IVec S3x65536 32) (l : IVec S1x16 32) : FVec F S16x16 .f32 :=
  matmul dot_S65536x16_S65536x16_S16x16_0_0_1_1_n_n none (oneHot (F := F) off hs vh l) (oneHot (F := F) off hs vl l)
    (constant S16x16 .f32 0x00000000#32)

/-- Entry (p, q) of a channel's joint counts is the number of its pixels whose bin is 16 p + q. -/
theorem rowCounts_apply (off : Fin S3x65536.rank → Nat) (hs : S3x65536.Slices off S1x65536) (r : Fin 3)
    (hrow : off 0 = r.val) (hcol : off 1 = 0) (x0 : Vec Ideal S1x3x128x512 .f32) (p q : Fin 16) :
    rowCounts (F := Ideal) off hs (k0_pay5 (F := Ideal) x0) (k0_pay7 (k0_pay4 (F := Ideal) x0) 16#32 (k0_pay6 (F := Ideal) x0)) lanes (ix2 p q)
      = ∑ h : Fin 128, ∑ w : Fin 512,
          (if (Cert.Hist.bin (x0 (ix4 (0 : Fin 1) r h w))).toNat = 16 * p.val + q.val then (1 : EReal) else 0) := by
  refine (matmul_rows _ _ p q).trans ?_
  rw [sum_pixels]
  refine Finset.sum_congr rfl fun h _ => Finset.sum_congr rfl fun w _ => ?_
  rw [oneHot_apply off hs _ _ r hrow hcol, oneHot_apply off hs _ _ r hrow hcol, highs_apply x0 r h w _ rfl, lows_apply x0 r h w _ rfl,
    lanes_apply, lanes_apply]
  exact nibbles_onehot _ (bin_lt _) p q

/-- A row of the accumulator plus a 16 x 16 matrix re-laid as 256 numbers, read at lane j. -/
theorem addRow_apply (old : FVec Ideal S1x256 .f32) (M : FVec Ideal S16x16 .f32) (j : Fin 256) :
    shapeCast S1x256 (addf (shapeCast S256 old shapeCasts_S1x256_S256) (shapeCast S256 M shapeCasts_S16x16_S256))
        shapeCasts_S256_S1x256 (ix2 (0 : Fin 1) j)
      = old (ix2 (0 : Fin 1) j) + M (ix2 (⟨j.val / 16, by have := j.isLt; omega⟩ : Fin 16) (⟨j.val % 16, by omega⟩ : Fin 16)) := by
  refine (shapeCast_a_1a_apply _ _ (0 : Fin 1) j).trans ?_
  show shapeCast S256 old shapeCasts_S1x256_S256 (ix1 j) + shapeCast S256 M shapeCasts_S16x16_S256 (ix1 j) = _
  rw [shapeCast_1a_a_apply]
  congr 1
  exact shapeCast_apply M _ (ix1 j) (ix2 (⟨j.val / 16, by have := j.isLt; omega⟩ : Fin 16) (⟨j.val % 16, by omega⟩ : Fin 16)) (by
    rw [Shape.rowMajor_val_two, Shape.rowMajor_val_one]
    show j.val / 16 * 16 + j.val % 16 = j.val
    omega)

/-- One channel's new accumulator row: the old row plus, at lane j, the number of the channel's pixels whose bin is j. -/
theorem row_apply (off : Fin S3x65536.rank → Nat) (hs : S3x65536.Slices off S1x65536) (r : Fin 3)
    (hrow : off 0 = r.val) (hcol : off 1 = 0) (x0 : Vec Ideal S1x3x128x512 .f32) (old : FVec Ideal S1x256 .f32) (j : Fin 256) :
    shapeCast S1x256 (addf (shapeCast S256 old shapeCasts_S1x256_S256)
        (shapeCast S256 (rowCounts (F := Ideal) off hs (k0_pay5 (F := Ideal) x0)
          (k0_pay7 (k0_pay4 (F := Ideal) x0) 16#32 (k0_pay6 (F := Ideal) x0)) lanes) shapeCasts_S16x16_S256))
        shapeCasts_S256_S1x256 (ix2 (0 : Fin 1) j)
      = old (ix2 (0 : Fin 1) j) + ∑ h : Fin 128, ∑ w : Fin 512, Cert.Hist.hit (x0 (ix4 (0 : Fin 1) r h w)) j := by
  rw [addRow_apply, rowCounts_apply off hs r hrow hcol]
  congr 1
  refine Finset.sum_congr rfl fun h _ => Finset.sum_congr rfl fun w _ => ?_
  have e : 16 * (j.val / 16) + j.val % 16 = j.val := by omega
  show (if _ = 16 * (j.val / 16) + j.val % 16 then (1 : EReal) else 0) = if _ = j.val then 1 else 0
  rw [e]

/-- The accumulator after a point: each entry (c, j) grows by the number of pixels of channel c in the block whose bin is j. -/
theorem stepAcc_apply (x0 : Vec Ideal S1x3x128x512 .f32) (s : Vec Ideal S3x256 .f32) (c : Fin 3) (j : Fin 256) :
    stepAcc (F := Ideal) x0 s (ix2 c j) = s (ix2 c j) + ∑ h : Fin 128, ∑ w : Fin 512, Cert.Hist.hit (x0 (ix4 0 c h w)) j := by
  match c with
  | ⟨0, _⟩ => exact row_apply ![0, 0] slices_S3x65536_o0_0_S1x65536 0 rfl rfl x0 (rowOf s 0) j
  | ⟨1, _⟩ => exact row_apply ![1, 0] slices_S3x65536_o1_0_S1x65536 1 rfl rfl x0 (rowOf s 1) j
  | ⟨2, _⟩ => exact row_apply ![2, 0] slices_S3x65536_o2_0_S1x65536 2 rfl rfl x0 (rowOf s 2) j

/-- The accumulator a group starts from is zero everywhere. -/
theorem zeroAcc_apply (i : S3x256.Idx) : zeroAcc (F := Ideal) i = 0 := by
  show Ideal.ofBits .f32 0x00000000#32 = 0
  exact Ideal.ofBits_zero_f32

end Cert.KernelIdeal.R0

end
-- ==== Proof.KI.R0.Acc.lean ====
/-
  The accumulator's point-by-point recurrence, and its closed form.

  At every point the accumulator is the point's update of what it held before: the all-zero array at the first point of
  a group of 64, the accumulator after the previous point otherwise. At the last point of a group the output block is
  the accumulator re-laid. Over exact arithmetic an update adds, at row ch and bin j, the number of pixels of channel ch
  in the point's block whose bin is j; so after the point numbered s of group g the accumulator holds the sum of those
  block counts over the points 0 … s of the group.
-/
import proofs.«178617_j19834158972940_1_alg».proof.Proof.KI.R0.Data
import proofs.«178617_j19834158972940_1_alg».proof.Proof.KI.R0.Pieces
import proofs.«178617_j19834158972940_1_alg».proof.Proof.KI.R0.StepMath
import Mathlib.Algebra.BigOperators.Fin
import Mathlib.Algebra.BigOperators.Group.Finset.Piecewise

set_option maxRecDepth 16384

noncomputable section

namespace Cert.KernelIdeal.R0

open Cert.KernelIdeal Cert.KernelIdeal.Gen
open Idealize.ShloMosaic Idealize.ShloMosaic.ValueIdx
open Idealize.ShloMosaic.Pipeline (Dat Cfg Window BodyObligation cellOf)

section Generic

variable {F : FTy → Type} [FloatOps F]

variable (W : Dev nD → Valuation τ sig (Elt F))

/-- The accumulator after point t is point t's update of the zero array (first point of a group) or of the
    accumulator after point t - 1 (any other point). -/
theorem accAt_step (c : Dev nD) (t : Fin cfg0.N) :
    accAt W c t.val t.isLt = stepAcc (iblk W c 0 t) (if h : t.val % 64 = 0 then zeroAcc else accAt W c (t.val - 1) (Nat.lt_of_le_of_lt (Nat.sub_le _ _) t.isLt)) := by
  by_cases h0 : t.val % 64 = 0
  · have hr : resetAt (grid0.coords t) := (resetAt_iff t).2 h0
    have hf : ¬flushAt (grid0.coords t) := fun hf => by have := (flushAt_iff t).1 hf; omega
    rw [dif_pos h0]
    exact (accAt_first W c t h0 hr hf).trans (pieces_first c _ _ _ _ _ hr hf _)
  · rw [dif_neg h0]
    have hr : ¬resetAt (grid0.coords t) := fun hr => h0 ((resetAt_iff t).1 hr)
    by_cases h1 : t.val % 64 = 63
    · have hf : flushAt (grid0.coords t) := (flushAt_iff t).2 h1
      exact (accAt_last W c t h1 hr hf).trans (pieces_last_acc c _ _ _ _ _ hr hf _ _)
    · have hf : ¬flushAt (grid0.coords t) := fun hf => h1 ((flushAt_iff t).1 hf)
      exact (accAt_inner W c t h0 h1 hr hf).trans (pieces_inner c _ _ _ _ _ hr hf _ _)

/-- At the last point of a group the output block is the accumulator after that point, re-laid. -/
theorem outAt_flush (c : Dev nD) (t : Fin cfg0.N) (h : t.val % 64 = 63) : outAt W c t.val t.isLt = outOf (accAt W c t.val t.isLt) := by
  have hr : ¬resetAt (grid0.coords t) := fun hr => by have := (resetAt_iff t).1 hr; omega
  have hf : flushAt (grid0.coords t) := (flushAt_iff t).2 h
  exact (outAt_last W c t h hr hf).trans ((pieces_last_out c _ _ _ _ _ hr hf _ _).trans
    (congrArg outOf ((accAt_last W c t h hr hf).trans (pieces_last_acc c _ _ _ _ _ hr hf _ _)).symm))

/-- The accumulator after a point depends on the point's number only. -/
theorem accAt_congr (c : Dev nD) {n m : ℕ} (h : n = m) (hn : n < cfg0.N) (hm : m < cfg0.N) : accAt W c n hn = accAt W c m hm := by
  subst h; rfl

/-- The recurrence over the point's number. -/
theorem accAt_step_nat (c : Dev nD) (n : ℕ) (hn : n < cfg0.N) :
    accAt W c n hn = stepAcc (iblk W c 0 ⟨n, hn⟩) (if h : n % 64 = 0 then zeroAcc else accAt W c (n - 1) (Nat.lt_of_le_of_lt (Nat.sub_le _ _) hn)) :=
  accAt_step W c ⟨n, hn⟩

end Generic

/-! ## Over exact arithmetic: the accumulator is a sum of block counts -/

section Exact

/-- Summing, over the indices of Fin m, the terms whose number is at most n + 1: the terms whose number is at most n,
    and the term numbered n + 1. -/
theorem sum_le_succ {M : Type*} [AddCommMonoid M] {m : ℕ} (f : Fin m → M) (n : ℕ) (hn : n + 1 < m) :
    (∑ s' : Fin m, if s'.val ≤ n + 1 then f s' else 0) = (∑ s' : Fin m, if s'.val ≤ n then f s' else 0) + f ⟨n + 1, hn⟩ := by
  have hsplit : ∀ s' : Fin m, (if s'.val ≤ n + 1 then f s' else 0) = (if s'.val ≤ n then f s' else 0) + (if s' = ⟨n + 1, hn⟩ then f s' else 0) := by
    intro s'
    by_cases h1 : s'.val ≤ n
    · have h2 : s'.val ≤ n + 1 := Nat.le_succ_of_le h1
      have h3 : ¬ s' = ⟨n + 1, hn⟩ := fun h => by rw [h] at h1; simp at h1
      rw [if_pos h1, if_pos h2, if_neg h3, add_zero]
    · by_cases h3 : s' = ⟨n + 1, hn⟩
      · have h2 : s'.val ≤ n + 1 := by rw [h3]
        rw [if_neg h1, if_pos h2, if_pos h3, zero_add]
      · have h2 : ¬ s'.val ≤ n + 1 := fun h => h3 (Fin.ext (by simp only []; omega))
        rw [if_neg h1, if_neg h2, if_neg h3, add_zero]
  rw [Finset.sum_congr rfl (fun s' _ => hsplit s'), Finset.sum_add_distrib, Finset.sum_ite_eq' Finset.univ (⟨n + 1, hn⟩ : Fin m) f,
    if_pos (Finset.mem_univ _)]

/-- Only the term numbered 0 has a number at most 0. -/
theorem sum_le_zero {M : Type*} [AddCommMonoid M] {m : ℕ} (f : Fin m → M) (hm : 0 < m) :
    (∑ s' : Fin m, if s'.val ≤ 0 then f s' else 0) = f ⟨0, hm⟩ := by
  have hsplit : ∀ s' : Fin m, (if s'.val ≤ 0 then f s' else 0) = (if s' = ⟨0, hm⟩ then f s' else 0) := by
    intro s'
    by_cases h3 : s' = ⟨0, hm⟩
    · have h1 : s'.val ≤ 0 := by rw [h3]
      rw [if_pos h1, if_pos h3]
    · have h1 : ¬ s'.val ≤ 0 := fun h => h3 (Fin.ext (by simp only []; omega))
      rw [if_neg h1, if_neg h3]
  rw [Finset.sum_congr rfl (fun s' _ => hsplit s'), Finset.sum_ite_eq' Finset.univ (⟨0, hm⟩ : Fin m) f, if_pos (Finset.mem_univ _)]

variable (W : Dev nD → Valuation τ sig (Elt Ideal))

/-- The pixels of channel ch in point t's block whose bin is j. -/
def blockCount (c : Dev nD) (t : Fin cfg0.N) (ch : Fin 3) (j : Fin 256) : EReal :=
  ∑ h : Fin 128, ∑ w : Fin 512, Cert.Hist.hit ((iblk W c 0 t : Vec Ideal S1x3x128x512 .f32) (ix4 0 ch h w)) j

/-- One point's update adds the point's block counts. -/
theorem accAt_apply (c : Dev nD) (n : ℕ) (hn : n < cfg0.N) (ch : Fin 3) (j : Fin 256) :
    accAt W c n hn (ix2 ch j)
      = (if h : n % 64 = 0 then zeroAcc else accAt W c (n - 1) (Nat.lt_of_le_of_lt (Nat.sub_le _ _) hn)) (ix2 ch j) + blockCount W c ⟨n, hn⟩ ch j := by
  rw [accAt_step_nat W c n hn]
  exact stepAcc_apply _ _ ch j

/-- After the point numbered s of group g, the accumulator holds at row ch and bin j the sum of the block counts of
    the group's points 0 … s. -/
theorem accAt_sum_nat (c : Dev nD) (g : Fin 2) (ch : Fin 3) (j : Fin 256) (n : ℕ) (hn : n < 64) (hlt : 64 * g.val + n < cfg0.N) :
    accAt W c (64 * g.val + n) hlt (ix2 ch j)
      = ∑ s' : Fin 64, if s'.val ≤ n then blockCount W c ⟨64 * g.val + s'.val, by have : cfg0.N = 128 := N_0; omega⟩ ch j else 0 := by
  induction n with
  | zero =>
    rw [accAt_apply, dif_pos (by omega), zeroAcc_apply, zero_add]
    exact (sum_le_zero (fun s' : Fin 64 => blockCount W c ⟨64 * g.val + s'.val, by have : cfg0.N = 128 := N_0; omega⟩ ch j) (by omega)).symm
  | succ n ih =>
    have hlt' : 64 * g.val + n < cfg0.N := by omega
    rw [accAt_apply, dif_neg (by omega), accAt_congr W c (by omega : 64 * g.val + (n + 1) - 1 = 64 * g.val + n) _ hlt', ih (by omega) hlt']
    exact (sum_le_succ (fun s' : Fin 64 => blockCount W c ⟨64 * g.val + s'.val, by have : cfg0.N = 128 := N_0; omega⟩ ch j) n hn).symm

theorem accAt_sum (c : Dev nD) (g : Fin 2) (s : Fin 64) (ch : Fin 3) (j : Fin 256) (hlt : 64 * g.val + s.val < cfg0.N) :
    accAt W c (64 * g.val + s.val) hlt (ix2 ch j)
      = ∑ s' : Fin 64, if s'.val ≤ s.val then blockCount W c ⟨64 * g.val + s'.val, by have : cfg0.N = 128 := N_0; omega⟩ ch j else 0 :=
  accAt_sum_nat W c g ch j s.val s.isLt hlt

end Exact

end Cert.KernelIdeal.R0

end
-- ==== Proof.KI.R0.BlockRead.lean ====
/-
  The input block at a point, read off the input array.

  The input window's index map sends the grid point (i0, i1, i2) to the block index (16 i0 + i1, 0, i2, 0); the grid
  2 x 16 x 4 is visited row-major, so at point t the block index is (t / 4, 0, t % 4, 0). A block has shape
  1 x 3 x 128 x 512, and along each axis the array coordinate of a block entry is block index times block size plus the
  coordinate inside the block. So the entry (0, ch, h, w) of point t's block is the array's entry
  (t / 4, ch, 128 (t % 4) + h, w).
-/
import proofs.«178617_j19834158972940_1_alg».proof.Proof.KI.R0.Shared
import Idealize.ShloMosaic.Lib.ValueIdx

set_option maxRecDepth 16384

noncomputable section

namespace Cert.KernelIdeal.R0

open Cert.KernelIdeal Cert.KernelIdeal.Gen
open Idealize.ShloMosaic Idealize.ShloMosaic.ValueIdx
open Idealize.ShloMosaic.Pipeline (Dat Cfg Window BodyObligation cellOf)

variable {F : FTy → Type} [FloatOps F]

/-- The input window's block index at point t, axis by axis: (t / 4, 0, t % 4, 0). -/
theorem inIndex_eq : ∀ t : Fin cfg0.N, win0_0.index t (0 : Fin 4) = t.val / 4 ∧ win0_0.index t (1 : Fin 4) = 0
    ∧ win0_0.index t (2 : Fin 4) = t.val % 4 ∧ win0_0.index t (3 : Fin 4) = 0 :=
  (by decide +kernel : ∀ t : Fin grid0.N, _)

variable (W : Dev nD → Valuation τ sig (Elt F))

/-- Entry (0, ch, h, w) of point t's input block is the input array's entry (t / 4, ch, 128 (t % 4) + h, w). -/
theorem iblk_apply (c : Dev nD) (t : Fin cfg0.N) (ch : Fin 3) (h : Fin 128) (w : Fin 512) :
    iblk W c 0 t (ix4 0 ch h w) = arrs W c main_arg0 (ix4 ⟨t.val / 4, by have : cfg0.N = 128 := N_0; omega⟩ ch ⟨128 * (t.val % 4) + h.val, by omega⟩ w) := by
  obtain ⟨e0, e1, e2, e3⟩ := inIndex_eq t
  unfold iblk
  show arrs W c main_arg0 (((cfg0.win 0).blk t).view.emb (ix4 0 ch h w)) = arrs W c main_arg0 _
  refine congrArg (arrs W c main_arg0) ?_
  funext a; apply Fin.ext
  match a with
  | ⟨0, _⟩ => show win0_0.index t (0 : Fin 4) * 1 + 1 * 0 = t.val / 4; omega
  | ⟨1, _⟩ => show win0_0.index t (1 : Fin 4) * 3 + 1 * ch.val = ch.val; omega
  | ⟨2, _⟩ => show win0_0.index t (2 : Fin 4) * 128 + 1 * h.val = 128 * (t.val % 4) + h.val; omega
  | ⟨3, _⟩ => show win0_0.index t (3 : Fin 4) * 512 + 1 * w.val = w.val; omega

end Cert.KernelIdeal.R0

end
-- ==== Proof.Reindex.lean ====
/-
  Re-indexing the pixels of an image batch by the blocks a grid of 2 x 64 points reads.

  The batch has 32 images of 512 rows. Point t = 64 g + s (g < 2, s < 64) reads rows 128 (t mod 4) ... 128 (t mod 4) + 127
  of image t div 4: the 128 points' row blocks tile the 32 x 512 (image, row) pairs, each pair met once. So a sum over
  groups, points of a group and rows of a block is the sum over images and rows.
-/
import Mathlib.Data.Fintype.BigOperators
import Mathlib.Algebra.BigOperators.Group.Finset.Basic

namespace Cert.Hist

/-- Group g, point s of the group and row h of the point's block, against image b and row r of the image:
    b = (64 g + s) div 4, r = 128 ((64 g + s) mod 4) + h. -/
def blockRowEquiv : Fin 2 × Fin 64 × Fin 128 ≃ Fin 32 × Fin 512 where
  toFun x := (⟨(64 * x.1.val + x.2.1.val) / 4, by have := x.1.isLt; have := x.2.1.isLt; omega⟩,
    ⟨128 * ((64 * x.1.val + x.2.1.val) % 4) + x.2.2.val, by have := x.2.2.isLt; omega⟩)
  invFun y := (⟨y.1.val / 16, by have := y.1.isLt; omega⟩,
    ⟨(y.1.val % 16) * 4 + y.2.val / 128, by have := y.2.isLt; omega⟩,
    ⟨y.2.val % 128, by omega⟩)
  left_inv x := by
    obtain ⟨g, s, h⟩ := x
    have hg := g.isLt; have hs := s.isLt; have hh := h.isLt
    refine Prod.ext (Fin.ext ?_) (Prod.ext (Fin.ext ?_) (Fin.ext ?_))
    · show (64 * g.val + s.val) / 4 / 16 = g.val; omega
    · show ((64 * g.val + s.val) / 4) % 16 * 4 + (128 * ((64 * g.val + s.val) % 4) + h.val) / 128 = s.val; omega
    · show (128 * ((64 * g.val + s.val) % 4) + h.val) % 128 = h.val; omega
  right_inv y := by
    obtain ⟨b, r⟩ := y
    have hb := b.isLt; have hr := r.isLt
    refine Prod.ext (Fin.ext ?_) (Fin.ext ?_)
    · show (64 * (b.val / 16) + (b.val % 16 * 4 + r.val / 128)) / 4 = b.val; omega
    · show 128 * ((64 * (b.val / 16) + (b.val % 16 * 4 + r.val / 128)) % 4) + r.val % 128 = r.val; omega

/-- The sum over groups, points of a group, rows of a block and columns is the sum over images, rows and columns. -/
theorem sum_points {M : Type*} [AddCommMonoid M] (f : Fin 32 → Fin 512 → Fin 512 → M) :
    (∑ g : Fin 2, ∑ s : Fin 64, ∑ h : Fin 128, ∑ w : Fin 512,
        f ⟨(64 * g.val + s.val) / 4, by have := g.isLt; have := s.isLt; omega⟩
          ⟨128 * ((64 * g.val + s.val) % 4) + h.val, by have := h.isLt; omega⟩ w)
      = ∑ b : Fin 32, ∑ r : Fin 512, ∑ w : Fin 512, f b r w := by
  have e := Equiv.sum_comp blockRowEquiv (fun y : Fin 32 × Fin 512 => ∑ w : Fin 512, f y.1 y.2 w)
  rw [Fintype.sum_prod_type, Fintype.sum_prod_type] at e
  simp only [Fintype.sum_prod_type] at e
  exact e

end Cert.Hist
-- ==== Proof.KI.R0.Value.lean ====
/-
  What one launch of the histogram kernel leaves in its output array, and the host's sum of it over the two groups.

  Only the last point of each group of 64 writes the output window back, and what it writes is the accumulator after
  that point, re-laid as a 1 x 3 x 256 block; the window's index map sends the grid point (i0, i1, i2) to the block
  index (i0, 0, 0), so group g's block is row g of the 2 x 3 x 256 output array. The two blocks tile the array: after
  the launch, entry (g, ch, j) of the array is entry (ch, j) of the accumulator after point 64 g + 63.

  Over exact arithmetic that accumulator entry is the sum over the group's 64 points of the number of pixels of channel
  ch in the point's block whose bin is j. The host then sums the array over its first axis, from zero: the sum over
  both groups, all their points, and each block's rows and columns. The 128 blocks tile the batch (point t reads rows
  128 (t mod 4) ... of image t div 4), so this is the number of pixels of channel ch in the whole batch whose bin is j.
-/
import proofs.«178617_j19834158972940_1_alg».proof.Proof.KI.R0.Acc
import proofs.«178617_j19834158972940_1_alg».proof.Proof.KI.R0.BlockRead
import proofs.«178617_j19834158972940_1_alg».proof.Proof.Reindex
import proofs.«178617_j19834158972940_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.R0

open Cert.KernelIdeal Cert.KernelIdeal.Gen
open Idealize.ShloMosaic Idealize.ShloMosaic.ValueIdx
open Idealize.ShloMosaic.Pipeline (Dat Cfg Window BodyObligation cellOf)

section Array

variable {F : FTy → Type} [FloatOps F]

/-- The output window's block index at point t, axis by axis: (t / 64, 0, 0). -/
theorem outIndex_eq : ∀ t : Fin cfg0.N, win0_1.index t (0 : Fin 3) = t.val / 64 ∧ win0_1.index t (1 : Fin 3) = 0
    ∧ win0_1.index t (2 : Fin 3) = 0 :=
  (by decide +kernel : ∀ t : Fin grid0.N, _)

/-- The re-laid accumulator reads entry (0, ch, j) at the accumulator's entry (ch, j). -/
theorem outOf_apply (s : Vec F S3x256 .f32) (y : S1x3x256.Idx) : outOf s y = s (ix2 (y 1) (y 2)) := by
  unfold outOf k0_pay2
  refine (shapeCast_addUnit_apply ![3, 256] s _ y).trans ?_
  exact congrArg s (funext fun a => by match a with | ⟨0, _⟩ => rfl | ⟨1, _⟩ => rfl)

variable (W : Dev nD → Valuation τ sig (Elt F))

/-- The output array after the launch: entry (g, ch, j) is entry (ch, j) of the accumulator after the last point of
    group g. -/
def finalOut (c : Dev nD) : Vec F S2x3x256 .f32 := fun i =>
  accAt W c (64 * (i 0).val + 63) (by have : cfg0.N = 128 := N_0; have h : (i 0).val < 2 := (i 0).isLt; omega) (ix2 (i 1) (i 2))

/-- At an index of group t / 64's row, with t the last point of its group, that is the accumulator after t. -/
theorem finalOut_read (c : Dev nD) (t : Fin cfg0.N) (h63 : t.val % 64 = 63) (i : S2x3x256.Idx) (y : S1x3x256.Idx)
    (h0 : (i 0).val = t.val / 64) (h1 : (i 1).val = (y 1).val) (h2 : (i 2).val = (y 2).val) :
    finalOut W c i = accAt W c t.val t.isLt (ix2 (y 1) (y 2)) := by
  unfold finalOut
  refine (congrFun (accAt_congr W c (by rw [h0]; omega) _ t.isLt) _).trans (congrArg _ ?_)
  funext a
  match a with
  | ⟨0, _⟩ => exact Fin.ext h1
  | ⟨1, _⟩ => exact Fin.ext h2

/-- What the last point of a group writes back is its block of that array. -/
theorem flushed_eq (c : Dev nD) (t : Fin cfg0.N) (hf : (cfg0.win 1).flush t = true) :
    (dat0 W c).flushed 1 t = ((cfg0.win 1).blk t).view.read (Elt F) (finalOut W c) := by
  have h63 : t.val % 64 = 63 := (flush0_1 t).mp hf
  obtain ⟨e0, e1, e2⟩ := outIndex_eq t
  show (cfg0.win 1).cut (grid0.coords t) ((dat0 W c).after 1 t) = _
  rw [after_out, outAt_flush W c t h63]
  funext y
  show outOf (accAt W c t.val t.isLt) y = finalOut W c (((cfg0.win 1).blk t).view.emb y)
  refine (outOf_apply _ y).trans (finalOut_read W c t h63 _ y ?_ ?_ ?_).symm
  · show win0_1.index t (0 : Fin 3) * 1 + 1 * (y 0).val = t.val / 64
    have hy : (y 0).val < 1 := (y 0).isLt
    omega
  · show win0_1.index t (1 : Fin 3) * 3 + 1 * (y 1).val = (y 1).val
    omega
  · show win0_1.index t (2 : Fin 3) * 256 + 1 * (y 2).val = (y 2).val
    omega

/-- An index of the output array is in point t's block iff each coordinate is in the block's range on its axis. -/
theorem mem_outBlk (t : Fin cfg0.N) (i : S2x3x256.Idx) :
    i ∈ ((cfg0.win 1).blk t).view.set ↔ ∀ a : Fin 3, win0_1.index t a * S1x3x256.size a ≤ (i a).val ∧ (i a).val < win0_1.index t a * S1x3x256.size a + S1x3x256.size a := by
  show i ∈ ((View.whole main_v0).slice (win0_1.rect t)).set ↔ _
  rw [View.set_slice_whole, Rect.mem_set_unit]
  exact Iff.rfl

/-- Every index of the output array lies in the block of the last point of its group. -/
theorem out_cover (i : S2x3x256.Idx) : ∃ t : Fin cfg0.N, (cfg0.win 1).flush t = true ∧ i ∈ ((cfg0.win 1).blk t).view.set := by
  have hN : cfg0.N = 128 := N_0
  have hi0 : (i 0).val < 2 := (i 0).isLt
  have hi1 : (i 1).val < 3 := (i 1).isLt
  have hi2 : (i 2).val < 256 := (i 2).isLt
  obtain ⟨t, ht⟩ : ∃ t : Fin cfg0.N, t.val = 64 * (i 0).val + 63 := ⟨⟨64 * (i 0).val + 63, by omega⟩, rfl⟩
  refine ⟨t, (flush0_1 t).mpr (by omega), ?_⟩
  obtain ⟨e0, e1, e2⟩ := outIndex_eq t
  rw [mem_outBlk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 3 ≤ (i 1).val ∧ (i 1).val < win0_1.index t (1 : Fin 3) * 3 + 3; omega
  | ⟨2, _⟩ => show win0_1.index t (2 : Fin 3) * 256 ≤ (i 2).val ∧ (i 2).val < win0_1.index t (2 : Fin 3) * 256 + 256; omega

/-- The output array after the launch. -/
theorem arrAt_out (c : Dev nD) : (dat0 W c).arrAt 1 cfg0.N = finalOut W c :=
  (dat0 W c).arrAt_eq_of_cover 1 (finalOut W c) (flushed_eq W c) out_cover

end Array

section Exact

variable (W : Dev nD → Valuation τ sig (Elt Ideal))

/-- The host's sum of a 2 x 3 x 256 array over its first axis, from zero, at (ch, j): the sum of the two groups'
    entries. -/
theorem reduce_groups (x : Vec Ideal S2x3x256 .f32) (ch : Fin 3) (j : Fin 256) :
    Host.reduceAdd (F := Ideal) x (constant (F := Ideal) S_ .f32 0x00000000#32) reducesTo_S2x3x256_S3x256_d0 h_S_ (ix2 ch j)
      = ∑ g : Fin 2, x (ix3 g ch j) := by
  simp only [Host.reduceAdd, Ideal.hostReduceAdd_def]
  rw [Ideal.hostReduceAdd_single reducesTo_S2x3x256_S3x256_d0 (by decide)]
  rw [constant_apply, Ideal.ofBits_zero_f32, zero_add]
  refine Finset.sum_congr rfl fun g _ => ?_
  exact congrArg x (funext fun a => Fin.ext (by match a with | ⟨0, _⟩ => rfl | ⟨1, _⟩ => rfl | ⟨2, _⟩ => rfl))

/-- The accumulator after the last point of group g holds the block counts of all 64 points of the group. -/
theorem finalOut_apply (c : Dev nD) (g : Fin 2) (ch : Fin 3) (j : Fin 256) :
    finalOut W c (ix3 g ch j) = ∑ s : Fin 64, blockCount W c ⟨64 * g.val + s.val, by have : cfg0.N = 128 := N_0; omega⟩ ch j := by
  have hN : cfg0.N = 128 := N_0
  show accAt W c (64 * g.val + 63) _ (ix2 ch j) = _
  refine (accAt_sum W c g ⟨63, by omega⟩ ch j (by show 64 * g.val + 63 < cfg0.N; omega)).trans ?_
  refine Finset.sum_congr rfl fun s _ => ?_
  exact if_pos (by show s.val ≤ 63; omega)

/-- THE HISTOGRAM OF ONE LAUNCH: the host's sum over the two groups of the launch's output array is the histogram of
    the input batch. -/
theorem hist_of_region (c : Dev nD) :
    Host.reduceAdd (F := Ideal) ((dat0 W c).arrAt 1 cfg0.N : Vec Ideal S2x3x256 .f32) (constant (F := Ideal) S_ .f32 0x00000000#32) reducesTo_S2x3x256_S3x256_d0 h_S_
      = Cert.Hist.histArr (arrs W c main_arg0) := by
  funext i
  obtain ⟨ch, j, rfl⟩ : ∃ (ch : Fin 3) (j : Fin 256), i = ix2 ch j := ⟨i 0, i 1, eq_ix2 i⟩
  rw [arrAt_out W c, reduce_groups]
  show _ = Cert.Hist.count (arrs W c main_arg0) ch j
  unfold Cert.Hist.count
  rw [← Cert.Hist.sum_points (fun b h w => Cert.Hist.hit (arrs W c main_arg0 (ix4 b ch h w)) j)]
  refine Finset.sum_congr rfl fun g _ => ?_
  rw [finalOut_apply]
  refine Finset.sum_congr rfl fun s _ => ?_
  unfold blockCount
  refine Finset.sum_congr rfl fun h _ => Finset.sum_congr rfl fun w _ => ?_
  exact congrArg (Cert.Hist.hit · j) (iblk_apply W c _ ch h w)

end Exact

end Cert.KernelIdeal.R0

end
-- ==== Proof.KI.R1.Step.lean ====
/-
  One grid point's update of the 3 x 256 accumulator, as a function of the input block and of what the accumulator
  held: row c of the new accumulator is row c of the old one plus the 16 x 16 joint counts of channel c's high and low
  nibbles, re-laid as 256 numbers. Stated with the body's own value terms, row by row, so that the run's stores and
  the arithmetic about them meet in one name.
-/
import proofs.«178617_j19834158972940_1_alg».proof.Proof.Gen.KernelIdeal.Skeleton
import Idealize.ShloMosaic.Lib.ValueIdx

noncomputable section

namespace Cert.KernelIdeal.R1

open Cert.KernelIdeal Cert.KernelIdeal.Gen
open Idealize.ShloMosaic Idealize.ShloMosaic.ValueIdx

variable {F : FTy → Type} [FloatOps F]

/-- Row `r` of a 3 x 256 array, as a 1 x 256 vector. -/
def rowOf (s : Vec F S3x256 .f32) (r : Fin 3) : Vec F S1x256 .f32 := fun y => s (ix2 r (y 1))

/-- The lane numbers 0 … 15 the nibbles are compared with. -/
abbrev lanes : IVec S1x16 32 := iota .tc S1x16 32 [1] iota_S1x16_d1_w32

/-- The block's pixels as integers, their high nibbles and their low nibbles, as the body computes them. -/
abbrev pix (x0 : Vec F S1x3x128x512 .f32) : IVec S3x128x512 32 := k1_pay4 x0
abbrev highs (x0 : Vec F S1x3x128x512 .f32) : IVec S3x65536 32 := k1_pay5 x0
abbrev lows (x0 : Vec F S1x3x128x512 .f32) : IVec S3x65536 32 := k1_pay7 (k1_pay4 x0) 16#32 (k1_pay6 x0)

/-- The three rows the body stores at a point. -/
def newRow0 (x0 : Vec F S1x3x128x512 .f32) (s : Vec F S3x256 .f32) : FVec F S1x256 .f32 :=
  k1_pay9 (k1_pay8 (pix x0) (highs x0) 16#32 (k1_pay6 x0) (rowOf s 0))
def newRow1 (x0 : Vec F S1x3x128x512 .f32) (s : Vec F S3x256 .f32) : FVec F S1x256 .f32 :=
  k1_pay10 (highs x0) (lows x0) lanes (rowOf s 1)
def newRow2 (x0 : Vec F S1x3x128x512 .f32) (s : Vec F S3x256 .f32) : FVec F S1x256 .f32 :=
  k1_pay1 (k1_pay11 (F := F) (highs x0) (lows x0) lanes) (rowOf s 2)

/-- The accumulator after a point, from the input block `x0` and the accumulator before the rows are updated `s`. -/
def stepAcc (x0 : Vec F S1x3x128x512 .f32) (s : Vec F S3x256 .f32) : Vec F S3x256 .f32 := fun i =>
  match (i 0).val with
  | 0 => newRow0 x0 s (ix2 0 (i 1))
  | 1 => newRow1 x0 s (ix2 0 (i 1))
  | _ => newRow2 x0 s (ix2 0 (i 1))

/-- The all-zero accumulator the first point of a group starts from. -/
abbrev zeroAcc : Vec F S3x256 .f32 := k1_pay3 (F := F)

/-- What the last point of a group copies out: the accumulator re-laid as a 1 x 3 x 256 block. -/
abbrev outOf (s : Vec F S3x256 .f32) : Vec F S1x3x256 .f32 := k1_pay2 s

end Cert.KernelIdeal.R1

end
-- ==== Proof.KI.R1.Pieces.lean ====
/-
  What the pieces a grid point stores read back as. The body loads a row of the 3 x 256 accumulator, adds the block's
  joint counts for that channel and stores the row back, for rows 0, 1, 2 in turn; the three stored rows tile the
  accumulator, so reading it back row by row gives the one-step update of what the rows were loaded from: the
  accumulator as found at an inner or a last point, the zeros stored just before at the first point of a group. At a
  last point the accumulator so updated is then loaded whole and stored, re-laid, over the whole output buffer.
-/
import proofs.«178617_j19834158972940_1_alg».proof.Proof.KI.R1.Covers
import proofs.«178617_j19834158972940_1_alg».proof.Proof.KI.R1.Step
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-- The zero offsets of a rectangle of rank 4, 3 and 2, as the constant function. -/
theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-! ## One row of the accumulator: its rectangle, a load through it, a store through it -/

/-- A load through the rectangle of row `o` (one row, all 256 columns) reads that row. -/
theorem ld_row (s : Vec F S3x256 .f32) (o : ℕ) (ho : o < 3) (inb : ∀ a, (![o, 0] : Fin 2 → Nat) a + S1x256.size a ≤ S3x256.size a) :
    View.ld s (Rect.unit (s := S3x256) ![o, 0] S1x256.size inb) = rowOf s ⟨o, ho⟩ := by
  funext x
  show s ((Rect.unit (s := S3x256) ![o, 0] S1x256.size inb).idx x) = s (ix2 ⟨o, ho⟩ (x 1))
  refine congrArg s (funext fun a => Fin.ext ?_)
  have h0 : (x 0).val < 1 := (x 0).isLt
  match a with
  | ⟨0, _⟩ => show o + 1 * (x 0).val = o; omega
  | ⟨1, _⟩ => show 0 + 1 * (x 1).val = (x 1).val; omega

/-- A load of row `o` after the stores `L` reads row `o` of what they leave. -/
theorem readCov_row (v : View sig .tc .vmem S3x256 .f32) (L : List (View.Piece (Elt F) S3x256 .f32)) (o : ℕ) (ho : o < 3)
    (inb : ∀ a, (![o, 0] : Fin 2 → Nat) a + S1x256.size a ≤ S3x256.size a) :
    v.readCov L (Rect.unit (s := S3x256) ![o, 0] S1x256.size inb).toLoadRect = rowOf (View.canon L) ⟨o, ho⟩ :=
  (View.readCov_eq_canon' v L _).trans (ld_row (View.canon L) o ho inb)

/-- An index of another row is not in row `o`'s rectangle. -/
theorem not_mem_row (o : ℕ) (inb : ∀ a, (![o, 0] : Fin 2 → Nat) a + S1x256.size a ≤ S3x256.size a) (r : Fin 3) (h : r.val ≠ o) (j : Fin 256) :
    (ix2 r j : S3x256.Idx) ∉ (Rect.unit (s := S3x256) ![o, 0] S1x256.size inb).set := by
  rw [Rect.mem_set_unit]
  intro hm
  have h0 : o ≤ r.val ∧ r.val < o + 1 := hm 0
  omega

/-- Off the row last stored, what the stores leave is what the earlier ones left; -/
theorem canon_row_ne (o : ℕ) (inb : ∀ a, (![o, 0] : Fin 2 → Nat) a + S1x256.size a ≤ S3x256.size a)
    (w : (Rect.unit (s := S3x256) ![o, 0] S1x256.size inb).shape.Idx → Elt F .f32) (L : List (View.Piece (Elt F) S3x256 .f32))
    (r : Fin 3) (h : r.val ≠ o) (j : Fin 256) :
    View.canon ((⟨Rect.unit (s := S3x256) ![o, 0] S1x256.size inb, w⟩ : View.Piece (Elt F) S3x256 .f32) :: L) (ix2 r j) = View.canon L (ix2 r j) :=
  View.canon_cons_of_not_mem _ _ (not_mem_row o inb r h j)

/-- on it, the stored row. -/
theorem canon_row_eq (o : ℕ) (ho : o < 3) (inb : ∀ a, (![o, 0] : Fin 2 → Nat) a + S1x256.size a ≤ S3x256.size a)
    (w : Vec F S1x256 .f32) (L : List (View.Piece (Elt F) S3x256 .f32)) (j : Fin 256) :
    View.canon ((⟨Rect.unit (s := S3x256) ![o, 0] S1x256.size inb, w⟩ : View.Piece (Elt F) S3x256 .f32) :: L) (ix2 ⟨o, ho⟩ j) = w (ix2 0 j) := by
  have e : (Rect.unit (s := S3x256) ![o, 0] S1x256.size inb).emb (ix2 (0 : Fin 1) j) = ix2 ⟨o, ho⟩ j :=
    funext fun a => Fin.ext (by
      match a with
      | ⟨0, _⟩ => show o + 1 * 0 = o; omega
      | ⟨1, _⟩ => show 0 + 1 * j.val = j.val; omega)
  rw [← e]
  exact View.canon_cons_emb (Rect.unit (s := S3x256) ![o, 0] S1x256.size inb) w L _

/-- So a row other than the one last stored is a row of what the earlier stores left. -/
theorem rowOf_canon_ne (o : ℕ) (inb : ∀ a, (![o, 0] : Fin 2 → Nat) a + S1x256.size a ≤ S3x256.size a)
    (w : Vec F S1x256 .f32) (L : List (View.Piece (Elt F) S3x256 .f32)) (r : Fin 3) (h : r.val ≠ o) :
    rowOf (View.canon ((⟨Rect.unit (s := S3x256) ![o, 0] S1x256.size inb, w⟩ : View.Piece (Elt F) S3x256 .f32) :: L)) r = rowOf (View.canon L) r :=
  funext fun x => canon_row_ne o inb w L r h (x 1)

/-- Three stores, of rows 0, 1, 2 in that order over whatever was stored before, leave those rows. -/
theorem canon_rows (w0 w1 w2 : Vec F S1x256 .f32) (L : List (View.Piece (Elt F) S3x256 .f32)) :
    View.canon ((⟨Rect.unit (s := S3x256) ![2, 0] S1x256.size inb_S3x256_S1x256_2_0, w2⟩ : View.Piece (Elt F) S3x256 .f32)
      :: ⟨Rect.unit (s := S3x256) ![1, 0] S1x256.size inb_S3x256_S1x256_1_0, w1⟩
      :: ⟨Rect.unit (s := S3x256) ![0, 0] S1x256.size inb_S3x256_S1x256_0_0, w0⟩ :: L)
      = fun y => match (y 0).val with
        | 0 => w0 (ix2 0 (y 1))
        | 1 => w1 (ix2 0 (y 1))
        | _ => w2 (ix2 0 (y 1)) := by
  funext y
  obtain ⟨r, j, rfl⟩ : ∃ (r : Fin 3) (j : Fin 256), y = ix2 r j := ⟨y 0, y 1, eq_ix2 y⟩
  match r with
  | ⟨0, _⟩ =>
    rw [canon_row_ne 2 _ _ _ _ (by show (0 : ℕ) ≠ 2; decide), canon_row_ne 1 _ _ _ _ (by show (0 : ℕ) ≠ 1; decide)]
    exact canon_row_eq 0 (by decide) _ w0 L j
  | ⟨1, _⟩ =>
    rw [canon_row_ne 2 _ _ _ _ (by show (1 : ℕ) ≠ 2; decide)]
    exact canon_row_eq 1 (by decide) _ w1 _ j
  | ⟨2, _⟩ => exact canon_row_eq 2 (by decide) _ w2 _ j

/-- The accumulator's raw contents that read `s` read `s`. -/
theorem read_acc (s : Vec F S3x256 .f32) :
    View.read (Elt F) (View.whole cc1_scratch0) ((Memref.isWhole_whole cc1_scratch0).unread s) = s :=
  (Memref.isWhole_whole cc1_scratch0).read_unread s

/-- A load of the whole accumulator after the stores `L` reads what they leave. -/
theorem readCov_whole (v : View sig .tc .vmem S3x256 .f32) (L : List (View.Piece (Elt F) S3x256 .f32))
    (inb : ∀ a, (![0, 0] : Fin 2 → Nat) a + S3x256.size a ≤ S3x256.size a) :
    v.readCov L (Rect.unit (s := S3x256) ![0, 0] S3x256.size inb).toLoadRect = View.canon L :=
  (View.readCov_eq_canon' v L _).trans (View.ld_unit_zero (S := S3x256) hz2 inb (View.canon L))

/-! ## The pieces of each kind of point, read back -/

/-- At the first point of a group the accumulator reads back as one step from the zeros stored just before. -/
theorem pieces_first (c : Dev nD) (i : grid1.Coords) (arg3 : Memref sig .tc .vmem S1x3x128x512 .f32) (harg3 : arg3.IsWhole) (arg4 : Memref sig .tc .vmem S1x3x256 .f32) (harg4 : arg4.IsWhole) (hr : resetAt i) (hf : ¬flushAt i) (x0 : Vec F S1x3x128x512 .f32) :
    accView.read (Elt F) (accView.writes (Elt F) accView.junk (runFirst c i arg3 harg3 arg4 harg4 accBuf (Memref.isWhole_whole _) hr hf x0).1) = stepAcc x0 zeroAcc := by
  rw [View.read_writes_junk_eq_canon]
  unfold runFirst
  dsimp only
  sl_unfold_words
  refine (canon_rows _ _ _ _).trans ?_
  simp only [View.readAt_eq_ld, harg3.read_unread, View.ld_unit_zero (S := S1x3x128x512) hz4,
    readCov_row _ _ 0 (by decide), readCov_row _ _ 1 (by decide), readCov_row _ _ 2 (by decide),
    rowOf_canon_ne 1 _ _ _ ⟨2, by decide⟩ (by decide), rowOf_canon_ne 0 _ _ _ ⟨2, by decide⟩ (by decide),
    rowOf_canon_ne 0 _ _ _ ⟨1, by decide⟩ (by decide), View.canon_unit_zero (S := S3x256) hz2]
  rfl

/-- At an inner point it reads back as one step from what it held. -/
theorem pieces_inner (c : Dev nD) (i : grid1.Coords) (arg3 : Memref sig .tc .vmem S1x3x128x512 .f32) (harg3 : arg3.IsWhole) (arg4 : Memref sig .tc .vmem S1x3x256 .f32) (harg4 : arg4.IsWhole) (hr : ¬resetAt i) (hf : ¬flushAt i) (x0 : Vec F S1x3x128x512 .f32) (s0 : Vec F S3x256 .f32) :
    accView.read (Elt F) (accView.writes (Elt F) accView.junk (runInner c i arg3 harg3 arg4 harg4 accBuf (Memref.isWhole_whole _) hr hf x0 s0).1) = stepAcc x0 s0 := by
  rw [View.read_writes_junk_eq_canon]
  unfold runInner
  dsimp only
  sl_unfold_words
  refine (canon_rows _ _ _ _).trans ?_
  simp only [View.readAt_eq_ld, harg3.read_unread, read_acc, View.ld_unit_zero (S := S1x3x128x512) hz4,
    ld_row s0 0 (by decide) inb_S3x256_S1x256_0_0, ld_row s0 1 (by decide) inb_S3x256_S1x256_1_0, ld_row s0 2 (by decide) inb_S3x256_S1x256_2_0]
  rfl

/-- At the last point of a group likewise, -/
theorem pieces_last_acc (c : Dev nD) (i : grid1.Coords) (arg3 : Memref sig .tc .vmem S1x3x128x512 .f32) (harg3 : arg3.IsWhole) (arg4 : Memref sig .tc .vmem S1x3x256 .f32) (harg4 : arg4.IsWhole) (hr : ¬resetAt i) (hf : flushAt i) (x0 : Vec F S1x3x128x512 .f32) (s0 : Vec F S3x256 .f32) :
    accView.read (Elt F) (accView.writes (Elt F) accView.junk (runLast c i arg3 harg3 arg4 harg4 accBuf (Memref.isWhole_whole _) hr hf x0 s0).2.1) = stepAcc x0 s0 := by
  rw [View.read_writes_junk_eq_canon]
  unfold runLast
  dsimp only
  sl_unfold_words
  refine (canon_rows _ _ _ _).trans ?_
  simp only [View.readAt_eq_ld, harg3.read_unread, read_acc, View.ld_unit_zero (S := S1x3x128x512) hz4,
    ld_row s0 0 (by decide) inb_S3x256_S1x256_0_0, ld_row s0 1 (by decide) inb_S3x256_S1x256_1_0, ld_row s0 2 (by decide) inb_S3x256_S1x256_2_0]
  rfl

/-- and the output's buffer reads back as that accumulator re-laid. -/
theorem pieces_last_out (c : Dev nD) (i : grid1.Coords) (arg3 : Memref sig .tc .vmem S1x3x128x512 .f32) (harg3 : arg3.IsWhole) (arg4 : Memref sig .tc .vmem S1x3x256 .f32) (harg4 : arg4.IsWhole) (hr : ¬resetAt i) (hf : flushAt i) (x0 : Vec F S1x3x128x512 .f32) (s0 : Vec F S3x256 .f32) :
    outView.read (Elt F) (outView.writes (Elt F) outView.junk (runLast c i arg3 harg3 arg4 harg4 accBuf (Memref.isWhole_whole _) hr hf x0 s0).1) = outOf (stepAcc x0 s0) := by
  rw [View.read_writes_junk_eq_canon]
  unfold runLast
  dsimp only
  sl_unfold_words
  rw [View.canon_unit_zero (S := S1x3x256) hz3]
  refine congrArg k1_pay2 ?_
  rw [readCov_whole]
  refine (canon_rows _ _ _ _).trans ?_
  simp only [View.readAt_eq_ld, harg3.read_unread, read_acc, View.ld_unit_zero (S := S1x3x128x512) hz4,
    ld_row s0 0 (by decide) inb_S3x256_S1x256_0_0, ld_row s0 1 (by decide) inb_S3x256_S1x256_1_0, ld_row s0 2 (by decide) inb_S3x256_S1x256_2_0]
  rfl

end Cert.KernelIdeal.R1

end
-- ==== Proof.KI.R1.StepMath.lean ====
/-
  The arithmetic of one grid point, at the extended reals.

  A pixel value is clipped to [0, 255] and truncated, so its bin v is a word with 0 ≤ v < 256. The body splits v by a
  signed floor division by sixteen into a high nibble v / 16 and a low nibble v - 16 (v / 16) = v mod 16, both in
  0 … 15 (checked once over the 256 words). For a channel, the 65536 x 16 one-hot matrix of the high nibbles and that
  of the low nibbles are contracted over the pixels onto a zero matrix: entry (p, q) of the 16 x 16 result is the sum
  over pixels of the product of the two indicators, and that product is the indicator of v = 16 p + q. Re-laid as 256
  numbers, entry (p, q) sits at lane 16 p + q, so lane j of the channel's new accumulator row is the old lane plus the
  number of the channel's pixels, over the block's 128 rows and 512 columns, whose bin is j.
-/
import proofs.«178617_j19834158972940_1_alg».proof.Proof.KI.R1.Step
import proofs.«178617_j19834158972940_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.R1

open Cert.KernelIdeal Cert.KernelIdeal.Gen
open Idealize.ShloMosaic Idealize.ShloMosaic.ValueIdx

/-- The high nibble of a word, as the body's floor-division chain computes it. -/
def hiWord (v : BitVec 32) : BitVec 32 :=
  Scalar.select
    (IntOp.andi
      (IntOp.cmpi .ne
        (IntOp.subi ((IntOp.cmpi .sgt v 0#32).setWidth 32) ((IntOp.cmpi .slt v 0#32).setWidth 32))
        (Scalar.subi (Scalar.extui (Scalar.cmpi .sgt 16#32 0#32)) (Scalar.extui (Scalar.cmpi .slt 16#32 0#32))))
      (IntOp.cmpi .ne (IntOp.remsi .vector v 16#32) 0#32))
    (IntOp.subi (IntOp.divsi .vector v 16#32) 1#32)
    (IntOp.divsi .vector v 16#32)

/-- The low nibble of a word: the word minus sixteen times its high nibble. -/
def loWord (v : BitVec 32) : BitVec 32 := IntOp.subi v (IntOp.muli (hiWord v) 16#32)

theorem hiWord_ofNat : ∀ n : Fin 256, hiWord (BitVec.ofNat 32 n.val) = BitVec.ofNat 32 (n.val / 16) := by
  decide +kernel

theorem loWord_ofNat : ∀ n : Fin 256, loWord (BitVec.ofNat 32 n.val) = BitVec.ofNat 32 (n.val % 16) := by
  decide +kernel

/-- A lane comparison of two small words, widened and read as an integer, is the indicator of equality. -/
theorem laneEq_toInt : ∀ a b : Fin 16,
    ((IntOp.cmpi .eq (BitVec.ofNat 32 a.val) (BitVec.ofNat 32 b.val)).setWidth 32).toInt = if a.val = b.val then 1 else 0 := by
  decide +kernel

theorem ofBits_255 : Ideal.ofBits .f32 0x437F0000#32 = ((255 : ℝ) : EReal) := by
  simp [Ideal.ofBits, Ideal.ieee]
  rw [← EReal.coe_mul]
  norm_num

/-- A pixel's bin is below 256: the value is clipped to [0, 255] before it is truncated. -/
theorem bin_lt (x : Ideal .f32) : (Cert.Hist.bin x).toNat < 256 := by
  show (Ideal.fptosi 32 (min (Ideal.ofBits .f32 0x437F0000#32) (max (Ideal.ofBits .f32 0x00000000#32) x))).toNat < 256
  rw [ofBits_255, Ideal.ofBits_zero_f32]
  have hlo : (0 : EReal) ≤ min ((255 : ℝ) : EReal) (max 0 x) := le_min (by exact_mod_cast (by norm_num : (0:ℝ) ≤ 255)) (le_max_left _ _)
  have hhi : min ((255 : ℝ) : EReal) (max 0 x) ≤ ((255 : ℝ) : EReal) := min_le_left _ _
  generalize min ((255 : ℝ) : EReal) (max 0 x) = y at hlo hhi
  induction y using EReal.rec with
  | bot => simp at hlo
  | top => simp at hhi
  | coe r =>
    have rlo : (0 : ℝ) ≤ r := by exact_mod_cast hlo
    have rhi : r ≤ 255 := by exact_mod_cast hhi
    have flo : (0 : ℤ) ≤ ⌊r⌋ := Int.floor_nonneg.mpr rlo
    have fhi : ⌊r⌋ ≤ 255 := by
      have : ⌊r⌋ ≤ ⌊(255 : ℝ)⌋ := Int.floor_le_floor rhi
      simpa using this
    rw [Ideal.fptosi, Ideal.toIntClamped_coe, if_pos rlo]
    rw [BitVec.toNat_ofInt]
    omega

theorem hiWord_of_lt (v : BitVec 32) (hv : v.toNat < 256) : hiWord v = BitVec.ofNat 32 (v.toNat / 16) := by
  have h := hiWord_ofNat ⟨v.toNat, hv⟩
  rwa [BitVec.ofNat_toNat, BitVec.setWidth_eq] at h

theorem loWord_of_lt (v : BitVec 32) (hv : v.toNat < 256) : loWord v = BitVec.ofNat 32 (v.toNat % 16) := by
  have h := loWord_ofNat ⟨v.toNat, hv⟩
  rwa [BitVec.ofNat_toNat, BitVec.setWidth_eq] at h

theorem laneEq_toInt' (a b : Nat) (ha : a < 16) (hb : b < 16) :
    ((IntOp.cmpi .eq (BitVec.ofNat 32 a) (BitVec.ofNat 32 b)).setWidth 32).toInt = if a = b then 1 else 0 :=
  laneEq_toInt ⟨a, ha⟩ ⟨b, hb⟩

/-- The product of the two nibble indicators of a word below 256 is the indicator of the word itself. -/
theorem nibbles_onehot (v : BitVec 32) (hv : v.toNat < 256) (p q : Fin 16) :
    ((((IntOp.cmpi .eq (hiWord v) (BitVec.ofNat 32 p.val)).setWidth 32).toInt : ℝ) : EReal)
        * ((((IntOp.cmpi .eq (loWord v) (BitVec.ofNat 32 q.val)).setWidth 32).toInt : ℝ) : EReal)
      = if v.toNat = 16 * p.val + q.val then 1 else 0 := by
  rw [hiWord_of_lt v hv, loWord_of_lt v hv, laneEq_toInt' _ _ (by omega) p.isLt, laneEq_toInt' _ _ (by omega) q.isLt]
  by_cases h1 : v.toNat / 16 = p.val <;> by_cases h2 : v.toNat % 16 = q.val
  · rw [if_pos h1, if_pos h2, if_pos (by omega)]; simp
  · rw [if_pos h1, if_neg h2, if_neg (by omega)]; simp
  · rw [if_neg h1, if_pos h2, if_neg (by omega)]; simp
  · rw [if_neg h1, if_neg h2, if_neg (by omega)]; simp

section Layout

/-- The one-hot matrix of one channel row of a 3 x 65536 array of words against the sixteen lanes:
    entry (n, p) is one when word n of the row is lane p's number. -/
def oneHot {F : FTy → Type} [FloatOps F] (off : Fin S3x65536.rank → Nat) (hs : S3x65536.Slices off S1x65536)
    (v : IVec S3x65536 32) (l : IVec S1x16 32) : FVec F S65536x16 .bf16 :=
  truncf .bf16 (sitofp .f32 (extui 32 (cmpi .eq
    (broadcastTo S65536x16 (shapeCast S65536x1 (shapeCast S65536 (extractStridedSlice S1x65536 off v hs) shapeCasts_S1x65536_S65536)
      shapeCasts_S65536_S65536x1) broadcasts_S65536x1_S65536x16)
    (broadcastTo S65536x16 l broadcasts_S1x16_S65536x16)) natLt_1_32)) bitsLt_bf16_f32

theorem oneHot_apply (off : Fin S3x65536.rank → Nat) (hs : S3x65536.Slices off S1x65536) (v : IVec S3x65536 32) (l : IVec S1x16 32)
    (r : Fin 3) (hrow : off 0 = r.val) (hcol : off 1 = 0) (n : Fin 65536) (p : Fin 16) :
    oneHot (F := Ideal) off hs v l (ix2 n p)
      = (((((IntOp.cmpi .eq (v (ix2 r n)) (l (ix2 (0 : Fin 1) p))).setWidth 32).toInt : ℝ)) : EReal) := by
  have e1 : broadcastTo S65536x16 (shapeCast S65536x1 (shapeCast S65536 (extractStridedSlice S1x65536 off v hs) shapeCasts_S1x65536_S65536)
      shapeCasts_S65536_S65536x1) broadcasts_S65536x1_S65536x16 (ix2 n p) = v (ix2 r n) := by
    refine (broadcastTo_apply _ _ (ix2 n p) (ix2 n (0 : Fin 1)) ?_).trans ?_
    · intro a; match a with | ⟨0, _⟩ => rfl | ⟨1, _⟩ => rfl
    refine (shapeCast_apply _ _ (ix2 n (0 : Fin 1)) (ix1 n) ?_).trans ?_
    · rw [Shape.rowMajor_val_one, Shape.rowMajor_val_two]; show n.val = n.val * 1 + 0; omega
    refine (shapeCast_apply _ _ (ix1 n) (ix2 (0 : Fin 1) n) ?_).trans ?_
    · rw [Shape.rowMajor_val_one, Shape.rowMajor_val_two]; show 0 * 65536 + n.val = n.val; omega
    refine extractStridedSlice_apply off v hs (ix2 (0 : Fin 1) n) (ix2 r n) ?_
    intro a; match a with
      | ⟨0, _⟩ => show r.val = off 0 + 0; omega
      | ⟨1, _⟩ => show n.val = off 1 + n.val; omega
  have e2 : broadcastTo S65536x16 l broadcasts_S1x16_S65536x16 (ix2 n p) = l (ix2 (0 : Fin 1) p) := by
    refine broadcastTo_apply _ _ (ix2 n p) (ix2 (0 : Fin 1) p) ?_
    intro a; match a with | ⟨0, _⟩ => rfl | ⟨1, _⟩ => rfl
  show (((((IntOp.cmpi .eq (broadcastTo S65536x16 (shapeCast S65536x1 (shapeCast S65536 (extractStridedSlice S1x65536 off v hs) shapeCasts_S1x65536_S65536)
      shapeCasts_S65536_S65536x1) broadcasts_S65536x1_S65536x16 (ix2 n p)) (broadcastTo S65536x16 l broadcasts_S1x16_S65536x16 (ix2 n p))).setWidth 32).toInt : ℝ)) : EReal) = _
  rw [e1, e2]

theorem lhs_contr (j : S16x16.Idx) (k : dot_S65536x16_S65536x16_S16x16_0_0_1_1_n_n.contr.Idx) :
    (dot_S65536x16_S65536x16_S16x16_0_0_1_1_n_n.lhsIdx j k 0).val = (k ⟨0, by decide⟩).val :=
  DotDims.lhsIdx_val_of_single _ rfl j k
theorem rhs_contr (j : S16x16.Idx) (k : dot_S65536x16_S65536x16_S16x16_0_0_1_1_n_n.contr.Idx) :
    (dot_S65536x16_S65536x16_S16x16_0_0_1_1_n_n.rhsIdx j k 0).val = (k ⟨0, by decide⟩).val :=
  DotDims.rhsIdx_val_of_single _ rfl j k
theorem lhs_free (j : S16x16.Idx) (k : dot_S65536x16_S65536x16_S16x16_0_0_1_1_n_n.contr.Idx) :
    (dot_S65536x16_S65536x16_S16x16_0_0_1_1_n_n.lhsIdx j k 1).val = (j 0).val := by
  unfold DotDims.lhsIdx
  rw [dif_neg (show ¬(1 : Fin S65536x16.rank) ∈ dot_S65536x16_S65536x16_S16x16_0_0_1_1_n_n.lhsBatch by decide),
    dif_pos (show (1 : Fin S65536x16.rank) ∈ dot_S65536x16_S65536x16_S16x16_0_0_1_1_n_n.lhsNonContracting by decide)]
  rfl
theorem rhs_free (j : S16x16.Idx) (k : dot_S65536x16_S65536x16_S16x16_0_0_1_1_n_n.contr.Idx) :
    (dot_S65536x16_S65536x16_S16x16_0_0_1_1_n_n.rhsIdx j k 1).val = (j 1).val := by
  unfold DotDims.rhsIdx
  rw [dif_neg (show ¬(1 : Fin S65536x16.rank) ∈ dot_S65536x16_S65536x16_S16x16_0_0_1_1_n_n.rhsBatch by decide),
    dif_pos (show (1 : Fin S65536x16.rank) ∈ dot_S65536x16_S65536x16_S16x16_0_0_1_1_n_n.rhsNonContracting by decide)]
  rfl

/-- The contraction of two 65536 x 16 matrices over their rows onto a zero accumulator, entry by entry. -/
theorem matmul_rows (A B : FVec Ideal S65536x16 .bf16) (p q : Fin 16) :
    matmul dot_S65536x16_S65536x16_S16x16_0_0_1_1_n_n none A B (constant (F := Ideal) S16x16 .f32 0x00000000#32) (ix2 p q)
      = ∑ n : Fin 65536, A (ix2 n p) * B (ix2 n q) := by
  refine (Ideal.matmul_constant_zero_apply dot_S65536x16_S65536x16_S16x16_0_0_1_1_n_n none A B (ix2 p q)).trans ?_
  rw [← Equiv.sum_comp (contrEquiv1 dot_S65536x16_S65536x16_S16x16_0_0_1_1_n_n 65536 rfl rfl).symm]
  refine Finset.sum_congr rfl fun n _ => ?_
  have c2 := contrEquiv1_symm_val dot_S65536x16_S65536x16_S16x16_0_0_1_1_n_n 65536 rfl rfl n
  have l2 : dot_S65536x16_S65536x16_S16x16_0_0_1_1_n_n.lhsIdx (ix2 p q) ((contrEquiv1 _ 65536 rfl rfl).symm n) = ix2 n p := by
    funext ax; apply Fin.ext
    match ax with
    | ⟨0, _⟩ => exact (lhs_contr _ _).trans c2
    | ⟨1, _⟩ => exact lhs_free _ _
  have r2 : dot_S65536x16_S65536x16_S16x16_0_0_1_1_n_n.rhsIdx (ix2 p q) ((contrEquiv1 _ 65536 rfl rfl).symm n) = ix2 n q := by
    funext ax; apply Fin.ext
    match ax with
    | ⟨0, _⟩ => exact (rhs_contr _ _).trans c2
    | ⟨1, _⟩ => exact rhs_free _ _
  rw [l2, r2]

end Layout

/-- The block's pixel words: at (c, h, w) the bin of the input there. -/
theorem pix_apply (x0 : Vec Ideal S1x3x128x512 .f32) (c : Fin 3) (h : Fin 128) (w : Fin 512) :
    k1_pay4 (F := Ideal) x0 (ix3 c h w) = Cert.Hist.bin (x0 (ix4 (0 : Fin 1) c h w)) := by
  unfold k1_pay4
  show FloatOps.fptosi 32 (FloatOps.minimumf (Scalar.ofBits (F := Ideal) .f32 0x437F0000#32)
    (FloatOps.maximumf (Scalar.ofBits (F := Ideal) .f32 0x00000000#32)
      (shapeCast S3x128x512 x0 shapeCasts_S1x3x128x512_S3x128x512 (ix3 c h w)))) = _
  rw [shapeCast_1abc_abc_apply]
  rfl

/-- The high nibbles, laid 3 x 65536: at (c, h * 512 + w) the high nibble of the pixel word at (c, h, w). -/
theorem highs_apply (x0 : Vec Ideal S1x3x128x512 .f32) (c : Fin 3) (h : Fin 128) (w : Fin 512) (n : Fin 65536)
    (hn : n.val = h.val * 512 + w.val) :
    k1_pay5 (F := Ideal) x0 (ix2 c n) = hiWord (Cert.Hist.bin (x0 (ix4 (0 : Fin 1) c h w))) := by
  rw [← pix_apply]
  exact shapeCast_apply (fun i => hiWord (k1_pay4 (F := Ideal) x0 i)) shapeCasts_S3x128x512_S3x65536 (ix2 c n) (ix3 c h w) (by
    rw [Shape.rowMajor_val_three, Shape.rowMajor_val_two]
    show (c.val * 128 + h.val) * 512 + w.val = c.val * 65536 + n.val
    omega)

/-- The low nibbles, likewise. -/
theorem lows_apply (x0 : Vec Ideal S1x3x128x512 .f32) (c : Fin 3) (h : Fin 128) (w : Fin 512) (n : Fin 65536)
    (hn : n.val = h.val * 512 + w.val) :
    k1_pay7 (k1_pay4 (F := Ideal) x0) 16#32 (k1_pay6 (F := Ideal) x0) (ix2 c n) = loWord (Cert.Hist.bin (x0 (ix4 (0 : Fin 1) c h w))) := by
  rw [← pix_apply]
  exact shapeCast_apply (fun i => loWord (k1_pay4 (F := Ideal) x0 i)) shapeCasts_S3x128x512_S3x65536 (ix2 c n) (ix3 c h w) (by
    rw [Shape.rowMajor_val_three, Shape.rowMajor_val_two]
    show (c.val * 128 + h.val) * 512 + w.val = c.val * 65536 + n.val
    omega)

theorem lanes_apply (p : Fin 16) : lanes (ix2 (0 : Fin 1) p) = BitVec.ofNat 32 p.val :=
  iota_single_apply .tc S1x16 32 1 iota_S1x16_d1_w32 (ix2 (0 : Fin 1) p)

/-- A sum over the 65536 pixels of a channel block is the sum over its 128 rows and 512 columns. -/
theorem sum_pixels {M : Type*} [AddCommMonoid M] (f : Fin 65536 → M) :
    ∑ n, f n = ∑ h : Fin 128, ∑ w : Fin 512, f ⟨h.val * 512 + w.val, by have := h.isLt; have := w.isLt; omega⟩ := by
  rw [← Equiv.sum_comp (finProdFinEquiv.trans (finCongr (by norm_num : 128 * 512 = 65536))), Fintype.sum_prod_type]
  refine Finset.sum_congr rfl fun h _ => Finset.sum_congr rfl fun w _ => ?_
  congr 1
  apply Fin.ext
  show w.val + 512 * h.val = h.val * 512 + w.val
  omega

/-- The 16 x 16 joint counts of the high and low nibbles of one channel row: the two one-hot matrices contracted over
    the pixels. -/
def rowCounts {F : FTy → Type} [FloatOps F] (off : Fin S3x65536.rank → Nat) (hs : S3x65536.Slices off S1x65536)
    (vh vl : IVec S3x65536 32) (l : IVec S1x16 32) : FVec F S16x16 .f32 :=
  matmul dot_S65536x16_S65536x16_S16x16_0_0_1_1_n_n none (oneHot (F := F) off hs vh l) (oneHot (F := F) off hs vl l)
    (constant S16x16 .f32 0x00000000#32)

/-- Entry (p, q) of a channel's joint counts is the number of its pixels whose bin is 16 p + q. -/
theorem rowCounts_apply (off : Fin S3x65536.rank → Nat) (hs : S3x65536.Slices off S1x65536) (r : Fin 3)
    (hrow : off 0 = r.val) (hcol : off 1 = 0) (x0 : Vec Ideal S1x3x128x512 .f32) (p q : Fin 16) :
    rowCounts (F := Ideal) off hs (k1_pay5 (F := Ideal) x0) (k1_pay7 (k1_pay4 (F := Ideal) x0) 16#32 (k1_pay6 (F := Ideal) x0)) lanes (ix2 p q)
      = ∑ h : Fin 128, ∑ w : Fin 512,
          (if (Cert.Hist.bin (x0 (ix4 (0 : Fin 1) r h w))).toNat = 16 * p.val + q.val then (1 : EReal) else 0) := by
  refine (matmul_rows _ _ p q).trans ?_
  rw [sum_pixels]
  refine Finset.sum_congr rfl fun h _ => Finset.sum_congr rfl fun w _ => ?_
  rw [oneHot_apply off hs _ _ r hrow hcol, oneHot_apply off hs _ _ r hrow hcol, highs_apply x0 r h w _ rfl, lows_apply x0 r h w _ rfl,
    lanes_apply, lanes_apply]
  exact nibbles_onehot _ (bin_lt _) p q

/-- A row of the accumulator plus a 16 x 16 matrix re-laid as 256 numbers, read at lane j. -/
theorem addRow_apply (old : FVec Ideal S1x256 .f32) (M : FVec Ideal S16x16 .f32) (j : Fin 256) :
    shapeCast S1x256 (addf (shapeCast S256 old shapeCasts_S1x256_S256) (shapeCast S256 M shapeCasts_S16x16_S256))
        shapeCasts_S256_S1x256 (ix2 (0 : Fin 1) j)
      = old (ix2 (0 : Fin 1) j) + M (ix2 (⟨j.val / 16, by have := j.isLt; omega⟩ : Fin 16) (⟨j.val % 16, by omega⟩ : Fin 16)) := by
  refine (shapeCast_a_1a_apply _ _ (0 : Fin 1) j).trans ?_
  show shapeCast S256 old shapeCasts_S1x256_S256 (ix1 j) + shapeCast S256 M shapeCasts_S16x16_S256 (ix1 j) = _
  rw [shapeCast_1a_a_apply]
  congr 1
  exact shapeCast_apply M _ (ix1 j) (ix2 (⟨j.val / 16, by have := j.isLt; omega⟩ : Fin 16) (⟨j.val % 16, by omega⟩ : Fin 16)) (by
    rw [Shape.rowMajor_val_two, Shape.rowMajor_val_one]
    show j.val / 16 * 16 + j.val % 16 = j.val
    omega)

/-- One channel's new accumulator row: the old row plus, at lane j, the number of the channel's pixels whose bin is j. -/
theorem row_apply (off : Fin S3x65536.rank → Nat) (hs : S3x65536.Slices off S1x65536) (r : Fin 3)
    (hrow : off 0 = r.val) (hcol : off 1 = 0) (x0 : Vec Ideal S1x3x128x512 .f32) (old : FVec Ideal S1x256 .f32) (j : Fin 256) :
    shapeCast S1x256 (addf (shapeCast S256 old shapeCasts_S1x256_S256)
        (shapeCast S256 (rowCounts (F := Ideal) off hs (k1_pay5 (F := Ideal) x0)
          (k1_pay7 (k1_pay4 (F := Ideal) x0) 16#32 (k1_pay6 (F := Ideal) x0)) lanes) shapeCasts_S16x16_S256))
        shapeCasts_S256_S1x256 (ix2 (0 : Fin 1) j)
      = old (ix2 (0 : Fin 1) j) + ∑ h : Fin 128, ∑ w : Fin 512, Cert.Hist.hit (x0 (ix4 (0 : Fin 1) r h w)) j := by
  rw [addRow_apply, rowCounts_apply off hs r hrow hcol]
  congr 1
  refine Finset.sum_congr rfl fun h _ => Finset.sum_congr rfl fun w _ => ?_
  have e : 16 * (j.val / 16) + j.val % 16 = j.val := by omega
  show (if _ = 16 * (j.val / 16) + j.val % 16 then (1 : EReal) else 0) = if _ = j.val then 1 else 0
  rw [e]

/-- The accumulator after a point: each entry (c, j) grows by the number of pixels of channel c in the block whose bin is j. -/
theorem stepAcc_apply (x0 : Vec Ideal S1x3x128x512 .f32) (s : Vec Ideal S3x256 .f32) (c : Fin 3) (j : Fin 256) :
    stepAcc (F := Ideal) x0 s (ix2 c j) = s (ix2 c j) + ∑ h : Fin 128, ∑ w : Fin 512, Cert.Hist.hit (x0 (ix4 0 c h w)) j := by
  match c with
  | ⟨0, _⟩ => exact row_apply ![0, 0] slices_S3x65536_o0_0_S1x65536 0 rfl rfl x0 (rowOf s 0) j
  | ⟨1, _⟩ => exact row_apply ![1, 0] slices_S3x65536_o1_0_S1x65536 1 rfl rfl x0 (rowOf s 1) j
  | ⟨2, _⟩ => exact row_apply ![2, 0] slices_S3x65536_o2_0_S1x65536 2 rfl rfl x0 (rowOf s 2) j

/-- The accumulator a group starts from is zero everywhere. -/
theorem zeroAcc_apply (i : S3x256.Idx) : zeroAcc (F := Ideal) i = 0 := by
  show Ideal.ofBits .f32 0x00000000#32 = 0
  exact Ideal.ofBits_zero_f32

end Cert.KernelIdeal.R1

end
-- ==== Proof.KI.R1.Acc.lean ====
/-
  The accumulator's point-by-point recurrence, and its closed form.

  At every point the accumulator is the point's update of what it held before: the all-zero array at the first point of
  a group of 64, the accumulator after the previous point otherwise. At the last point of a group the output block is
  the accumulator re-laid. Over exact arithmetic an update adds, at row ch and bin j, the number of pixels of channel ch
  in the point's block whose bin is j; so after the point numbered s of group g the accumulator holds the sum of those
  block counts over the points 0 … s of the group.
-/
import proofs.«178617_j19834158972940_1_alg».proof.Proof.KI.R1.Data
import proofs.«178617_j19834158972940_1_alg».proof.Proof.KI.R1.Pieces
import proofs.«178617_j19834158972940_1_alg».proof.Proof.KI.R1.StepMath
import Mathlib.Algebra.BigOperators.Fin
import Mathlib.Algebra.BigOperators.Group.Finset.Piecewise

set_option maxRecDepth 16384

noncomputable section

namespace Cert.KernelIdeal.R1

open Cert.KernelIdeal Cert.KernelIdeal.Gen
open Idealize.ShloMosaic Idealize.ShloMosaic.ValueIdx
open Idealize.ShloMosaic.Pipeline (Dat Cfg Window BodyObligation cellOf)

section Generic

variable {F : FTy → Type} [FloatOps F]

variable (W : Dev nD → Valuation τ sig (Elt F))

/-- The accumulator after point t is point t's update of the zero array (first point of a group) or of the
    accumulator after point t - 1 (any other point). -/
theorem accAt_step (c : Dev nD) (t : Fin cfg1.N) :
    accAt W c t.val t.isLt = stepAcc (iblk W c 0 t) (if h : t.val % 64 = 0 then zeroAcc else accAt W c (t.val - 1) (Nat.lt_of_le_of_lt (Nat.sub_le _ _) t.isLt)) := by
  by_cases h0 : t.val % 64 = 0
  · have hr : resetAt (grid1.coords t) := (resetAt_iff t).2 h0
    have hf : ¬flushAt (grid1.coords t) := fun hf => by have := (flushAt_iff t).1 hf; omega
    rw [dif_pos h0]
    exact (accAt_first W c t h0 hr hf).trans (pieces_first c _ _ _ _ _ hr hf _)
  · rw [dif_neg h0]
    have hr : ¬resetAt (grid1.coords t) := fun hr => h0 ((resetAt_iff t).1 hr)
    by_cases h1 : t.val % 64 = 63
    · have hf : flushAt (grid1.coords t) := (flushAt_iff t).2 h1
      exact (accAt_last W c t h1 hr hf).trans (pieces_last_acc c _ _ _ _ _ hr hf _ _)
    · have hf : ¬flushAt (grid1.coords t) := fun hf => h1 ((flushAt_iff t).1 hf)
      exact (accAt_inner W c t h0 h1 hr hf).trans (pieces_inner c _ _ _ _ _ hr hf _ _)

/-- At the last point of a group the output block is the accumulator after that point, re-laid. -/
theorem outAt_flush (c : Dev nD) (t : Fin cfg1.N) (h : t.val % 64 = 63) : outAt W c t.val t.isLt = outOf (accAt W c t.val t.isLt) := by
  have hr : ¬resetAt (grid1.coords t) := fun hr => by have := (resetAt_iff t).1 hr; omega
  have hf : flushAt (grid1.coords t) := (flushAt_iff t).2 h
  exact (outAt_last W c t h hr hf).trans ((pieces_last_out c _ _ _ _ _ hr hf _ _).trans
    (congrArg outOf ((accAt_last W c t h hr hf).trans (pieces_last_acc c _ _ _ _ _ hr hf _ _)).symm))

/-- The accumulator after a point depends on the point's number only. -/
theorem accAt_congr (c : Dev nD) {n m : ℕ} (h : n = m) (hn : n < cfg1.N) (hm : m < cfg1.N) : accAt W c n hn = accAt W c m hm := by
  subst h; rfl

/-- The recurrence over the point's number. -/
theorem accAt_step_nat (c : Dev nD) (n : ℕ) (hn : n < cfg1.N) :
    accAt W c n hn = stepAcc (iblk W c 0 ⟨n, hn⟩) (if h : n % 64 = 0 then zeroAcc else accAt W c (n - 1) (Nat.lt_of_le_of_lt (Nat.sub_le _ _) hn)) :=
  accAt_step W c ⟨n, hn⟩

end Generic

/-! ## Over exact arithmetic: the accumulator is a sum of block counts -/

section Exact

/-- Summing, over the indices of Fin m, the terms whose number is at most n + 1: the terms whose number is at most n,
    and the term numbered n + 1. -/
theorem sum_le_succ {M : Type*} [AddCommMonoid M] {m : ℕ} (f : Fin m → M) (n : ℕ) (hn : n + 1 < m) :
    (∑ s' : Fin m, if s'.val ≤ n + 1 then f s' else 0) = (∑ s' : Fin m, if s'.val ≤ n then f s' else 0) + f ⟨n + 1, hn⟩ := by
  have hsplit : ∀ s' : Fin m, (if s'.val ≤ n + 1 then f s' else 0) = (if s'.val ≤ n then f s' else 0) + (if s' = ⟨n + 1, hn⟩ then f s' else 0) := by
    intro s'
    by_cases h1 : s'.val ≤ n
    · have h2 : s'.val ≤ n + 1 := Nat.le_succ_of_le h1
      have h3 : ¬ s' = ⟨n + 1, hn⟩ := fun h => by rw [h] at h1; simp at h1
      rw [if_pos h1, if_pos h2, if_neg h3, add_zero]
    · by_cases h3 : s' = ⟨n + 1, hn⟩
      · have h2 : s'.val ≤ n + 1 := by rw [h3]
        rw [if_neg h1, if_pos h2, if_pos h3, zero_add]
      · have h2 : ¬ s'.val ≤ n + 1 := fun h => h3 (Fin.ext (by simp only []; omega))
        rw [if_neg h1, if_neg h2, if_neg h3, add_zero]
  rw [Finset.sum_congr rfl (fun s' _ => hsplit s'), Finset.sum_add_distrib, Finset.sum_ite_eq' Finset.univ (⟨n + 1, hn⟩ : Fin m) f,
    if_pos (Finset.mem_univ _)]

/-- Only the term numbered 0 has a number at most 0. -/
theorem sum_le_zero {M : Type*} [AddCommMonoid M] {m : ℕ} (f : Fin m → M) (hm : 0 < m) :
    (∑ s' : Fin m, if s'.val ≤ 0 then f s' else 0) = f ⟨0, hm⟩ := by
  have hsplit : ∀ s' : Fin m, (if s'.val ≤ 0 then f s' else 0) = (if s' = ⟨0, hm⟩ then f s' else 0) := by
    intro s'
    by_cases h3 : s' = ⟨0, hm⟩
    · have h1 : s'.val ≤ 0 := by rw [h3]
      rw [if_pos h1, if_pos h3]
    · have h1 : ¬ s'.val ≤ 0 := fun h => h3 (Fin.ext (by simp only []; omega))
      rw [if_neg h1, if_neg h3]
  rw [Finset.sum_congr rfl (fun s' _ => hsplit s'), Finset.sum_ite_eq' Finset.univ (⟨0, hm⟩ : Fin m) f, if_pos (Finset.mem_univ _)]

variable (W : Dev nD → Valuation τ sig (Elt Ideal))

/-- The pixels of channel ch in point t's block whose bin is j. -/
def blockCount (c : Dev nD) (t : Fin cfg1.N) (ch : Fin 3) (j : Fin 256) : EReal :=
  ∑ h : Fin 128, ∑ w : Fin 512, Cert.Hist.hit ((iblk W c 0 t : Vec Ideal S1x3x128x512 .f32) (ix4 0 ch h w)) j

/-- One point's update adds the point's block counts. -/
theorem accAt_apply (c : Dev nD) (n : ℕ) (hn : n < cfg1.N) (ch : Fin 3) (j : Fin 256) :
    accAt W c n hn (ix2 ch j)
      = (if h : n % 64 = 0 then zeroAcc else accAt W c (n - 1) (Nat.lt_of_le_of_lt (Nat.sub_le _ _) hn)) (ix2 ch j) + blockCount W c ⟨n, hn⟩ ch j := by
  rw [accAt_step_nat W c n hn]
  exact stepAcc_apply _ _ ch j

/-- After the point numbered s of group g, the accumulator holds at row ch and bin j the sum of the block counts of
    the group's points 0 … s. -/
theorem accAt_sum_nat (c : Dev nD) (g : Fin 2) (ch : Fin 3) (j : Fin 256) (n : ℕ) (hn : n < 64) (hlt : 64 * g.val + n < cfg1.N) :
    accAt W c (64 * g.val + n) hlt (ix2 ch j)
      = ∑ s' : Fin 64, if s'.val ≤ n then blockCount W c ⟨64 * g.val + s'.val, by have : cfg1.N = 128 := N_1; omega⟩ ch j else 0 := by
  induction n with
  | zero =>
    rw [accAt_apply, dif_pos (by omega), zeroAcc_apply, zero_add]
    exact (sum_le_zero (fun s' : Fin 64 => blockCount W c ⟨64 * g.val + s'.val, by have : cfg1.N = 128 := N_1; omega⟩ ch j) (by omega)).symm
  | succ n ih =>
    have hlt' : 64 * g.val + n < cfg1.N := by omega
    rw [accAt_apply, dif_neg (by omega), accAt_congr W c (by omega : 64 * g.val + (n + 1) - 1 = 64 * g.val + n) _ hlt', ih (by omega) hlt']
    exact (sum_le_succ (fun s' : Fin 64 => blockCount W c ⟨64 * g.val + s'.val, by have : cfg1.N = 128 := N_1; omega⟩ ch j) n hn).symm

theorem accAt_sum (c : Dev nD) (g : Fin 2) (s : Fin 64) (ch : Fin 3) (j : Fin 256) (hlt : 64 * g.val + s.val < cfg1.N) :
    accAt W c (64 * g.val + s.val) hlt (ix2 ch j)
      = ∑ s' : Fin 64, if s'.val ≤ s.val then blockCount W c ⟨64 * g.val + s'.val, by have : cfg1.N = 128 := N_1; omega⟩ ch j else 0 :=
  accAt_sum_nat W c g ch j s.val s.isLt hlt

end Exact

end Cert.KernelIdeal.R1

end
-- ==== Proof.KI.R1.BlockRead.lean ====
/-
  The input block at a point, read off the input array.

  The input window's index map sends the grid point (i0, i1, i2) to the block index (16 i0 + i1, 0, i2, 0); the grid
  2 x 16 x 4 is visited row-major, so at point t the block index is (t / 4, 0, t % 4, 0). A block has shape
  1 x 3 x 128 x 512, and along each axis the array coordinate of a block entry is block index times block size plus the
  coordinate inside the block. So the entry (0, ch, h, w) of point t's block is the array's entry
  (t / 4, ch, 128 (t % 4) + h, w).
-/
import proofs.«178617_j19834158972940_1_alg».proof.Proof.KI.R1.Shared
import Idealize.ShloMosaic.Lib.ValueIdx

set_option maxRecDepth 16384

noncomputable section

namespace Cert.KernelIdeal.R1

open Cert.KernelIdeal Cert.KernelIdeal.Gen
open Idealize.ShloMosaic Idealize.ShloMosaic.ValueIdx
open Idealize.ShloMosaic.Pipeline (Dat Cfg Window BodyObligation cellOf)

variable {F : FTy → Type} [FloatOps F]

/-- The input window's block index at point t, axis by axis: (t / 4, 0, t % 4, 0). -/
theorem inIndex_eq : ∀ t : Fin cfg1.N, win1_0.index t (0 : Fin 4) = t.val / 4 ∧ win1_0.index t (1 : Fin 4) = 0
    ∧ win1_0.index t (2 : Fin 4) = t.val % 4 ∧ win1_0.index t (3 : Fin 4) = 0 :=
  (by decide +kernel : ∀ t : Fin grid1.N, _)

variable (W : Dev nD → Valuation τ sig (Elt F))

/-- Entry (0, ch, h, w) of point t's input block is the input array's entry (t / 4, ch, 128 (t % 4) + h, w). -/
theorem iblk_apply (c : Dev nD) (t : Fin cfg1.N) (ch : Fin 3) (h : Fin 128) (w : Fin 512) :
    iblk W c 0 t (ix4 0 ch h w) = arrs W c main_arg1 (ix4 ⟨t.val / 4, by have : cfg1.N = 128 := N_1; omega⟩ ch ⟨128 * (t.val % 4) + h.val, by omega⟩ w) := by
  obtain ⟨e0, e1, e2, e3⟩ := inIndex_eq t
  unfold iblk
  show arrs W c main_arg1 (((cfg1.win 0).blk t).view.emb (ix4 0 ch h w)) = arrs W c main_arg1 _
  refine congrArg (arrs W c main_arg1) ?_
  funext a; apply Fin.ext
  match a with
  | ⟨0, _⟩ => show win1_0.index t (0 : Fin 4) * 1 + 1 * 0 = t.val / 4; omega
  | ⟨1, _⟩ => show win1_0.index t (1 : Fin 4) * 3 + 1 * ch.val = ch.val; omega
  | ⟨2, _⟩ => show win1_0.index t (2 : Fin 4) * 128 + 1 * h.val = 128 * (t.val % 4) + h.val; omega
  | ⟨3, _⟩ => show win1_0.index t (3 : Fin 4) * 512 + 1 * w.val = w.val; omega

end Cert.KernelIdeal.R1

end
-- ==== Proof.KI.R1.Value.lean ====
/-
  What one launch of the histogram kernel leaves in its output array, and the host's sum of it over the two groups.

  Only the last point of each group of 64 writes the output window back, and what it writes is the accumulator after
  that point, re-laid as a 1 x 3 x 256 block; the window's index map sends the grid point (i0, i1, i2) to the block
  index (i0, 0, 0), so group g's block is row g of the 2 x 3 x 256 output array. The two blocks tile the array: after
  the launch, entry (g, ch, j) of the array is entry (ch, j) of the accumulator after point 64 g + 63.

  Over exact arithmetic that accumulator entry is the sum over the group's 64 points of the number of pixels of channel
  ch in the point's block whose bin is j. The host then sums the array over its first axis, from zero: the sum over
  both groups, all their points, and each block's rows and columns. The 128 blocks tile the batch (point t reads rows
  128 (t mod 4) ... of image t div 4), so this is the number of pixels of channel ch in the whole batch whose bin is j.
-/
import proofs.«178617_j19834158972940_1_alg».proof.Proof.KI.R1.Acc
import proofs.«178617_j19834158972940_1_alg».proof.Proof.KI.R1.BlockRead
import proofs.«178617_j19834158972940_1_alg».proof.Proof.Reindex
import proofs.«178617_j19834158972940_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.R1

open Cert.KernelIdeal Cert.KernelIdeal.Gen
open Idealize.ShloMosaic Idealize.ShloMosaic.ValueIdx
open Idealize.ShloMosaic.Pipeline (Dat Cfg Window BodyObligation cellOf)

section Array

variable {F : FTy → Type} [FloatOps F]

/-- The output window's block index at point t, axis by axis: (t / 64, 0, 0). -/
theorem outIndex_eq : ∀ t : Fin cfg1.N, win1_1.index t (0 : Fin 3) = t.val / 64 ∧ win1_1.index t (1 : Fin 3) = 0
    ∧ win1_1.index t (2 : Fin 3) = 0 :=
  (by decide +kernel : ∀ t : Fin grid1.N, _)

/-- The re-laid accumulator reads entry (0, ch, j) at the accumulator's entry (ch, j). -/
theorem outOf_apply (s : Vec F S3x256 .f32) (y : S1x3x256.Idx) : outOf s y = s (ix2 (y 1) (y 2)) := by
  unfold outOf k1_pay2
  refine (shapeCast_addUnit_apply ![3, 256] s _ y).trans ?_
  exact congrArg s (funext fun a => by match a with | ⟨0, _⟩ => rfl | ⟨1, _⟩ => rfl)

variable (W : Dev nD → Valuation τ sig (Elt F))

/-- The output array after the launch: entry (g, ch, j) is entry (ch, j) of the accumulator after the last point of
    group g. -/
def finalOut (c : Dev nD) : Vec F S2x3x256 .f32 := fun i =>
  accAt W c (64 * (i 0).val + 63) (by have : cfg1.N = 128 := N_1; have h : (i 0).val < 2 := (i 0).isLt; omega) (ix2 (i 1) (i 2))

/-- At an index of group t / 64's row, with t the last point of its group, that is the accumulator after t. -/
theorem finalOut_read (c : Dev nD) (t : Fin cfg1.N) (h63 : t.val % 64 = 63) (i : S2x3x256.Idx) (y : S1x3x256.Idx)
    (h0 : (i 0).val = t.val / 64) (h1 : (i 1).val = (y 1).val) (h2 : (i 2).val = (y 2).val) :
    finalOut W c i = accAt W c t.val t.isLt (ix2 (y 1) (y 2)) := by
  unfold finalOut
  refine (congrFun (accAt_congr W c (by rw [h0]; omega) _ t.isLt) _).trans (congrArg _ ?_)
  funext a
  match a with
  | ⟨0, _⟩ => exact Fin.ext h1
  | ⟨1, _⟩ => exact Fin.ext h2

/-- What the last point of a group writes back is its block of that array. -/
theorem flushed_eq (c : Dev nD) (t : Fin cfg1.N) (hf : (cfg1.win 1).flush t = true) :
    (dat0 W c).flushed 1 t = ((cfg1.win 1).blk t).view.read (Elt F) (finalOut W c) := by
  have h63 : t.val % 64 = 63 := (flush1_1 t).mp hf
  obtain ⟨e0, e1, e2⟩ := outIndex_eq t
  show (cfg1.win 1).cut (grid1.coords t) ((dat0 W c).after 1 t) = _
  rw [after_out, outAt_flush W c t h63]
  funext y
  show outOf (accAt W c t.val t.isLt) y = finalOut W c (((cfg1.win 1).blk t).view.emb y)
  refine (outOf_apply _ y).trans (finalOut_read W c t h63 _ y ?_ ?_ ?_).symm
  · show win1_1.index t (0 : Fin 3) * 1 + 1 * (y 0).val = t.val / 64
    have hy : (y 0).val < 1 := (y 0).isLt
    omega
  · show win1_1.index t (1 : Fin 3) * 3 + 1 * (y 1).val = (y 1).val
    omega
  · show win1_1.index t (2 : Fin 3) * 256 + 1 * (y 2).val = (y 2).val
    omega

/-- An index of the output array is in point t's block iff each coordinate is in the block's range on its axis. -/
theorem mem_outBlk (t : Fin cfg1.N) (i : S2x3x256.Idx) :
    i ∈ ((cfg1.win 1).blk t).view.set ↔ ∀ a : Fin 3, win1_1.index t a * S1x3x256.size a ≤ (i a).val ∧ (i a).val < win1_1.index t a * S1x3x256.size a + S1x3x256.size a := by
  show i ∈ ((View.whole main_v2).slice (win1_1.rect t)).set ↔ _
  rw [View.set_slice_whole, Rect.mem_set_unit]
  exact Iff.rfl

/-- Every index of the output array lies in the block of the last point of its group. -/
theorem out_cover (i : S2x3x256.Idx) : ∃ t : Fin cfg1.N, (cfg1.win 1).flush t = true ∧ i ∈ ((cfg1.win 1).blk t).view.set := by
  have hN : cfg1.N = 128 := N_1
  have hi0 : (i 0).val < 2 := (i 0).isLt
  have hi1 : (i 1).val < 3 := (i 1).isLt
  have hi2 : (i 2).val < 256 := (i 2).isLt
  obtain ⟨t, ht⟩ : ∃ t : Fin cfg1.N, t.val = 64 * (i 0).val + 63 := ⟨⟨64 * (i 0).val + 63, by omega⟩, rfl⟩
  refine ⟨t, (flush1_1 t).mpr (by omega), ?_⟩
  obtain ⟨e0, e1, e2⟩ := outIndex_eq t
  rw [mem_outBlk]
  intro a
  match a with
  | ⟨0, _⟩ => show win1_1.index t (0 : Fin 3) * 1 ≤ (i 0).val ∧ (i 0).val < win1_1.index t (0 : Fin 3) * 1 + 1; omega
  | ⟨1, _⟩ => show win1_1.index t (1 : Fin 3) * 3 ≤ (i 1).val ∧ (i 1).val < win1_1.index t (1 : Fin 3) * 3 + 3; omega
  | ⟨2, _⟩ => show win1_1.index t (2 : Fin 3) * 256 ≤ (i 2).val ∧ (i 2).val < win1_1.index t (2 : Fin 3) * 256 + 256; omega

/-- The output array after the launch. -/
theorem arrAt_out (c : Dev nD) : (dat0 W c).arrAt 1 cfg1.N = finalOut W c :=
  (dat0 W c).arrAt_eq_of_cover 1 (finalOut W c) (flushed_eq W c) out_cover

end Array

section Exact

variable (W : Dev nD → Valuation τ sig (Elt Ideal))

/-- The host's sum of a 2 x 3 x 256 array over its first axis, from zero, at (ch, j): the sum of the two groups'
    entries. -/
theorem reduce_groups (x : Vec Ideal S2x3x256 .f32) (ch : Fin 3) (j : Fin 256) :
    Host.reduceAdd (F := Ideal) x (constant (F := Ideal) S_ .f32 0x00000000#32) reducesTo_S2x3x256_S3x256_d0 h_S_ (ix2 ch j)
      = ∑ g : Fin 2, x (ix3 g ch j) := by
  simp only [Host.reduceAdd, Ideal.hostReduceAdd_def]
  rw [Ideal.hostReduceAdd_single reducesTo_S2x3x256_S3x256_d0 (by decide)]
  rw [constant_apply, Ideal.ofBits_zero_f32, zero_add]
  refine Finset.sum_congr rfl fun g _ => ?_
  exact congrArg x (funext fun a => Fin.ext (by match a with | ⟨0, _⟩ => rfl | ⟨1, _⟩ => rfl | ⟨2, _⟩ => rfl))

/-- The accumulator after the last point of group g holds the block counts of all 64 points of the group. -/
theorem finalOut_apply (c : Dev nD) (g : Fin 2) (ch : Fin 3) (j : Fin 256) :
    finalOut W c (ix3 g ch j) = ∑ s : Fin 64, blockCount W c ⟨64 * g.val + s.val, by have : cfg1.N = 128 := N_1; omega⟩ ch j := by
  have hN : cfg1.N = 128 := N_1
  show accAt W c (64 * g.val + 63) _ (ix2 ch j) = _
  refine (accAt_sum W c g ⟨63, by omega⟩ ch j (by show 64 * g.val + 63 < cfg1.N; omega)).trans ?_
  refine Finset.sum_congr rfl fun s _ => ?_
  exact if_pos (by show s.val ≤ 63; omega)

/-- THE HISTOGRAM OF ONE LAUNCH: the host's sum over the two groups of the launch's output array is the histogram of
    the input batch. -/
theorem hist_of_region (c : Dev nD) :
    Host.reduceAdd (F := Ideal) ((dat0 W c).arrAt 1 cfg1.N : Vec Ideal S2x3x256 .f32) (constant (F := Ideal) S_ .f32 0x00000000#32) reducesTo_S2x3x256_S3x256_d0 h_S_
      = Cert.Hist.histArr (arrs W c main_arg1) := by
  funext i
  obtain ⟨ch, j, rfl⟩ : ∃ (ch : Fin 3) (j : Fin 256), i = ix2 ch j := ⟨i 0, i 1, eq_ix2 i⟩
  rw [arrAt_out W c, reduce_groups]
  show _ = Cert.Hist.count (arrs W c main_arg1) ch j
  unfold Cert.Hist.count
  rw [← Cert.Hist.sum_points (fun b h w => Cert.Hist.hit (arrs W c main_arg1 (ix4 b ch h w)) j)]
  refine Finset.sum_congr rfl fun g _ => ?_
  rw [finalOut_apply]
  refine Finset.sum_congr rfl fun s _ => ?_
  unfold blockCount
  refine Finset.sum_congr rfl fun h _ => Finset.sum_congr rfl fun w _ => ?_
  exact congrArg (Cert.Hist.hit · j) (iblk_apply W c _ ch h w)

end Exact

end Cert.KernelIdeal.R1

end
-- ==== Proof.KernelTail.lean ====
/-
  The two host stretches of the kernel's program read as functions: the first sums a launch's 2 x 3 x 256 result
  over its leading axis; the second does the same for the other launch and then computes the summed Bhattacharyya
  distance of the two histograms, the chain of host operations both programs share, carried as one function.
-/
import proofs.«178617_j19834158972940_1_alg».proof.Proof.Gen.KernelIdeal.Launch
import proofs.«178617_j19834158972940_1_alg».proof.Proof.Spec
import Idealize.ShloMosaic.Lib.StableHlo.Run

noncomputable section

namespace Cert.KernelIdeal.Tail

open Cert.KernelIdeal Cert.KernelIdeal.Gen
open Idealize.ShloMosaic Idealize.ShloMosaic.TcCoe Idealize.SL.Sem Idealize.ShloMosaic.StableHlo

/-- A launch's result summed over its two groups. -/
abbrev sumGroups (o : (⟨S2x3x256, .f32⟩ : BufTy).Contents (Elt Ideal)) : (⟨S3x256, .f32⟩ : BufTy).Contents (Elt Ideal) :=
  Host.reduceAdd (F := Ideal) o (constant (F := Ideal) S_ .f32 0x00000000#32) reducesTo_S2x3x256_S3x256_d0 h_S_

/-- After the first host stretch the first histogram is the first launch's result summed over its groups. -/
theorem after1_hist (V : Valuation τ sig (Elt Ideal)) :
    StableHlo.after (hostOps1 (F := Ideal)) V (Proc.devRef .tc main_v1) = sumGroups (V (Proc.devRef .tc main_v0)) := by
  after_results

/-- The first host stretch leaves the second launch's input as it was. -/
theorem after1_arg1 (V : Valuation τ sig (Elt Ideal)) :
    StableHlo.after (hostOps1 (F := Ideal)) V (Proc.devRef .tc main_arg1) = V (Proc.devRef .tc main_arg1) := by
  after_results

/-- After the second host stretch the result is the distance of the first histogram and the second launch's result
    summed over its groups. -/
theorem after2_result (V : Valuation τ sig (Elt Ideal)) :
    StableHlo.after (hostOps2 (F := Ideal)) V (Proc.devRef .tc main_v23)
      = Cert.Hist.distance (V (Proc.devRef .tc main_v1)) (sumGroups (V (Proc.devRef .tc main_v2))) := by
  after_results_simp
  rfl

end Cert.KernelIdeal.Tail

end
-- ==== Proof.KernelValue.lean ====
/-
  What the idealized kernel program returns: the second host stretch applied to the second region's exit contents
  is the distance of the two histograms — each launch's result, summed over its two groups, is the histogram of that
  launch's input array.
-/
import proofs.«178617_j19834158972940_1_alg».proof.Proof.KI.Run
import proofs.«178617_j19834158972940_1_alg».proof.Proof.KI.R0.Value
import proofs.«178617_j19834158972940_1_alg».proof.Proof.KI.R1.Value
import proofs.«178617_j19834158972940_1_alg».proof.Proof.KernelTail

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ)

/-- The result buffer after the whole program, as a function of the two argument arrays. -/
theorem result_eq (c : Dev nD) :
    Run.W4 (F := Ideal) m c (Proc.devRef .tc main_v23)
      = Cert.Hist.distance (Cert.Hist.histArr (m ((c : Thread nD τ).loc main_arg0))) (Cert.Hist.histArr (m ((c : Thread nD τ).loc main_arg1))) := by
  show StableHlo.after (hostOps2 (F := Ideal)) (Run.W3 m c) (Proc.devRef .tc main_v23) = _
  rw [Tail.after2_result, Run.W3_v1]
  rw [show Run.W2 m c (Proc.devRef .tc main_v1) = StableHlo.after (hostOps1 (F := Ideal)) (Run.W1 m c) (Proc.devRef .tc main_v1) from rfl,
    Tail.after1_hist, Run.W1_out, Run.W3_out]
  unfold Tail.sumGroups
  rw [R0.hist_of_region, R1.hist_of_region]
  unfold R0.arrs R1.arrs
  rw [Run.W2_arg1]

end Cert.KernelIdeal.Whole

end
-- ==== Proof.Ref.Base.lean ====
/-
  The reference program's run and its stage-by-stage reading, gathered for the modules that state what the
  reference computes.
-/
import proofs.«178617_j19834158972940_1_alg».proof.Proof.Gen.ReferenceIdeal.Run
import proofs.«178617_j19834158972940_1_alg».proof.Proof.Gen.ReferenceIdeal.Read
-- ==== Proof.LibScatterFold.lean ====
/-
  A scatter whose body returns the update ("set"): the row-major left fold in which each update replaces the element at
  its result index. If at least one update lands on an element and every update that lands there carries the same value,
  the folded array holds that value there, whatever the order and whatever the start array.

  `foldl_proj_eq_of_hit` is the fold fact in the abstract (a state, a projection of it, steps that either set the
  projection to `v` or leave it alone); `scatter_set_apply` is it for `Host.scatter … (fun _ b => b)`;
  `rowScatter_resultIdx_eq_some_iff` reads the result index of a ROW scatter (operand [N, C], indices an [R, 1] column,
  updates [R, C]: update row `i` goes to the operand row its index word names, read signed, and is dropped when that is
  outside the operand) off the index column.
-/
import Idealize.ShloMosaic.PureOps.ShapeOps
import Idealize.ShloMosaic.Lib.ValueIdx

namespace Idealize.ShloMosaic.ScatterFold

open Idealize.ShloMosaic Idealize.ShloMosaic.ValueIdx

/-- A left fold whose steps either SET a projection of the state to `v` (the steps of `hit`) or LEAVE it (the others):
    if some step of the list hits, the projection of the result is `v`. The invariant, for every start state: the
    projection is already `v`, or a hit is still to come. -/
theorem foldl_proj_eq_of_hit {κ β α : Type} (step : β → κ → β) (π : β → α) (hit : κ → Prop) (v : α) (l : List κ)
    (hset : ∀ k ∈ l, hit k → ∀ r, π (step r k) = v)
    (hkeep : ∀ k ∈ l, ¬ hit k → ∀ r, π (step r k) = π r)
    (x : β) (hx : π x = v ∨ ∃ k ∈ l, hit k) : π (l.foldl step x) = v := by
  induction l generalizing x with
  | nil =>
    rcases hx with hx | ⟨k, hk, _⟩
    · exact hx
    · exact absurd hk List.not_mem_nil
  | cons k l ih =>
    rw [List.foldl_cons]
    refine ih (fun k' hk' => hset k' (List.mem_cons_of_mem _ hk')) (fun k' hk' => hkeep k' (List.mem_cons_of_mem _ hk')) _ ?_
    by_cases hk : hit k
    · exact Or.inl (hset k List.mem_cons_self hk x)
    · rcases hx with hx | ⟨k', hk', hh⟩
      · exact Or.inl ((hkeep k List.mem_cons_self hk x).trans hx)
      · rcases List.mem_cons.1 hk' with rfl | hk'
        · exact absurd hh hk
        · exact Or.inr ⟨k', hk', hh⟩

variable {s si u : Shape} {α : Type} {w : Nat}

/-- A "set" scatter read at `i'`: when some update's result index is `i'` and every update whose result index is `i'`
    carries `v`, the result at `i'` is `v` (the operand and the order of the updates play no part). -/
theorem scatter_set_apply (d : ScatterDims s si u) (x : s.Idx → α) (idx : IVec si w) (upd : u.Idx → α) (i' : s.Idx) (v : α)
    (hex : ∃ j : u.Idx, d.resultIdx? j idx = some i')
    (hall : ∀ j : u.Idx, d.resultIdx? j idx = some i' → upd j = v) :
    Host.scatter d (fun _ b => b) x idx upd i' = v := by
  unfold Host.scatter
  refine foldl_proj_eq_of_hit _ (fun r => r i') (fun n => d.resultIdx? (u.rowMajor.symm n) idx = some i') v _ ?_ ?_ x ?_
  · intro n _ hn r
    show (match d.resultIdx? (u.rowMajor.symm n) idx with
      | some i => fun i'' => if i'' = i then upd (u.rowMajor.symm n) else r i''
      | none => r) i' = v
    rw [hn]
    show (if i' = i' then upd (u.rowMajor.symm n) else r i') = v
    rw [if_pos rfl]
    exact hall _ hn
  · intro n _ hn r
    show (match d.resultIdx? (u.rowMajor.symm n) idx with
      | some i => fun i'' => if i'' = i then upd (u.rowMajor.symm n) else r i''
      | none => r) i' = r i'
    cases hr : d.resultIdx? (u.rowMajor.symm n) idx with
    | none => rfl
    | some i =>
      show (if i' = i then upd (u.rowMajor.symm n) else r i') = r i'
      rw [if_neg]
      intro h
      exact hn (by rw [hr, h])
  · obtain ⟨j, hj⟩ := hex
    refine Or.inr ⟨u.rowMajor j, List.mem_finRange _, ?_⟩
    show d.resultIdx? (u.rowMajor.symm (u.rowMajor j)) idx = some i'
    rw [Equiv.symm_apply_apply]
    exact hj

/-! ## The row scatter: one scalar index per update row, the window a whole row -/

section RowScatter

/-- The entries of a one-element list. -/
theorem getElem_of_eq_singleton {β : Type} {l : List β} {a : β} (h : l = [a]) (k : Nat) (hk : k < l.length) : l[k] = a := by
  subst h
  have hk0 : k = 0 := by simpa using hk
  subst hk0
  rfl

variable {N R C w : Nat} (d : ScatterDims ⟨2, ![N, C]⟩ ⟨2, ![R, 1]⟩ ⟨2, ![R, C]⟩)
  (huw : d.updateWindowDims = [1]) (hiw : d.insertedWindowDims = [0]) (hsd : d.scatterDimsToOperandDims = [0])
  (hiv : d.indexVectorDim = 1)

include hsd hiv huw in
theorem rowScatter_start_zero (idx : IVec ⟨2, ![R, 1]⟩ w) (j : (⟨2, ![R, C]⟩ : Shape).Idx) :
    d.start j idx 0 = (idx (ix2 (j 0) 0)).toInt := by
  have hm : (0 : Fin 2) ∈ d.scatterDimsToOperandDims := by rw [hsd]; exact List.mem_singleton.mpr rfl
  have hus : d.uScatter = [0] := by
    show Shape.kept _ d.updateWindowDims = [0]
    rw [huw]; rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    rw [getElem_of_eq_singleton hus]
  | ⟨1, _⟩ =>
    unfold ScatterDims.siIdx
    rw [dif_pos (by rw [hiv])]
    apply Fin.ext
    show List.idxOf (0 : Fin 2) d.scatterDimsToOperandDims = 0
    rw [hsd]; simp

include hsd in
theorem rowScatter_start_one (idx : IVec ⟨2, ![R, 1]⟩ w) (j : (⟨2, ![R, C]⟩ : Shape).Idx) :
    d.start j idx 1 = 0 := by
  have hm : (1 : Fin 2) ∉ d.scatterDimsToOperandDims := by rw [hsd]; simp
  unfold ScatterDims.start
  rw [dif_neg hm]

include hiw in
theorem rowScatter_window_zero (j : (⟨2, ![R, C]⟩ : Shape).Idx) : d.window j 0 = 0 := by
  have hsk : d.sKept = [1] := by
    show Shape.kept _ d.insertedWindowDims = [1]
    rw [hiw]; rfl
  have hm : (0 : Fin 2) ∉ d.sKept := by rw [hsk]; simp
  unfold ScatterDims.window
  rw [dif_neg hm]

include hiw huw in
theorem rowScatter_window_one (j : (⟨2, ![R, C]⟩ : Shape).Idx) : d.window j 1 = (j 1).val := by
  have hsk : d.sKept = [1] := by
    show Shape.kept _ d.insertedWindowDims = [1]
    rw [hiw]; rfl
  have hm : (1 : Fin 2) ∈ d.sKept := by rw [hsk]; exact List.mem_singleton.mpr rfl
  unfold ScatterDims.window
  rw [dif_pos hm, getElem_of_eq_singleton huw]

include huw hiw hsd hiv in
/-- The result index of update element `(i, c)` of a ROW scatter (one scalar index per update row, read off the
    index column; the window one whole row): it is `k` exactly when the row's index word, read signed, is `k`'s row
    and `c` is `k`'s column. -/
theorem rowScatter_resultIdx_eq_some_iff (idx : IVec ⟨2, ![R, 1]⟩ w) (i : Fin R) (c : Fin C) (k : (⟨2, ![N, C]⟩ : Shape).Idx) :
    d.resultIdx? (ix2 i c) idx = some k ↔ (idx (ix2 i 0)).toInt = ((k 0).val : Int) ∧ (k 1).val = c.val := by
  have h00 : d.start (ix2 i c) idx 0 = (idx (ix2 i 0)).toInt := rowScatter_start_zero d huw hsd hiv idx (ix2 i c)
  have h01 := rowScatter_start_one d hsd idx (ix2 i c)
  have h10 := rowScatter_window_zero d hiw (ix2 i c)
  have h11 : d.window (ix2 i c) 1 = c.val := rowScatter_window_one d huw hiw (ix2 i c)
  have e0 : d.start (ix2 i c) idx 0 + (d.window (ix2 i c) 0 : Int) = (idx (ix2 i 0)).toInt := by
    rw [h00, h10]; simp
  have e1 : d.start (ix2 i c) idx 1 + (d.window (ix2 i c) 1 : Int) = (c.val : Int) := by
    rw [h01, h11]; simp
  have hk0 := (k 0).isLt
  have hk1 := (k 1).isLt
  unfold ScatterDims.resultIdx?
  constructor
  · intro h
    split at h
    · next hin =>
      have hf := Option.some.inj h
      have f0 := congrArg (fun f => (f 0).val) hf
      have f1 := congrArg (fun f => (f 1).val) hf
      simp only at f0 f1
      have i0 := hin 0
      have i1 := hin 1
      rw [e0] at i0 f0
      rw [e1] at i1 f1
      constructor
      · omega
      · omega
    · exact absurd h (by simp)
  · rintro ⟨hr, hc⟩
    have hin : ∀ a, 0 ≤ d.start (ix2 i c) idx a + (d.window (ix2 i c) a : Int)
        ∧ d.start (ix2 i c) idx a + (d.window (ix2 i c) a : Int) < ((⟨2, ![N, C]⟩ : Shape).size a : Nat) := by
      intro a
      match a with
      | ⟨0, _⟩ =>
        show 0 ≤ d.start (ix2 i c) idx 0 + (d.window (ix2 i c) 0 : Int) ∧ d.start (ix2 i c) idx 0 + (d.window (ix2 i c) 0 : Int) < (N : Nat)
        rw [e0, hr]
        have : (k 0).val < N := hk0
        omega
      | ⟨1, _⟩ =>
        show 0 ≤ d.start (ix2 i c) idx 1 + (d.window (ix2 i c) 1 : Int) ∧ d.start (ix2 i c) idx 1 + (d.window (ix2 i c) 1 : Int) < (C : Nat)
        rw [e1]
        have : c.val < C := c.isLt
        omega
    rw [dif_pos hin]
    congr 1
    funext a
    apply Fin.ext
    match a with
    | ⟨0, _⟩ =>
      show (d.start (ix2 i c) idx 0 + (d.window (ix2 i c) 0 : Int)).toNat = (k 0).val
      rw [e0, hr]; simp
    | ⟨1, _⟩ =>
      show (d.start (ix2 i c) idx 1 + (d.window (ix2 i c) 1 : Int)).toNat = (k 1).val
      rw [e1, hc]; simp

end RowScatter

end Idealize.ShloMosaic.ScatterFold
-- ==== Proof.LibScatterSum.lean ====
/-
  The accumulating host scatter (a scatter whose body adds; exact at the ideal instance: each operand element plus the
  sum of the updates that land on it) read at an index as a sum over the update ROWS, for the two shapes a segment sum
  lowers to: the ROW scatter (operand [N, C], one index word per update row, the window a whole row) and the SCALAR
  scatter (operand [N], one index word per update element). An update whose index word, read signed, names no operand
  row lands nowhere, so it adds nothing: in both forms the sum keeps exactly the rows whose word is the row read.
-/
import Idealize.ShloMosaic.PureOps.Ideal
import Idealize.ShloMosaic.Lib.ValueIdx
import proofs.«178617_j19834158972940_1_alg».proof.Proof.LibScatterFold

open scoped BigOperators

namespace Idealize.ShloMosaic.ScatterSum

open Idealize.ShloMosaic Idealize.ShloMosaic.ValueIdx Idealize.ShloMosaic.ScatterFold

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The row scatter -/

/-- The accumulating ROW scatter at element `(k0, k1)`: the operand's element plus the sum, over the update rows whose
    index word read signed is `k0`, of the row's element in column `k1`. -/
theorem rowScatterAdd_apply {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![R, 1]⟩ w) (upd : (⟨2, ![R, C]⟩ : Shape).Idx → EReal)
    (k0 : Fin N) (k1 : Fin C) :
    Ideal.hostScatterAdd d x idx upd (ix2 k0 k1)
      = x (ix2 k0 k1) + ∑ n : Fin R, if (idx (ix2 n 0)).toInt = (k0.val : Int) then upd (ix2 n k1) else 0 := by
  unfold Ideal.hostScatterAdd
  congr 1
  rw [Finset.sum_filter, sum_idx2]
  refine Finset.sum_congr rfl fun n _ => ?_
  have hiff : ∀ c : Fin C, (d.resultIdx? (ix2 n c) idx = some (ix2 k0 k1))
      ↔ ((idx (ix2 n 0)).toInt = (k0.val : Int) ∧ k1.val = c.val) :=
    fun c => rowScatter_resultIdx_eq_some_iff d huw hiw hsd hiv idx n c (ix2 k0 k1)
  by_cases hA : (idx (ix2 n 0)).toInt = (k0.val : Int)
  · rw [if_pos hA, Finset.sum_eq_single k1]
    · rw [if_pos ((hiff k1).2 ⟨hA, rfl⟩)]
    · intro c _ hc
      rw [if_neg]
      intro h
      exact hc (Fin.ext ((hiff c).1 h).2.symm)
    · intro h; exact absurd (Finset.mem_univ _) h
  · rw [if_neg hA]
    refine Finset.sum_eq_zero fun c _ => ?_
    rw [if_neg]
    intro h
    exact hA ((hiff c).1 h).1

/-! ## The scalar scatter: one index word per update element, no window -/

section VecScatter

variable {N R w : Nat} (d : ScatterDims ⟨1, ![N]⟩ ⟨2, ![R, 1]⟩ ⟨1, ![R]⟩)
  (huw : d.updateWindowDims = []) (hiw : d.insertedWindowDims = [0]) (hsd : d.scatterDimsToOperandDims = [0])
  (hiv : d.indexVectorDim = 1)

include hsd hiv huw in
theorem vecScatter_start_zero (idx : IVec ⟨2, ![R, 1]⟩ w) (j : (⟨1, ![R]⟩ : Shape).Idx) :
    d.start j idx 0 = (idx (ix2 (j 0) 0)).toInt := by
  have hm : (0 : Fin 1) ∈ d.scatterDimsToOperandDims := by rw [hsd]; exact List.mem_singleton.mpr rfl
  have hus : d.uScatter = [0] := by
    show Shape.kept _ d.updateWindowDims = [0]
    rw [huw]; rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    rw [getElem_of_eq_singleton hus]
  | ⟨1, _⟩ =>
    unfold ScatterDims.siIdx
    rw [dif_pos (by rw [hiv])]
    apply Fin.ext
    show List.idxOf (0 : Fin 1) d.scatterDimsToOperandDims = 0
    rw [hsd]; simp

include hiw in
theorem vecScatter_window_zero (j : (⟨1, ![R]⟩ : Shape).Idx) : d.window j 0 = 0 := by
  have hsk : d.sKept = [] := by
    show Shape.kept _ d.insertedWindowDims = []
    rw [hiw]; rfl
  have hm : (0 : Fin 1) ∉ d.sKept := by rw [hsk]; simp
  unfold ScatterDims.window
  rw [dif_neg hm]

include huw hiw hsd hiv in
/-- The result index of update element `i` of a SCALAR scatter: it is `k` exactly when the element's index word, read
    signed, is `k`'s coordinate. -/
theorem vecScatter_resultIdx_eq_some_iff (idx : IVec ⟨2, ![R, 1]⟩ w) (i : Fin R) (k : (⟨1, ![N]⟩ : Shape).Idx) :
    d.resultIdx? (ix1 i) idx = some k ↔ (idx (ix2 i 0)).toInt = ((k 0).val : Int) := by
  have h00 : d.start (ix1 i) idx 0 = (idx (ix2 i 0)).toInt := vecScatter_start_zero d huw hsd hiv idx (ix1 i)
  have h10 := vecScatter_window_zero d hiw (ix1 i)
  have e0 : d.start (ix1 i) idx 0 + (d.window (ix1 i) 0 : Int) = (idx (ix2 i 0)).toInt := by
    rw [h00, h10]; simp
  have hk0 := (k 0).isLt
  unfold ScatterDims.resultIdx?
  constructor
  · intro h
    split at h
    · next hin =>
      have hf := Option.some.inj h
      have f0 := congrArg (fun f => (f 0).val) hf
      simp only at f0
      have i0 := hin 0
      rw [e0] at i0 f0
      omega
    · exact absurd h (by simp)
  · intro hr
    have hin : ∀ a, 0 ≤ d.start (ix1 i) idx a + (d.window (ix1 i) a : Int)
        ∧ d.start (ix1 i) idx a + (d.window (ix1 i) a : Int) < ((⟨1, ![N]⟩ : Shape).size a : Nat) := by
      intro a
      match a with
      | ⟨0, _⟩ =>
        show 0 ≤ d.start (ix1 i) idx 0 + (d.window (ix1 i) 0 : Int)
          ∧ d.start (ix1 i) idx 0 + (d.window (ix1 i) 0 : Int) < (N : Nat)
        rw [e0, hr]
        have : (k 0).val < N := hk0
        omega
    rw [dif_pos hin]
    congr 1
    funext a
    apply Fin.ext
    match a with
    | ⟨0, _⟩ =>
      show (d.start (ix1 i) idx 0 + (d.window (ix1 i) 0 : Int)).toNat = (k 0).val
      rw [e0, hr]; simp

include huw hiw hsd hiv in
/-- The accumulating SCALAR scatter at element `k0`: the operand's element plus the sum of the update elements whose
    index word read signed is `k0`. -/
theorem vecScatterAdd_apply (x : (⟨1, ![N]⟩ : Shape).Idx → EReal) (idx : IVec ⟨2, ![R, 1]⟩ w)
    (upd : (⟨1, ![R]⟩ : Shape).Idx → EReal) (k0 : Fin N) :
    Ideal.hostScatterAdd d x idx upd (ix1 k0)
      = x (ix1 k0) + ∑ n : Fin R, if (idx (ix2 n 0)).toInt = (k0.val : Int) then upd (ix1 n) else 0 := by
  unfold Ideal.hostScatterAdd
  congr 1
  rw [Finset.sum_filter, sum_idx1]
  refine Finset.sum_congr rfl fun n _ => ?_
  have hiff : (d.resultIdx? (ix1 n) idx = some (ix1 k0)) ↔ (idx (ix2 n 0)).toInt = (k0.val : Int) :=
    vecScatter_resultIdx_eq_some_iff d huw hiw hsd hiv idx n (ix1 k0)
  by_cases hA : (idx (ix2 n 0)).toInt = (k0.val : Int)
  · rw [if_pos hA, if_pos (hiff.2 hA)]
  · rw [if_neg hA, if_neg (fun h => hA (hiff.1 h))]

end VecScatter

end Idealize.ShloMosaic.ScatterSum
-- ==== Proof.Ref.Value.lean ====
/-
  What the reference program returns, as a function of its two inputs: the distance of their histograms.

  Per input the reference clips every pixel to [0, 255], truncates it to an integer (its bin, below 256), adds 256 times
  the pixel's channel, flattens the 32 x 3 x 512 x 512 words row-major, wraps negative words by 768 (none is negative),
  and adds a one into a zeroed array of 768 bins at each word. At the ideal instance that accumulating scatter is exact:
  bin 256 c + j holds the number of flat positions whose word is 256 c + j. A word bin + 256 c' with bin < 256 equals
  256 c + j exactly when c' = c and bin = j, so, the flat positions re-indexed as (batch, channel, row, column), the
  channels other than c contribute nothing and the count is that of the channel-c pixels whose bin is j: the 768 bins,
  reshaped to 3 x 256, are the input's histogram. The operations after the two histograms are the distance, applied to
  them as one function.
-/
import proofs.«178617_j19834158972940_1_alg».proof.Proof.Ref.Base
import proofs.«178617_j19834158972940_1_alg».proof.Proof.Spec
import proofs.«178617_j19834158972940_1_alg».proof.Proof.LibScatterSum
import Mathlib.Algebra.BigOperators.Fin
import Mathlib.Algebra.Order.Floor.Ring

open scoped BigOperators

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Hist

theorem ofBits_zero : Ideal.ofBits .f32 0x00000000#32 = 0 := by simp [Ideal.ofBits, Ideal.ieee]
theorem ofBits_one : Ideal.ofBits .f32 0x3F800000#32 = 1 := by simp [Ideal.ofBits, Ideal.ieee, -EReal.coe_mul]; norm_num
theorem ofBits_255 : Ideal.ofBits .f32 0x437F0000#32 = ((255 : ℝ) : EReal) := by
  simp [Ideal.ofBits, Ideal.ieee, -EReal.coe_mul]; norm_num

theorem bin_lt (v : Ideal .f32) : (bin v).toNat < 256 := by
  unfold bin
  show (Ideal.fptosi 32 (min (Ideal.ofBits .f32 0x437F0000#32) (max (Ideal.ofBits .f32 0x00000000#32) v))).toNat < 256
  rw [ofBits_255, ofBits_zero]
  generalize hy : min ((255 : ℝ) : EReal) (max 0 v) = y
  have h0 : (0 : EReal) ≤ y := by
    rw [← hy]; exact le_min (by exact_mod_cast (by norm_num : (0 : ℝ) ≤ 255)) (le_max_left _ _)
  have h1 : y ≤ ((255 : ℝ) : EReal) := by rw [← hy]; exact min_le_left _ _
  induction y using EReal.rec with
  | bot => simp at h0
  | top => simp at h1
  | coe r =>
    have hr0 : (0 : ℝ) ≤ r := by exact_mod_cast h0
    have hr1 : r ≤ 255 := by exact_mod_cast h1
    unfold Ideal.fptosi
    rw [Ideal.toIntClamped_coe, if_pos hr0]
    have hf0 : 0 ≤ ⌊r⌋ := Int.floor_nonneg.mpr hr0
    have hf1 : ⌊r⌋ ≤ 255 := by
      have : ⌊r⌋ ≤ ⌊(255 : ℝ)⌋ := Int.floor_le_floor hr1
      simpa using this
    rw [BitVec.toNat_ofInt]
    omega

theorem word_facts (bn : BitVec 32) (hb : bn.toNat < 256) (c' : Nat) (hc : c' < 3) :
    Scalar.select (IntOp.cmpi .slt (IntOp.addi bn (IntOp.muli (BitVec.ofNat 32 c') 256#32)) 0#32)
        (IntOp.addi (IntOp.addi bn (IntOp.muli (BitVec.ofNat 32 c') 256#32)) 768#32)
        (IntOp.addi bn (IntOp.muli (BitVec.ofNat 32 c') 256#32))
      = IntOp.addi bn (IntOp.muli (BitVec.ofNat 32 c') 256#32)
    ∧ (IntOp.addi bn (IntOp.muli (BitVec.ofNat 32 c') 256#32)).toInt = ((bn.toNat + 256 * c' : Nat) : Int) := by
  have hn : (IntOp.addi bn (IntOp.muli (BitVec.ofNat 32 c') 256#32)).toNat = bn.toNat + 256 * c' := by
    unfold IntOp.addi IntOp.muli
    rw [BitVec.toNat_add, BitVec.toNat_mul, BitVec.toNat_ofNat]
    show (bn.toNat + c' % 2 ^ 32 * 256 % 2 ^ 32) % 2 ^ 32 = _
    omega
  generalize IntOp.addi bn (IntOp.muli (BitVec.ofNat 32 c') 256#32) = wd at hn ⊢
  have hi : wd.toInt = ((bn.toNat + 256 * c' : Nat) : Int) := by
    rw [BitVec.toInt_eq_toNat_cond, hn]
    rw [if_pos (by omega)]
  refine ⟨?_, hi⟩
  have hs : IntOp.cmpi .slt wd 0#32 = 0#1 := by
    unfold IntOp.cmpi
    show BitVec.ofBool (wd.slt 0#32) = 0#1
    have : wd.slt 0#32 = false := by
      rw [BitVec.slt_eq_decide, hi]
      simp
      omega
    rw [this]; rfl
  rw [hs, select_zero]

/-- Flat row-major position to batch, channel, row, column. -/
def flatEquiv : Fin 25165824 ≃ Fin 32 × Fin 3 × Fin 512 × Fin 512 where
  toFun n := (⟨n.val / 786432, by have := n.isLt; omega⟩, ⟨n.val / 262144 % 3, by omega⟩,
    ⟨n.val / 512 % 512, by omega⟩, ⟨n.val % 512, by omega⟩)
  invFun p := ⟨((p.1.val * 3 + p.2.1.val) * 512 + p.2.2.1.val) * 512 + p.2.2.2.val, by
    have := p.1.isLt; have := p.2.1.isLt; have := p.2.2.1.isLt; have := p.2.2.2.isLt; omega⟩
  left_inv n := by
    apply Fin.ext
    have := n.isLt
    show ((n.val / 786432 * 3 + n.val / 262144 % 3) * 512 + n.val / 512 % 512) * 512 + n.val % 512 = n.val
    omega
  right_inv p := by
    obtain ⟨a, b, h, w⟩ := p
    have := a.isLt; have := b.isLt; have := h.isLt; have := w.isLt
    refine Prod.ext (Fin.ext ?_) (Prod.ext (Fin.ext ?_) (Prod.ext (Fin.ext ?_) (Fin.ext ?_)))
    · show (((a.val * 3 + b.val) * 512 + h.val) * 512 + w.val) / 786432 = a.val
      omega
    · show (((a.val * 3 + b.val) * 512 + h.val) * 512 + w.val) / 262144 % 3 = b.val
      omega
    · show (((a.val * 3 + b.val) * 512 + h.val) * 512 + w.val) / 512 % 512 = h.val
      omega
    · show (((a.val * 3 + b.val) * 512 + h.val) * 512 + w.val) % 512 = w.val
      omega

theorem sum_flat {M : Type} [AddCommMonoid M] (G : Fin 32 → Fin 3 → Fin 512 → Fin 512 → M) :
    ∑ n : Fin 25165824, G (flatEquiv n).1 (flatEquiv n).2.1 (flatEquiv n).2.2.1 (flatEquiv n).2.2.2
      = ∑ b, ∑ c, ∑ h, ∑ w, G b c h w := by
  rw [Equiv.sum_comp flatEquiv (fun p => G p.1 p.2.1 p.2.2.1 p.2.2.2)]
  simp only [Fintype.sum_prod_type]

/-- The pixel index at flat position `n`. -/
def dec (n : Fin 25165824) : SImg.Idx :=
  ix4 (flatEquiv n).1 (flatEquiv n).2.1 (flatEquiv n).2.2.1 (flatEquiv n).2.2.2

/-- A scatter-add of ones into zeros over 768 bins, whose index word at flat position `n` is the pixel's bin plus
    256 times its channel, read at bin `256 c + j` counts the pixels of channel `c` whose bin is `j`. -/
theorem scatter_count (x : SImg.Idx → Ideal .f32)
    (z : S768.Idx → EReal) (ix : IVec S25165824x1 32) (u : S25165824.Idx → EReal)
    (hz : ∀ k, z k = 0) (hu : ∀ n, u n = 1)
    (hix : ∀ n : Fin 25165824,
      (ix (ix2 n 0)).toInt = (((bin (x (dec n))).toNat + 256 * (flatEquiv n).2.1.val : Nat) : Int))
    (c : Fin 3) (j : Fin 256) (k : S768.Idx) (hk : (k 0).val = c.val * 256 + j.val) :
    Ideal.hostScatterAdd scatter_S768_S25165824x1_S25165824_n_0_0_1 z ix u k = Cert.Hist.count x c j := by
  have h1 : j.val < 256 := j.isLt
  have h0 : c.val < 3 := c.isLt
  have hkk : k = ix1 (⟨c.val * 256 + j.val, by omega⟩ : Fin 768) := by
    funext a
    match a with
    | ⟨0, _⟩ => exact Fin.ext hk
  rw [hkk, ScatterSum.vecScatterAdd_apply _ rfl rfl rfl rfl, hz, zero_add]
  let G : Fin 32 → Fin 3 → Fin 512 → Fin 512 → EReal :=
    fun b c' h w => if c' = c then hit (x (ix4 b c' h w)) j else 0
  have hterm : ∀ n : Fin 25165824,
      (if (ix (ix2 n 0)).toInt = (((⟨c.val * 256 + j.val, by omega⟩ : Fin 768).val : Nat) : Int) then u (ix1 n) else 0)
        = G (flatEquiv n).1 (flatEquiv n).2.1 (flatEquiv n).2.2.1 (flatEquiv n).2.2.2 := by
    intro n
    rw [hix n, hu]
    show _ = if (flatEquiv n).2.1 = c then hit (x (dec n)) j else 0
    unfold hit
    have hb := bin_lt (x (dec n))
    have hc : (flatEquiv n).2.1.val < 3 := (flatEquiv n).2.1.isLt
    by_cases hcc : (flatEquiv n).2.1 = c
    · rw [if_pos hcc]
      have hv : (flatEquiv n).2.1.val = c.val := congrArg Fin.val hcc
      by_cases hbb : (bin (x (dec n))).toNat = j.val
      · rw [if_pos hbb, if_pos (by rw [hv, hbb]; push_cast; ring)]
      · rw [if_neg hbb, if_neg (by
          intro he
          have he' : (bin (x (dec n))).toNat + 256 * (flatEquiv n).2.1.val = c.val * 256 + j.val := by
            exact_mod_cast he
          omega)]
    · rw [if_neg hcc, if_neg (by
        intro he
        have he' : (bin (x (dec n))).toNat + 256 * (flatEquiv n).2.1.val = c.val * 256 + j.val := by
          exact_mod_cast he
        exact hcc (Fin.ext (by omega)))]
  rw [Finset.sum_congr rfl (fun n _ => hterm n)]
  refine (sum_flat G).trans ?_
  show (∑ b : Fin 32, ∑ c' : Fin 3, ∑ h : Fin 512, ∑ w : Fin 512, if c' = c then hit (x (ix4 b c' h w)) j else 0) = _
  unfold Cert.Hist.count
  refine Finset.sum_congr rfl fun b _ => ?_
  rw [Finset.sum_eq_single c]
  · simp only [if_pos]
  · intro c' _ hc
    simp only [if_neg hc, Finset.sum_const_zero]
  · intro h
    exact absurd (Finset.mem_univ _) h

/-- At the ideal instance the host's accumulating scatter is the exact sum. -/
theorem scatterAdd_ideal {s si su : Shape} {w : Nat} (d : ScatterDims s si su) (z : s.Idx → EReal) (ix : IVec si w)
    (u : su.Idx → EReal) :
    Host.scatterAdd (F := Ideal) (φ := .f32) d z ix u = Ideal.hostScatterAdd d z ix u := rfl

theorem idxColA (n : Fin 25165824) : idx_main_v15 (ix2 n 0) = ix1 n := by
  funext a
  match a with
  | ⟨0, _⟩ => rfl

theorem idxPixA (n : Fin 25165824) : idx_main_v8 (ix1 n) = dec n :=
  (eq_ix4 (idx_main_v8 (ix1 n))).trans rfl

/-- The index word of flat position `n`: the pixel's bin plus 256 times its channel; it is never negative, so the
    wrap of negative words leaves it. -/
theorem wordA (x : (⟨S32x3x512x512, .f32⟩ : BufTy).Contents (Elt Ideal)) (n : Fin 25165824) :
    (val_main_v15 (F := Ideal) x (ix2 n 0)).toInt
      = (((bin (x (dec n))).toNat + 256 * (flatEquiv n).2.1.val : Nat) : Int) := by
  rw [val_main_v15_apply, idxColA, val_main_v14_apply, val_main_v11_apply, val_main_v13_apply,
    val_main_v10_apply, val_main_c_2_apply, val_main_v12_apply, val_main_c_3_apply, val_main_v8_apply, idxPixA,
    val_main_v7_apply, val_main_v1_apply, val_main_v0_apply, val_main_call0_v4_apply, val_main_call0_v3_apply,
    val_main_cst_0_apply, val_main_call0_v2_apply, val_main_call0_v1_apply, val_main_call0_v0_apply, val_main_cst_apply,
    val_main_v6_apply, val_main_v5_apply, val_main_v4_apply, val_main_v2_apply, val_main_v3_apply,
    val_main_c_apply]
  have h := word_facts (bin (x (dec n))) (bin_lt _) (flatEquiv n).2.1.val (flatEquiv n).2.1.isLt
  exact (congrArg BitVec.toInt h.1).trans h.2

theorem zerosA : ∀ k, val_main_v9 (F := Ideal) k = 0 := fun k => by
  rw [val_main_v9_apply, val_main_cst_1_apply]; exact ofBits_zero

theorem onesA : ∀ n, val_main_v16 (F := Ideal) n = 1 := fun n => by
  rw [val_main_v16_apply, val_main_cst_4_apply]; exact ofBits_one

/-- The reference's 3 x 256 array of one input is that input's histogram. -/
theorem histA (x : (⟨S32x3x512x512, .f32⟩ : BufTy).Contents (Elt Ideal)) :
    val_main_v18 (F := Ideal) x = histArr x := by
  funext i
  rw [val_main_v18_apply]
  have hz := zerosA
  have hu := onesA
  have hix := wordA x
  unfold val_main_v17
  generalize val_main_v9 (F := Ideal) = z at hz ⊢
  generalize val_main_v15 (F := Ideal) x = ix at hix ⊢
  generalize val_main_v16 (F := Ideal) = u at hu ⊢
  refine (congrFun (scatterAdd_ideal scatter_S768_S25165824x1_S25165824_n_0_0_1 z ix u) (idx_main_v18 i)).trans ?_
  exact scatter_count x z ix u hz hu hix (i 0) (i 1) (idx_main_v18 i) rfl

theorem idxColB (n : Fin 25165824) : idx_main_v34 (ix2 n 0) = ix1 n := by
  funext a
  match a with
  | ⟨0, _⟩ => rfl

theorem idxPixB (n : Fin 25165824) : idx_main_v27 (ix1 n) = dec n :=
  (eq_ix4 (idx_main_v27 (ix1 n))).trans rfl

/-- The index word of flat position `n`: the pixel's bin plus 256 times its channel; it is never negative, so the
    wrap of negative words leaves it. -/
theorem wordB (x : (⟨S32x3x512x512, .f32⟩ : BufTy).Contents (Elt Ideal)) (n : Fin 25165824) :
    (val_main_v34 (F := Ideal) x (ix2 n 0)).toInt
      = (((bin (x (dec n))).toNat + 256 * (flatEquiv n).2.1.val : Nat) : Int) := by
  rw [val_main_v34_apply, idxColB, val_main_v33_apply, val_main_v30_apply, val_main_v32_apply,
    val_main_v29_apply, val_main_c_9_apply, val_main_v31_apply, val_main_c_10_apply, val_main_v27_apply, idxPixB,
    val_main_v26_apply, val_main_v20_apply, val_main_v19_apply, val_main_call1_v4_apply, val_main_call1_v3_apply,
    val_main_cst_6_apply, val_main_call1_v2_apply, val_main_call1_v1_apply, val_main_call1_v0_apply, val_main_cst_5_apply,
    val_main_v25_apply, val_main_v24_apply, val_main_v23_apply, val_main_v21_apply, val_main_v22_apply,
    val_main_c_7_apply]
  have h := word_facts (bin (x (dec n))) (bin_lt _) (flatEquiv n).2.1.val (flatEquiv n).2.1.isLt
  exact (congrArg BitVec.toInt h.1).trans h.2

theorem zerosB : ∀ k, val_main_v28 (F := Ideal) k = 0 := fun k => by
  rw [val_main_v28_apply, val_main_cst_8_apply]; exact ofBits_zero

theorem onesB : ∀ n, val_main_v35 (F := Ideal) n = 1 := fun n => by
  rw [val_main_v35_apply, val_main_cst_11_apply]; exact ofBits_one

/-- The reference's 3 x 256 array of one input is that input's histogram. -/
theorem histB (x : (⟨S32x3x512x512, .f32⟩ : BufTy).Contents (Elt Ideal)) :
    val_main_v37 (F := Ideal) x = histArr x := by
  funext i
  rw [val_main_v37_apply]
  have hz := zerosB
  have hu := onesB
  have hix := wordB x
  unfold val_main_v36
  generalize val_main_v28 (F := Ideal) = z at hz ⊢
  generalize val_main_v34 (F := Ideal) x = ix at hix ⊢
  generalize val_main_v35 (F := Ideal) = u at hu ⊢
  refine (congrFun (scatterAdd_ideal scatter_S768_S25165824x1_S25165824_n_0_0_1 z ix u) (idx_main_v37 i)).trans ?_
  exact scatter_count x z ix u hz hu hix (i 0) (i 1) (idx_main_v37 i) rfl
/-- The last stretch of host operations is the distance of the two 3 x 256 arrays, whatever they are. -/
theorem tail_eq (x0 x1 : (⟨S32x3x512x512, .f32⟩ : BufTy).Contents (Elt Ideal)) :
    val_main_v57 (F := Ideal) x0 x1 = distance (val_main_v18 (F := Ideal) x0) (val_main_v37 (F := Ideal) x1) := by
  unfold val_main_v57 val_main_v56 val_main_v55 val_main_v54 val_main_v53 val_main_v52 val_main_v51 val_main_v50
    val_main_v49 val_main_v48 val_main_v47 val_main_v46 val_main_v45 val_main_v44 val_main_v43 val_main_v42
    val_main_v41 val_main_v40 val_main_v39 val_main_v38
    val_main_cst_12 val_main_cst_13 val_main_cst_14 val_main_cst_15 val_main_cst_16 val_main_cst_17
    val_main_cst_18 val_main_cst_19 val_main_cst_20 distance
  generalize val_main_v18 (F := Ideal) x0 = a
  generalize val_main_v37 (F := Ideal) x1 = b
  rfl

/-- The reference returns the distance of the two inputs' histograms. -/
theorem ref_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out0 (F := Ideal) m c
      = Cert.Hist.distance
          (Cert.Hist.histArr (m ((c.tc : Thread Cert.ReferenceIdeal.nD Cert.ReferenceIdeal.τ).loc Cert.ReferenceIdeal.main_arg0)))
          (Cert.Hist.histArr (m ((c.tc : Thread Cert.ReferenceIdeal.nD Cert.ReferenceIdeal.τ).loc Cert.ReferenceIdeal.main_arg1))) := by
  show Cert.ReferenceIdeal.Value.res_main_v57 m c = _
  rw [val_main_v57_eq, tail_eq, histA, histB]

end Cert.ReferenceIdeal.RefValue

end
-- ==== Proof.lean ====
/-
  The certificate. Both programs compute, from two image batches, the summed Bhattacharyya distance of their per-channel
  256-bin histograms. The kernel program counts with two launches of one kernel — each grid point adds, per channel, the
  16 x 16 joint counts of the block's high and low nibbles into a 3 x 256 accumulator, restarted for each half of the
  batch and copied out at the half's last point — and sums the two halves on the host; the reference scatters a one
  per pixel into 768 bins. A bin is below 256, so it is its nibbles' 16 hi + lo and nothing else, and the joint count
  at (hi, lo) is the count of bin 16 hi + lo; the sums over grid points, blocks and halves run over every pixel once.
  The frames: each region's body, at each of its three kinds of point, runs to the end holding the accumulator at the
  contents the recurrence names, and the launch chains the two regions and the two host stretches.
-/
import proofs.«178617_j19834158972940_1_alg».proof.Defs
import proofs.«178617_j19834158972940_1_alg».proof.Proof.Gen.Kernel
import proofs.«178617_j19834158972940_1_alg».proof.Proof.Gen.KernelIdeal
import proofs.«178617_j19834158972940_1_alg».proof.Proof.Gen.ReferenceIdeal
import proofs.«178617_j19834158972940_1_alg».proof.Proof.Gen.Pre_finite_inputs
import proofs.«178617_j19834158972940_1_alg».proof.Proof.K.Run
import proofs.«178617_j19834158972940_1_alg».proof.Proof.KI.Run
import proofs.«178617_j19834158972940_1_alg».proof.Proof.KernelValue
import proofs.«178617_j19834158972940_1_alg».proof.Proof.Ref.Value
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Run.frame m ρ

theorem frame_ki : @Cert.frame_KernelIdeal Cert.KernelIdeal.Gen.facts Cert.Pre_finite_inputs.Gen.facts :=
  fun m ρ _ => Cert.KernelIdeal.Run.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the distance of the two arguments' histograms. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Hist.distance
      (Cert.Hist.histArr (m ((c.tc : Thread Cert.KernelIdeal.nD Cert.KernelIdeal.τ).loc Cert.KernelIdeal.main_arg0)))
      (Cert.Hist.histArr (m ((c.tc : Thread Cert.KernelIdeal.nD Cert.KernelIdeal.τ).loc Cert.KernelIdeal.main_arg1))), ?_, ?_⟩
  · exact (θ_run Cert.KernelIdeal.defs _ _).mono
      (fun _ h c => ⟨(h c).1.trans (Cert.KernelIdeal.Whole.result_eq m c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [show Cert.ReferenceIdeal.Value.res_main_v57 m' c = Cert.ReferenceIdeal.Value.res_out0 m' c from rfl,
      Cert.ReferenceIdeal.RefValue.ref_result, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
